-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v175) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S21000x200 : Shape := ⟨2, ![21000, 200]⟩
abbrev S128x200 : Shape := ⟨2, ![128, 200]⟩
abbrev S128x512 : Shape := ⟨2, ![128, 512]⟩
abbrev S_ : Shape := ⟨0, ![]⟩

class Facts : Prop where
  bcast_S_S21000x200 : S_.BroadcastsInDim S21000x200 (![] : Fin 0 → Fin S21000x200.rank)
  reducesTo_S21000x200_S_d0_1 : S21000x200.ReducesTo [0, 1] S_
  h_S_ : 0 < S_.numel
  bcast_S_S128x200 : S_.BroadcastsInDim S128x200 (![] : Fin 0 → Fin S128x200.rank)
  reducesTo_S128x200_S_d0_1 : S128x200.ReducesTo [0, 1] S_
  bcast_S_S128x512 : S_.BroadcastsInDim S128x512 (![] : Fin 0 → Fin S128x512.rank)
  reducesTo_S128x512_S_d0_1 : S128x512.ReducesTo [0, 1] S_

variable [Facts]

def fn_part3 {F : FTy → Type} [FloatOps F] (main_arg8 : IVec S128x512 32) (main_v43 : IVec S_ 1) (main_v49 : IVec S_ 1) : IVec S_ 1 :=
  let main_v50 : IVec S_ 1 := andi main_v43 main_v49
  let main_c_20 : IVec S_ 32 := constantI S_ 32 0#32
  let main_v51 : IVec S128x512 32 := broadcastInDim S128x512 ![] bcast_S_S128x512 main_c_20
  let main_v52 : IVec S128x512 1 := cmpi .sge main_arg8 main_v51
  let main_c_21 : IVec S_ 32 := constantI S_ 32 20575#32
  let main_v53 : IVec S128x512 32 := broadcastInDim S128x512 ![] bcast_S_S128x512 main_c_21
  let main_v54 : IVec S128x512 1 := cmpi .slt main_arg8 main_v53
  let main_v55 : IVec S128x512 1 := andi main_v52 main_v54
  let main_c_22 : IVec S_ 1 := constantI S_ 1 1#1
  let main_v56 : IVec S_ 1 := (fun x v => Host.reduce IntOp.andi x v reducesTo_S128x512_S_d0_1 h_S_) main_v55 main_c_22
  let main_v57 : IVec S_ 1 := andi main_v50 main_v56
  main_v57

def fn_part2 {F : FTy → Type} [FloatOps F] (main_arg5 : IVec S128x512 32) (main_arg6 : IVec S128x512 32) (main_arg7 : IVec S128x512 32) (main_arg8 : IVec S128x512 32) (main_v29 : IVec S_ 1) (main_v31 : IVec S128x512 1) (main_v32 : IVec S128x512 32) : IVec S_ 1 :=
  let main_v33 : IVec S128x512 1 := cmpi .slt main_arg5 main_v32
  let main_v34 : IVec S128x512 1 := andi main_v31 main_v33
  let main_c_13 : IVec S_ 1 := constantI S_ 1 1#1
  let main_v35 : IVec S_ 1 := (fun x v => Host.reduce IntOp.andi x v reducesTo_S128x512_S_d0_1 h_S_) main_v34 main_c_13
  let main_v36 : IVec S_ 1 := andi main_v29 main_v35
  let main_c_14 : IVec S_ 32 := constantI S_ 32 0#32
  let main_v37 : IVec S128x512 32 := broadcastInDim S128x512 ![] bcast_S_S128x512 main_c_14
  let main_v38 : IVec S128x512 1 := cmpi .sge main_arg6 main_v37
  let main_c_15 : IVec S_ 32 := constantI S_ 32 21000#32
  let main_v39 : IVec S128x512 32 := broadcastInDim S128x512 ![] bcast_S_S128x512 main_c_15
  let main_v40 : IVec S128x512 1 := cmpi .slt main_arg6 main_v39
  let main_v41 : IVec S128x512 1 := andi main_v38 main_v40
  let main_c_16 : IVec S_ 1 := constantI S_ 1 1#1
  let main_v42 : IVec S_ 1 := (fun x v => Host.reduce IntOp.andi x v reducesTo_S128x512_S_d0_1 h_S_) main_v41 main_c_16
  let main_v43 : IVec S_ 1 := andi main_v36 main_v42
  let main_c_17 : IVec S_ 32 := constantI S_ 32 0#32
  let main_v44 : IVec S128x512 32 := broadcastInDim S128x512 ![] bcast_S_S128x512 main_c_17
  let main_v45 : IVec S128x512 1 := cmpi .sge main_arg7 main_v44
  let main_c_18 : IVec S_ 32 := constantI S_ 32 20575#32
  let main_v46 : IVec S128x512 32 := broadcastInDim S128x512 ![] bcast_S_S128x512 main_c_18
  let main_v47 : IVec S128x512 1 := cmpi .slt main_arg7 main_v46
  let main_v48 : IVec S128x512 1 := andi main_v45 main_v47
  let main_c_19 : IVec S_ 1 := constantI S_ 1 1#1
  let main_v49 : IVec S_ 1 := (fun x v => Host.reduce IntOp.andi x v reducesTo_S128x512_S_d0_1 h_S_) main_v48 main_c_19
  fn_part3 (F := F) main_arg8 main_v43 main_v49

def fn_part1 {F : FTy → Type} [FloatOps F] (main_arg3 : IVec S128x512 32) (main_arg4 : IVec S128x512 32) (main_arg5 : IVec S128x512 32) (main_arg6 : IVec S128x512 32) (main_arg7 : IVec S128x512 32) (main_arg8 : IVec S128x512 32) (main_v15 : IVec S_ 1) (main_c_5 : IVec S_ 32) : IVec S_ 1 :=
  let main_v16 : IVec S128x512 32 := broadcastInDim S128x512 ![] bcast_S_S128x512 main_c_5
  let main_v17 : IVec S128x512 1 := cmpi .sge main_arg3 main_v16
  let main_c_6 : IVec S_ 32 := constantI S_ 32 21000#32
  let main_v18 : IVec S128x512 32 := broadcastInDim S128x512 ![] bcast_S_S128x512 main_c_6
  let main_v19 : IVec S128x512 1 := cmpi .slt main_arg3 main_v18
  let main_v20 : IVec S128x512 1 := andi main_v17 main_v19
  let main_c_7 : IVec S_ 1 := constantI S_ 1 1#1
  let main_v21 : IVec S_ 1 := (fun x v => Host.reduce IntOp.andi x v reducesTo_S128x512_S_d0_1 h_S_) main_v20 main_c_7
  let main_v22 : IVec S_ 1 := andi main_v15 main_v21
  let main_c_8 : IVec S_ 32 := constantI S_ 32 0#32
  let main_v23 : IVec S128x512 32 := broadcastInDim S128x512 ![] bcast_S_S128x512 main_c_8
  let main_v24 : IVec S128x512 1 := cmpi .sge main_arg4 main_v23
  let main_c_9 : IVec S_ 32 := constantI S_ 32 21000#32
  let main_v25 : IVec S128x512 32 := broadcastInDim S128x512 ![] bcast_S_S128x512 main_c_9
  let main_v26 : IVec S128x512 1 := cmpi .slt main_arg4 main_v25
  let main_v27 : IVec S128x512 1 := andi main_v24 main_v26
  let main_c_10 : IVec S_ 1 := constantI S_ 1 1#1
  let main_v28 : IVec S_ 1 := (fun x v => Host.reduce IntOp.andi x v reducesTo_S128x512_S_d0_1 h_S_) main_v27 main_c_10
  let main_v29 : IVec S_ 1 := andi main_v22 main_v28
  let main_c_11 : IVec S_ 32 := constantI S_ 32 0#32
  let main_v30 : IVec S128x512 32 := broadcastInDim S128x512 ![] bcast_S_S128x512 main_c_11
  let main_v31 : IVec S128x512 1 := cmpi .sge main_arg5 main_v30
  let main_c_12 : IVec S_ 32 := constantI S_ 32 21000#32
  let main_v32 : IVec S128x512 32 := broadcastInDim S128x512 ![] bcast_S_S128x512 main_c_12
  fn_part2 (F := F) main_arg5 main_arg6 main_arg7 main_arg8 main_v29 main_v31 main_v32

def fn {F : FTy → Type} [FloatOps F] (main_arg0 : FVec F S21000x200 .f32) (main_arg1 : FVec F S128x200 .f32) (main_arg2 : IVec S128x512 32) (main_arg3 : IVec S128x512 32) (main_arg4 : IVec S128x512 32) (main_arg5 : IVec S128x512 32) (main_arg6 : IVec S128x512 32) (main_arg7 : IVec S128x512 32) (main_arg8 : IVec S128x512 32) : IVec S_ 1 :=
  let main_v0 : FVec F S21000x200 .f32 := Host.absf main_arg0
  let main_cst : FVec F S_ .f32 := constant S_ .f32 0x7F800000#32
  let main_v1 : FVec F S21000x200 .f32 := broadcastInDim S21000x200 ![] bcast_S_S21000x200 main_cst
  let main_v2 : IVec S21000x200 1 := cmpf .olt main_v0 main_v1
  let main_c : IVec S_ 1 := constantI S_ 1 1#1
  let main_v3 : IVec S_ 1 := (fun x v => Host.reduce IntOp.andi x v reducesTo_S21000x200_S_d0_1 h_S_) main_v2 main_c
  let main_v4 : FVec F S128x200 .f32 := Host.absf main_arg1
  let main_cst_0 : FVec F S_ .f32 := constant S_ .f32 0x7F800000#32
  let main_v5 : FVec F S128x200 .f32 := broadcastInDim S128x200 ![] bcast_S_S128x200 main_cst_0
  let main_v6 : IVec S128x200 1 := cmpf .olt main_v4 main_v5
  let main_c_1 : IVec S_ 1 := constantI S_ 1 1#1
  let main_v7 : IVec S_ 1 := (fun x v => Host.reduce IntOp.andi x v reducesTo_S128x200_S_d0_1 h_S_) main_v6 main_c_1
  let main_v8 : IVec S_ 1 := andi main_v3 main_v7
  let main_c_2 : IVec S_ 32 := constantI S_ 32 0#32
  let main_v9 : IVec S128x512 32 := broadcastInDim S128x512 ![] bcast_S_S128x512 main_c_2
  let main_v10 : IVec S128x512 1 := cmpi .sge main_arg2 main_v9
  let main_c_3 : IVec S_ 32 := constantI S_ 32 21000#32
  let main_v11 : IVec S128x512 32 := broadcastInDim S128x512 ![] bcast_S_S128x512 main_c_3
  let main_v12 : IVec S128x512 1 := cmpi .slt main_arg2 main_v11
  let main_v13 : IVec S128x512 1 := andi main_v10 main_v12
  let main_c_4 : IVec S_ 1 := constantI S_ 1 1#1
  let main_v14 : IVec S_ 1 := (fun x v => Host.reduce IntOp.andi x v reducesTo_S128x512_S_d0_1 h_S_) main_v13 main_c_4
  let main_v15 : IVec S_ 1 := andi main_v8 main_v14
  let main_c_5 : IVec S_ 32 := constantI S_ 32 0#32
  fn_part1 (F := F) main_arg3 main_arg4 main_arg5 main_arg6 main_arg7 main_arg8 main_v15 main_c_5
-- ==== Kernel.lean ====
abbrev S21000x200 : Shape := ⟨2, ![21000, 200]⟩
abbrev S128x200 : Shape := ⟨2, ![128, 200]⟩
abbrev S128x512 : Shape := ⟨2, ![128, 512]⟩
abbrev S128x1x512 : Shape := ⟨3, ![128, 1, 512]⟩
abbrev S128x1x200 : Shape := ⟨3, ![128, 1, 200]⟩
abbrev S1x1x512 : Shape := ⟨3, ![1, 1, 512]⟩
abbrev S1x1x200 : Shape := ⟨3, ![1, 1, 200]⟩
abbrev S1x512 : Shape := ⟨2, ![1, 512]⟩
abbrev S512x1 : Shape := ⟨2, ![512, 1]⟩
abbrev S512x200 : Shape := ⟨2, ![512, 200]⟩
abbrev S512x1400 : Shape := ⟨2, ![512, 1400]⟩
abbrev S1400x200 : Shape := ⟨2, ![1400, 200]⟩
abbrev S1x200 : Shape := ⟨2, ![1, 200]⟩
abbrev S512x100 : Shape := ⟨2, ![512, 100]⟩
abbrev S1x100 : Shape := ⟨2, ![1, 100]⟩
abbrev S512 : Shape := ⟨1, ![512]⟩
abbrev S128x1x21504 : Shape := ⟨3, ![128, 1, 21504]⟩
abbrev S1x1x21504 : Shape := ⟨3, ![1, 1, 21504]⟩
abbrev S2688x512 : Shape := ⟨2, ![2688, 512]⟩
abbrev S2688 : Shape := ⟨1, ![2688]⟩
abbrev S1x1x2688 : Shape := ⟨3, ![1, 1, 2688]⟩
abbrev S128x21504 : Shape := ⟨2, ![128, 21504]⟩
abbrev S128x20575 : Shape := ⟨2, ![128, 20575]⟩
abbrev S_ : Shape := ⟨0, ![]⟩

abbrev nBuf : Space → Nat
  | .hbm => 46
  | .vmem => 29
  | .smem => 0
  | _ => 0

abbrev bufTy : (tb : Table) → Fin (tcTables nBuf tb) → BufTy
  | .hbm, ⟨0, _⟩ => ⟨S21000x200, .f32⟩
  | .hbm, ⟨1, _⟩ => ⟨S128x200, .f32⟩
  | .hbm, ⟨2, _⟩ => ⟨S128x512, .i32⟩
  | .hbm, ⟨3, _⟩ => ⟨S128x512, .i32⟩
  | .hbm, ⟨4, _⟩ => ⟨S128x512, .i32⟩
  | .hbm, ⟨5, _⟩ => ⟨S128x512, .i32⟩
  | .hbm, ⟨6, _⟩ => ⟨S128x512, .i32⟩
  | .hbm, ⟨7, _⟩ => ⟨S128x512, .i32⟩
  | .hbm, ⟨8, _⟩ => ⟨S128x512, .i32⟩
  | .hbm, ⟨9, _⟩ => ⟨S128x1x512, .i32⟩
  | .hbm, ⟨10, _⟩ => ⟨S128x1x512, .i32⟩
  | .hbm, ⟨11, _⟩ => ⟨S128x1x512, .i32⟩
  | .hbm, ⟨12, _⟩ => ⟨S128x1x512, .i32⟩
  | .hbm, ⟨13, _⟩ => ⟨S128x1x512, .i32⟩
  | .hbm, ⟨14, _⟩ => ⟨S128x1x200, .f32⟩
  | .hbm, ⟨15, _⟩ => ⟨S128x1x512, .f32⟩
  | .hbm, ⟨16, _⟩ => ⟨S128x1x512, .f32⟩
  | .hbm, ⟨17, _⟩ => ⟨S128x512, .f32⟩
  | .hbm, ⟨18, _⟩ => ⟨S128x512, .f32⟩
  | .hbm, ⟨19, _⟩ => ⟨S128x1x512, .f32⟩
  | .hbm, ⟨20, _⟩ => ⟨S128x1x512, .i32⟩
  | .hbm, ⟨21, _⟩ => ⟨S128x1x512, .f32⟩
  | .hbm, ⟨22, _⟩ => ⟨S128x1x512, .i32⟩
  | .hbm, ⟨23, _⟩ => ⟨S128x1x21504, .f32⟩
  | .hbm, ⟨24, _⟩ => ⟨S128x1x21504, .f32⟩
  | .hbm, ⟨25, _⟩ => ⟨S128x21504, .f32⟩
  | .hbm, ⟨26, _⟩ => ⟨S128x20575, .f32⟩
  | .hbm, ⟨27, _⟩ => ⟨S128x21504, .f32⟩
  | .hbm, ⟨28, _⟩ => ⟨S128x20575, .f32⟩
  | .hbm, ⟨29, _⟩ => ⟨S_, .f32⟩
  | .hbm, ⟨30, _⟩ => ⟨S128x20575, .f32⟩
  | .hbm, ⟨31, _⟩ => ⟨S_, .f32⟩
  | .hbm, ⟨32, _⟩ => ⟨S128x20575, .f32⟩
  | .hbm, ⟨33, _⟩ => ⟨S128x20575, .f32⟩
  | .hbm, ⟨34, _⟩ => ⟨S128x20575, .f32⟩
  | .hbm, ⟨35, _⟩ => ⟨S_, .f32⟩
  | .hbm, ⟨36, _⟩ => ⟨S128x20575, .f32⟩
  | .hbm, ⟨37, _⟩ => ⟨S128x20575, .f32⟩
  | .hbm, ⟨38, _⟩ => ⟨S128x20575, .f32⟩
  | .hbm, ⟨39, _⟩ => ⟨S_, .f32⟩
  | .hbm, ⟨40, _⟩ => ⟨S128x20575, .f32⟩
  | .hbm, ⟨41, _⟩ => ⟨S128x20575, .i1⟩
  | .hbm, ⟨42, _⟩ => ⟨S_, .f32⟩
  | .hbm, ⟨43, _⟩ => ⟨S_, .f32⟩
  | .hbm, ⟨44, _⟩ => ⟨S128x20575, .f32⟩
  | .hbm, ⟨45, _⟩ => ⟨S128x20575, .f32⟩
  | .local _ .vmem, ⟨0, _⟩ => ⟨S1x1x512, .i32⟩
  | .local _ .vmem, ⟨1, _⟩ => ⟨S1x1x512, .i32⟩
  | .local _ .vmem, ⟨2, _⟩ => ⟨S1x1x512, .i32⟩
  | .local _ .vmem, ⟨3, _⟩ => ⟨S1x1x512, .i32⟩
  | .local _ .vmem, ⟨4, _⟩ => ⟨S1x1x512, .i32⟩
  | .local _ .vmem, ⟨5, _⟩ => ⟨S1x1x512, .i32⟩
  | .local _ .vmem, ⟨6, _⟩ => ⟨S1x1x512, .i32⟩
  | .local _ .vmem, ⟨7, _⟩ => ⟨S1x1x512, .i32⟩
  | .local _ .vmem, ⟨8, _⟩ => ⟨S1x1x512, .i32⟩
  | .local _ .vmem, ⟨9, _⟩ => ⟨S1x1x512, .i32⟩
  | .local _ .vmem, ⟨10, _⟩ => ⟨S1x1x200, .f32⟩
  | .local _ .vmem, ⟨11, _⟩ => ⟨S1x1x200, .f32⟩
  | .local _ .vmem, ⟨12, _⟩ => ⟨S21000x200, .f32⟩
  | .local _ .vmem, ⟨13, _⟩ => ⟨S1x1x512, .f32⟩
  | .local _ .vmem, ⟨14, _⟩ => ⟨S1x1x512, .f32⟩
  | .local _ .vmem, ⟨15, _⟩ => ⟨S1x1x512, .f32⟩
  | .local _ .vmem, ⟨16, _⟩ => ⟨S1x1x512, .f32⟩
  | .local _ .vmem, ⟨17, _⟩ => ⟨S1x1x512, .f32⟩
  | .local _ .vmem, ⟨18, _⟩ => ⟨S1x1x512, .f32⟩
  | .local _ .vmem, ⟨19, _⟩ => ⟨S1x1x512, .i32⟩
  | .local _ .vmem, ⟨20, _⟩ => ⟨S1x1x512, .i32⟩
  | .local _ .vmem, ⟨21, _⟩ => ⟨S1x1x512, .f32⟩
  | .local _ .vmem, ⟨22, _⟩ => ⟨S1x1x512, .f32⟩
  | .local _ .vmem, ⟨23, _⟩ => ⟨S1x1x512, .i32⟩
  | .local _ .vmem, ⟨24, _⟩ => ⟨S1x1x512, .i32⟩
  | .local _ .vmem, ⟨25, _⟩ => ⟨S1x1x21504, .f32⟩
  | .local _ .vmem, ⟨26, _⟩ => ⟨S1x1x21504, .f32⟩
  | .local _ .vmem, ⟨27, _⟩ => ⟨S1x1x21504, .f32⟩
  | .local _ .vmem, ⟨28, _⟩ => ⟨S1x1x21504, .f32⟩
  | _, _ => ⟨S21000x200, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6_0 : Ref sig .tc := ⟨.hbm, 15, rfl⟩
abbrev main_v6_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13_0 : Ref sig .tc := ⟨.hbm, 23, rfl⟩
abbrev main_v13_1 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst : Ref sig .tc := ⟨.hbm, 29, rfl⟩
abbrev main_v18 : Ref sig .tc := ⟨.hbm, 30, rfl⟩
abbrev main_cst_0 : Ref sig .tc := ⟨.hbm, 31, rfl⟩
abbrev main_v19 : Ref sig .tc := ⟨.hbm, 32, rfl⟩
abbrev main_v20 : Ref sig .tc := ⟨.hbm, 33, rfl⟩
abbrev main_v21 : Ref sig .tc := ⟨.hbm, 34, rfl⟩
abbrev main_cst_1 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_cst_2 : Ref sig .tc := ⟨.hbm, 39, rfl⟩
abbrev main_v25 : Ref sig .tc := ⟨.hbm, 40, rfl⟩
abbrev main_v26 : Ref sig .tc := ⟨.hbm, 41, rfl⟩
abbrev main_cst_3 : Ref sig .tc := ⟨.hbm, 42, rfl⟩
abbrev main_call0_v0 : Ref sig .tc := ⟨.hbm, 43, rfl⟩
abbrev main_call0_v1 : Ref sig .tc := ⟨.hbm, 44, rfl⟩
abbrev main_v27 : Ref sig .tc := ⟨.hbm, 45, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg7_0 : Ref sig .tc := ⟨.vmem, 13, rfl⟩
abbrev cc0_stg7_1 : Ref sig .tc := ⟨.vmem, 14, rfl⟩
abbrev cc0_stg8_0 : Ref sig .tc := ⟨.vmem, 15, rfl⟩
abbrev cc0_stg8_1 : Ref sig .tc := ⟨.vmem, 16, rfl⟩
abbrev cc1_stg0_0 : Ref sig .tc := ⟨.vmem, 17, rfl⟩
abbrev cc1_stg0_1 : Ref sig .tc := ⟨.vmem, 18, rfl⟩
abbrev cc1_stg1_0 : Ref sig .tc := ⟨.vmem, 19, rfl⟩
abbrev cc1_stg1_1 : Ref sig .tc := ⟨.vmem, 20, rfl⟩
abbrev cc1_stg2_0 : Ref sig .tc := ⟨.vmem, 21, rfl⟩
abbrev cc1_stg2_1 : Ref sig .tc := ⟨.vmem, 22, rfl⟩
abbrev cc1_stg3_0 : Ref sig .tc := ⟨.vmem, 23, rfl⟩
abbrev cc1_stg3_1 : Ref sig .tc := ⟨.vmem, 24, rfl⟩
abbrev cc1_stg4_0 : Ref sig .tc := ⟨.vmem, 25, rfl⟩
abbrev cc1_stg4_1 : Ref sig .tc := ⟨.vmem, 26, rfl⟩
abbrev cc1_stg5_0 : Ref sig .tc := ⟨.vmem, 27, rfl⟩
abbrev cc1_stg5_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem7_0 : DmaSem sig := 13
abbrev cc0_sem7_1 : DmaSem sig := 14
abbrev cc0_sem8_0 : DmaSem sig := 15
abbrev cc0_sem8_1 : DmaSem sig := 16
abbrev cc1_sem0_0 : DmaSem sig := 17
abbrev cc1_sem0_1 : DmaSem sig := 18
abbrev cc1_sem1_0 : DmaSem sig := 19
abbrev cc1_sem1_1 : DmaSem sig := 20
abbrev cc1_sem2_0 : DmaSem sig := 21
abbrev cc1_sem2_1 : DmaSem sig := 22
abbrev cc1_sem3_0 : DmaSem sig := 23
abbrev cc1_sem3_1 : DmaSem sig := 24
abbrev cc1_sem4_0 : DmaSem sig := 25
abbrev cc1_sem4_1 : DmaSem sig := 26
abbrev cc1_sem5_0 : DmaSem sig := 27
abbrev cc1_sem5_1 : DmaSem sig := 28

abbrev nD : Nat := 1
abbrev τ : Topo := Topo.v7x

variable {F : FTy → Type} [FloatOps F]

abbrev grid0 : Pipeline.Grid := ⟨1, ![128], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1x512 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x512 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1x512 .i32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x1x512 .i32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x1x200 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S21000x200 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S1x1x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev grid1 : Pipeline.Grid := ⟨1, ![128], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_4 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc1_transform_5 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S1x1x512 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S1x1x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 2 → Memref sig .tc .vmem S1x1x512 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 2 → Memref sig .tc .vmem S1x1x21504 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev stage1_5 : Fin 2 → Memref sig .tc .vmem S1x1x21504 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

class Facts₀ : Prop where
  shapeCasts_S128x512_S128x1x512 : S128x512.ShapeCasts S128x1x512
  shapeCasts_S128x200_S128x1x200 : S128x200.ShapeCasts S128x1x200
  inb_S1x1x512_S1x1x512_0_0_0 : ∀ a, (![0, 0, 0] : Fin 3 → Nat) a + S1x1x512.size a ≤ S1x1x512.size a
  h_S1x1x512 : 0 < S1x1x512.numel
  shapeCasts_S1x1x512_S1x1x512 : S1x1x512.ShapeCasts S1x1x512
  shapeCasts_S1x1x512_S1x512 : S1x1x512.ShapeCasts S1x512
  transposes_S1x512_p1_0_S512x1 : S1x512.Transposes [1, 0] S512x1
  iota_S512x1400_d1_w32 : S512x1400.Iotas .tc 32 [1]
  broadcasts_S512x1_S512x1400 : S512x1.Broadcasts S512x1400
  natLt_1_32 : 1 < 32
  bitsLt_bf16_f32 : FTy.bits .bf16 < FTy.bits .f32
  inb_S21000x200_S1400x200_0_0 : ∀ a, (![0, 0] : Fin 2 → Nat) a + S1400x200.size a ≤ S21000x200.size a
  h_S1400x200 : 0 < S1400x200.numel
  inb_S21000x200_S1400x200_1400_0 : ∀ a, (![1400, 0] : Fin 2 → Nat) a + S1400x200.size a ≤ S21000x200.size a
  inb_S21000x200_S1400x200_2800_0 : ∀ a, (![2800, 0] : Fin 2 → Nat) a + S1400x200.size a ≤ S21000x200.size a
  inb_S21000x200_S1400x200_4200_0 : ∀ a, (![4200, 0] : Fin 2 → Nat) a + S1400x200.size a ≤ S21000x200.size a
  inb_S21000x200_S1400x200_5600_0 : ∀ a, (![5600, 0] : Fin 2 → Nat) a + S1400x200.size a ≤ S21000x200.size a
  inb_S21000x200_S1400x200_7000_0 : ∀ a, (![7000, 0] : Fin 2 → Nat) a + S1400x200.size a ≤ S21000x200.size a
  inb_S21000x200_S1400x200_8400_0 : ∀ a, (![8400, 0] : Fin 2 → Nat) a + S1400x200.size a ≤ S21000x200.size a
  inb_S21000x200_S1400x200_9800_0 : ∀ a, (![9800, 0] : Fin 2 → Nat) a + S1400x200.size a ≤ S21000x200.size a
  inb_S21000x200_S1400x200_11200_0 : ∀ a, (![11200, 0] : Fin 2 → Nat) a + S1400x200.size a ≤ S21000x200.size a
  inb_S21000x200_S1400x200_12600_0 : ∀ a, (![12600, 0] : Fin 2 → Nat) a + S1400x200.size a ≤ S21000x200.size a
  inb_S21000x200_S1400x200_14000_0 : ∀ a, (![14000, 0] : Fin 2 → Nat) a + S1400x200.size a ≤ S21000x200.size a
  inb_S21000x200_S1400x200_15400_0 : ∀ a, (![15400, 0] : Fin 2 → Nat) a + S1400x200.size a ≤ S21000x200.size a
  inb_S21000x200_S1400x200_16800_0 : ∀ a, (![16800, 0] : Fin 2 → Nat) a + S1400x200.size a ≤ S21000x200.size a
  inb_S21000x200_S1400x200_18200_0 : ∀ a, (![18200, 0] : Fin 2 → Nat) a + S1400x200.size a ≤ S21000x200.size a
  inb_S21000x200_S1400x200_19600_0 : ∀ a, (![19600, 0] : Fin 2 → Nat) a + S1400x200.size a ≤ S21000x200.size a
  inb_S1x1x200_S1x1x200_0_0_0 : ∀ a, (![0, 0, 0] : Fin 3 → Nat) a + S1x1x200.size a ≤ S1x1x200.size a
  h_S1x1x200 : 0 < S1x1x200.numel
  shapeCasts_S1x1x200_S1x1x200 : S1x1x200.ShapeCasts S1x1x200
  shapeCasts_S1x1x200_S1x200 : S1x1x200.ShapeCasts S1x200
  slices_S512x200_o0_0_S512x100 : S512x200.Slices ![0, 0] S512x100
  slices_S512x200_o0_100_S512x100 : S512x200.Slices ![0, 100] S512x100
  slices_S1x200_o0_0_S1x100 : S1x200.Slices ![0, 0] S1x100
  slices_S1x200_o0_100_S1x100 : S1x200.Slices ![0, 100] S1x100
  broadcasts_S1x100_S512x100 : S1x100.Broadcasts S512x100
  reduces_S512x100_S512 : S512x100.Reduces [1] S512
  shapeCasts_S512_S1x1x512 : S512.ShapeCasts S1x1x512
  shapeCasts_S128x1x512_S128x512 : S128x1x512.ShapeCasts S128x512
  iota_S2688x512_d0_w32 : S2688x512.Iotas .tc 32 [0]
  broadcasts_S1x512_S2688x512 : S1x512.Broadcasts S2688x512
  reduces_S2688x512_S2688 : S2688x512.Reduces [1] S2688
  inb_S1x1x21504_S1x1x2688_0_0_0 : ∀ a, (![0, 0, 0] : Fin 3 → Nat) a + S1x1x2688.size a ≤ S1x1x21504.size a
  h_S1x1x2688 : 0 < S1x1x2688.numel
  shapeCasts_S1x1x2688_S2688 : S1x1x2688.ShapeCasts S2688
  shapeCasts_S2688_S1x1x2688 : S2688.ShapeCasts S1x1x2688
  inb_S1x1x21504_S1x1x2688_0_0_2688 : ∀ a, (![0, 0, 2688] : Fin 3 → Nat) a + S1x1x2688.size a ≤ S1x1x21504.size a
  inb_S1x1x21504_S1x1x2688_0_0_5376 : ∀ a, (![0, 0, 5376] : Fin 3 → Nat) a + S1x1x2688.size a ≤ S1x1x21504.size a
  inb_S1x1x21504_S1x1x2688_0_0_8064 : ∀ a, (![0, 0, 8064] : Fin 3 → Nat) a + S1x1x2688.size a ≤ S1x1x21504.size a
  inb_S1x1x21504_S1x1x2688_0_0_10752 : ∀ a, (![0, 0, 10752] : Fin 3 → Nat) a + S1x1x2688.size a ≤ S1x1x21504.size a
  inb_S1x1x21504_S1x1x2688_0_0_13440 : ∀ a, (![0, 0, 13440] : Fin 3 → Nat) a + S1x1x2688.size a ≤ S1x1x21504.size a
  inb_S1x1x21504_S1x1x2688_0_0_16128 : ∀ a, (![0, 0, 16128] : Fin 3 → Nat) a + S1x1x2688.size a ≤ S1x1x21504.size a
  inb_S1x1x21504_S1x1x2688_0_0_18816 : ∀ a, (![0, 0, 18816] : Fin 3 → Nat) a + S1x1x2688.size a ≤ S1x1x21504.size a
  shapeCasts_S128x1x21504_S128x21504 : S128x1x21504.ShapeCasts S128x21504
  slices_S128x21504_S128x20575_0_0 : S128x21504.Slices ![0, 0] S128x20575
  bcast_S_S128x20575 : S_.BroadcastsInDim S128x20575 (![] : Fin 0 → Fin S128x20575.rank)
  dot_S512x1400_S1400x200_S512x200_1_0_0_1_n_n_wf : DotDims.WF S512x1400 S1400x200 S512x200 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1x512.size a ≤ S128x1x512.size a
  hwx0_0 : ∀ i : grid0.Coords, EltTy.bits .i32 = 32 ∨ (Rect.block (s := S128x1x512) S1x1x512.size (cc0_transform_0 i) (hinb0_0 i)).WholeWords (EltTy.packing .i32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x512.size a ≤ S128x1x512.size a
  hwx0_1 : ∀ i : grid0.Coords, EltTy.bits .i32 = 32 ∨ (Rect.block (s := S128x1x512) S1x1x512.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x512.size a ≤ S128x1x512.size a
  hwx0_2 : ∀ i : grid0.Coords, EltTy.bits .i32 = 32 ∨ (Rect.block (s := S128x1x512) S1x1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1x512.size a ≤ S128x1x512.size a
  hwx0_3 : ∀ i : grid0.Coords, EltTy.bits .i32 = 32 ∨ (Rect.block (s := S128x1x512) S1x1x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S1x1x512.size a ≤ S128x1x512.size a
  hwx0_4 : ∀ i : grid0.Coords, EltTy.bits .i32 = 32 ∨ (Rect.block (s := S128x1x512) S1x1x512.size (cc0_transform_4 i) (hinb0_4 i)).WholeWords (EltTy.packing .i32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S1x1x200.size a ≤ S128x1x200.size a
  hwx0_5 : ∀ i : grid0.Coords, EltTy.bits .f32 = 32 ∨ (Rect.block (s := S128x1x200) S1x1x200.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S21000x200.size a ≤ S21000x200.size a
  hwx0_6 : ∀ i : grid0.Coords, EltTy.bits .f32 = 32 ∨ (Rect.block (s := S21000x200) S21000x200.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S1x1x512.size a ≤ S128x1x512.size a
  hwx0_7 : ∀ i : grid0.Coords, EltTy.bits .f32 = 32 ∨ (Rect.block (s := S128x1x512) S1x1x512.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S1x1x512.size a ≤ S128x1x512.size a
  hwx0_8 : ∀ i : grid0.Coords, EltTy.bits .f32 = 32 ∨ (Rect.block (s := S128x1x512) S1x1x512.size (cc0_transform_8 i) (hinb0_8 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1x512.size a ≤ S128x1x512.size a
  hwx1_0 : ∀ i : grid1.Coords, EltTy.bits .f32 = 32 ∨ (Rect.block (s := S128x1x512) S1x1x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x512.size a ≤ S128x1x512.size a
  hwx1_1 : ∀ i : grid1.Coords, EltTy.bits .i32 = 32 ∨ (Rect.block (s := S128x1x512) S1x1x512.size (cc1_transform_1 i) (hinb1_1 i)).WholeWords (EltTy.packing .i32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1x512.size a ≤ S128x1x512.size a
  hwx1_2 : ∀ i : grid1.Coords, EltTy.bits .f32 = 32 ∨ (Rect.block (s := S128x1x512) S1x1x512.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1x512.size a ≤ S128x1x512.size a
  hwx1_3 : ∀ i : grid1.Coords, EltTy.bits .i32 = 32 ∨ (Rect.block (s := S128x1x512) S1x1x512.size (cc1_transform_3 i) (hinb1_3 i)).WholeWords (EltTy.packing .i32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x1x21504.size a ≤ S128x1x21504.size a
  hwx1_4 : ∀ i : grid1.Coords, EltTy.bits .f32 = 32 ∨ (Rect.block (s := S128x1x21504) S1x1x21504.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x1x21504.size a ≤ S128x1x21504.size a
  hwx1_5 : ∀ i : grid1.Coords, EltTy.bits .f32 = 32 ∨ (Rect.block (s := S128x1x21504) S1x1x21504.size (cc1_transform_5 i) (hinb1_5 i)).WholeWords (EltTy.packing .f32)

variable [Facts₀]

def dot_S512x1400_S1400x200_S512x200_1_0_0_1_n_n : DotDims S512x1400 S1400x200 S512x200 where
  lhsContracting := [1]
  rhsContracting := [0]
  lhsNonContracting := [0]
  rhsNonContracting := [1]
  lhsBatch := []
  rhsBatch := []
  wf := dot_S512x1400_S1400x200_S512x200_1_0_0_1_n_n_wf

abbrev win0_0 : Pipeline.Window sig grid0 :=
  Pipeline.Window.ofSpec (Memref.whole main_v0) S1x1x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x1x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v3) S1x1x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v4) S1x1x512.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v5) S1x1x200.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg0) S21000x200.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v6_0) S1x1x512.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v6_1) S1x1x512.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev win1_0 : Pipeline.Window sig grid1 :=
  Pipeline.Window.ofSpec (Memref.whole main_v9) S1x1x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v10) S1x1x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v11) S1x1x512.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v12) S1x1x512.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v13_0) S1x1x21504.size cc1_transform_4 reads1_4 true false 2 stage1_4 sem1_4
    hrank1 hreads1_4 hinb1_4 nbuf1_4 (Memref.isWhole_whole _) hwx1_4 hstage1_4

abbrev win1_5 : Pipeline.Window sig grid1 :=
  Pipeline.Window.ofSpec (Memref.whole main_v13_1) S1x1x21504.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

class Facts : Prop extends Facts₀ where

variable [Facts]
-- ==== ReferenceIdeal.lean ====
abbrev S21000x200 : Shape := ⟨2, ![21000, 200]⟩
abbrev S128x200 : Shape := ⟨2, ![128, 200]⟩
abbrev S128x512 : Shape := ⟨2, ![128, 512]⟩
abbrev S_ : Shape := ⟨0, ![]⟩
abbrev S128x512x1 : Shape := ⟨3, ![128, 512, 1]⟩
abbrev S128x512x200 : Shape := ⟨3, ![128, 512, 200]⟩
abbrev S128x1x200 : Shape := ⟨3, ![128, 1, 200]⟩
abbrev S128x512x100 : Shape := ⟨3, ![128, 512, 100]⟩
abbrev S128x1x100 : Shape := ⟨3, ![128, 1, 100]⟩
abbrev S128 : Shape := ⟨1, ![128]⟩
abbrev S128x1 : Shape := ⟨2, ![128, 1]⟩
abbrev S65536 : Shape := ⟨1, ![65536]⟩
abbrev S2633600 : Shape := ⟨1, ![2633600]⟩
abbrev S65536x1 : Shape := ⟨2, ![65536, 1]⟩
abbrev S128x20575 : Shape := ⟨2, ![128, 20575]⟩

abbrev nBuf : Space → Nat
  | .hbm => 222
  | .vmem => 0
  | .smem => 0
  | _ => 0

abbrev hbmTy0_0 (i : Nat) : BufTy := match i % 128 with
  | 0 => ⟨S21000x200, .f32⟩
  | 1 => ⟨S128x200, .f32⟩
  | 2 => ⟨S128x512, .i32⟩
  | 3 => ⟨S128x512, .i32⟩
  | 4 => ⟨S128x512, .i32⟩
  | 5 => ⟨S128x512, .i32⟩
  | 6 => ⟨S128x512, .i32⟩
  | 7 => ⟨S128x512, .i32⟩
  | 8 => ⟨S128x512, .i32⟩
  | 9 => ⟨S_, .i32⟩
  | 10 => ⟨S128x512, .i32⟩
  | 11 => ⟨S128x512, .i1⟩
  | 12 => ⟨S_, .i32⟩
  | 13 => ⟨S128x512, .i32⟩
  | 14 => ⟨S128x512, .i32⟩
  | 15 => ⟨S128x512, .i32⟩
  | 16 => ⟨S128x512x1, .i32⟩
  | 17 => ⟨S128x512x200, .f32⟩
  | 18 => ⟨S_, .i32⟩
  | 19 => ⟨S128x512, .i32⟩
  | 20 => ⟨S128x512, .i1⟩
  | 21 => ⟨S_, .i32⟩
  | 22 => ⟨S128x512, .i32⟩
  | 23 => ⟨S128x512, .i32⟩
  | 24 => ⟨S128x512, .i32⟩
  | 25 => ⟨S128x512x1, .i32⟩
  | 26 => ⟨S128x512x200, .f32⟩
  | 27 => ⟨S_, .i32⟩
  | 28 => ⟨S128x512, .i32⟩
  | 29 => ⟨S128x512, .i1⟩
  | 30 => ⟨S_, .i32⟩
  | 31 => ⟨S128x512, .i32⟩
  | 32 => ⟨S128x512, .i32⟩
  | 33 => ⟨S128x512, .i32⟩
  | 34 => ⟨S128x512x1, .i32⟩
  | 35 => ⟨S128x512x200, .f32⟩
  | 36 => ⟨S_, .i32⟩
  | 37 => ⟨S128x512, .i32⟩
  | 38 => ⟨S128x512, .i1⟩
  | 39 => ⟨S_, .i32⟩
  | 40 => ⟨S128x512, .i32⟩
  | 41 => ⟨S128x512, .i32⟩
  | 42 => ⟨S128x512, .i32⟩
  | 43 => ⟨S128x512x1, .i32⟩
  | 44 => ⟨S128x512x200, .f32⟩
  | 45 => ⟨S_, .i32⟩
  | 46 => ⟨S128x512, .i32⟩
  | 47 => ⟨S128x512, .i1⟩
  | 48 => ⟨S_, .i32⟩
  | 49 => ⟨S128x512, .i32⟩
  | 50 => ⟨S128x512, .i32⟩
  | 51 => ⟨S128x512, .i32⟩
  | 52 => ⟨S128x512x1, .i32⟩
  | 53 => ⟨S128x512x200, .f32⟩
  | 54 => ⟨S128x1x200, .f32⟩
  | 55 => ⟨S128x512x100, .f32⟩
  | 56 => ⟨S128x512x100, .f32⟩
  | 57 => ⟨S128x512x100, .f32⟩
  | 58 => ⟨S128x512x100, .f32⟩
  | 59 => ⟨S128x512x100, .f32⟩
  | 60 => ⟨S128x512x100, .f32⟩
  | 61 => ⟨S128x1x100, .f32⟩
  | 62 => ⟨S128x1x100, .f32⟩
  | 63 => ⟨S128x512x100, .f32⟩
  | 64 => ⟨S128x512x100, .f32⟩
  | 65 => ⟨S128x512x100, .f32⟩
  | 66 => ⟨S128x512x100, .f32⟩
  | 67 => ⟨S128x512x100, .f32⟩
  | 68 => ⟨S128x512x100, .f32⟩
  | 69 => ⟨S128x512x100, .f32⟩
  | 70 => ⟨S128x512x100, .f32⟩
  | 71 => ⟨S128x512x100, .f32⟩
  | 72 => ⟨S128x512x100, .f32⟩
  | 73 => ⟨S128x512x100, .f32⟩
  | 74 => ⟨S128x512x100, .f32⟩
  | 75 => ⟨S128x512x100, .f32⟩
  | 76 => ⟨S128x512x100, .f32⟩
  | 77 => ⟨S128x512x100, .f32⟩
  | 78 => ⟨S128x512x100, .f32⟩
  | 79 => ⟨S128x512x100, .f32⟩
  | 80 => ⟨S128x512x100, .f32⟩
  | 81 => ⟨S128x512x100, .f32⟩
  | 82 => ⟨S128x512x100, .f32⟩
  | 83 => ⟨S128x512x100, .f32⟩
  | 84 => ⟨S128x512x100, .f32⟩
  | 85 => ⟨S128x512x100, .f32⟩
  | 86 => ⟨S128x512x100, .f32⟩
  | 87 => ⟨S128x512x100, .f32⟩
  | 88 => ⟨S128x512x100, .f32⟩
  | 89 => ⟨S128x512x100, .f32⟩
  | 90 => ⟨S128x512x100, .f32⟩
  | 91 => ⟨S128x512x100, .f32⟩
  | 92 => ⟨S128x512x100, .f32⟩
  | 93 => ⟨S128x512x100, .f32⟩
  | 94 => ⟨S128x512x100, .f32⟩
  | 95 => ⟨S128x512x100, .f32⟩
  | 96 => ⟨S_, .f32⟩
  | 97 => ⟨S128x512, .f32⟩
  | 98 => ⟨S128, .i32⟩
  | 99 => ⟨S128x1, .i32⟩
  | 100 => ⟨S_, .i32⟩
  | 101 => ⟨S128x1, .i32⟩
  | 102 => ⟨S128x1, .i32⟩
  | 103 => ⟨S128x512, .i32⟩
  | 104 => ⟨S128x512, .i32⟩
  | 105 => ⟨S65536, .i32⟩
  | 106 => ⟨S65536, .f32⟩
  | 107 => ⟨S_, .f32⟩
  | 108 => ⟨S2633600, .f32⟩
  | 109 => ⟨S65536x1, .i32⟩
  | 110 => ⟨S2633600, .f32⟩
  | 111 => ⟨S128x20575, .f32⟩
  | 112 => ⟨S_, .f32⟩
  | 113 => ⟨S65536, .f32⟩
  | 114 => ⟨S_, .f32⟩
  | 115 => ⟨S2633600, .f32⟩
  | 116 => ⟨S65536x1, .i32⟩
  | 117 => ⟨S2633600, .f32⟩
  | 118 => ⟨S128x20575, .f32⟩
  | 119 => ⟨S_, .f32⟩
  | 120 => ⟨S128x20575, .f32⟩
  | 121 => ⟨S128x20575, .i1⟩
  | 122 => ⟨S_, .f32⟩
  | 123 => ⟨S128x20575, .f32⟩
  | 124 => ⟨S128x20575, .f32⟩
  | 125 => ⟨S128x20575, .f32⟩
  | 126 => ⟨S_, .f32⟩
  | 127 => ⟨S_, .f32⟩
  | _ => ⟨S21000x200, .f32⟩

abbrev hbmTy0_1 (i : Nat) : BufTy := match i % 128 with
  | 0 => ⟨S128x20575, .f32⟩
  | 1 => ⟨S128x20575, .f32⟩
  | 2 => ⟨S128x512x100, .f32⟩
  | 3 => ⟨S128x512x100, .f32⟩
  | 4 => ⟨S128x512x100, .f32⟩
  | 5 => ⟨S128x512x100, .f32⟩
  | 6 => ⟨S128x512x100, .f32⟩
  | 7 => ⟨S128x512x100, .f32⟩
  | 8 => ⟨S128x1x100, .f32⟩
  | 9 => ⟨S128x1x100, .f32⟩
  | 10 => ⟨S128x512x100, .f32⟩
  | 11 => ⟨S128x512x100, .f32⟩
  | 12 => ⟨S128x512x100, .f32⟩
  | 13 => ⟨S128x512x100, .f32⟩
  | 14 => ⟨S128x512x100, .f32⟩
  | 15 => ⟨S128x512x100, .f32⟩
  | 16 => ⟨S128x512x100, .f32⟩
  | 17 => ⟨S128x512x100, .f32⟩
  | 18 => ⟨S128x512x100, .f32⟩
  | 19 => ⟨S128x512x100, .f32⟩
  | 20 => ⟨S128x512x100, .f32⟩
  | 21 => ⟨S128x512x100, .f32⟩
  | 22 => ⟨S128x512x100, .f32⟩
  | 23 => ⟨S128x512x100, .f32⟩
  | 24 => ⟨S128x512x100, .f32⟩
  | 25 => ⟨S128x512x100, .f32⟩
  | 26 => ⟨S128x512x100, .f32⟩
  | 27 => ⟨S128x512x100, .f32⟩
  | 28 => ⟨S128x512x100, .f32⟩
  | 29 => ⟨S128x512x100, .f32⟩
  | 30 => ⟨S128x512x100, .f32⟩
  | 31 => ⟨S128x512x100, .f32⟩
  | 32 => ⟨S128x512x100, .f32⟩
  | 33 => ⟨S128x512x100, .f32⟩
  | 34 => ⟨S128x512x100, .f32⟩
  | 35 => ⟨S128x512x100, .f32⟩
  | 36 => ⟨S128x512x100, .f32⟩
  | 37 => ⟨S128x512x100, .f32⟩
  | 38 => ⟨S128x512x100, .f32⟩
  | 39 => ⟨S128x512x100, .f32⟩
  | 40 => ⟨S128x512x100, .f32⟩
  | 41 => ⟨S128x512x100, .f32⟩
  | 42 => ⟨S128x512x100, .f32⟩
  | 43 => ⟨S_, .f32⟩
  | 44 => ⟨S128x512, .f32⟩
  | 45 => ⟨S128, .i32⟩
  | 46 => ⟨S128x1, .i32⟩
  | 47 => ⟨S_, .i32⟩
  | 48 => ⟨S128x1, .i32⟩
  | 49 => ⟨S128x1, .i32⟩
  | 50 => ⟨S128x512, .i32⟩
  | 51 => ⟨S128x512, .i32⟩
  | 52 => ⟨S65536, .i32⟩
  | 53 => ⟨S65536, .f32⟩
  | 54 => ⟨S_, .f32⟩
  | 55 => ⟨S2633600, .f32⟩
  | 56 => ⟨S65536x1, .i32⟩
  | 57 => ⟨S2633600, .f32⟩
  | 58 => ⟨S128x20575, .f32⟩
  | 59 => ⟨S_, .f32⟩
  | 60 => ⟨S65536, .f32⟩
  | 61 => ⟨S_, .f32⟩
  | 62 => ⟨S2633600, .f32⟩
  | 63 => ⟨S65536x1, .i32⟩
  | 64 => ⟨S2633600, .f32⟩
  | 65 => ⟨S128x20575, .f32⟩
  | 66 => ⟨S_, .f32⟩
  | 67 => ⟨S128x20575, .f32⟩
  | 68 => ⟨S128x20575, .i1⟩
  | 69 => ⟨S_, .f32⟩
  | 70 => ⟨S128x20575, .f32⟩
  | 71 => ⟨S128x20575, .f32⟩
  | 72 => ⟨S128x20575, .f32⟩
  | 73 => ⟨S_, .f32⟩
  | 74 => ⟨S_, .f32⟩
  | 75 => ⟨S128x20575, .f32⟩
  | 76 => ⟨S128x20575, .f32⟩
  | 77 => ⟨S_, .f32⟩
  | 78 => ⟨S128x20575, .f32⟩
  | 79 => ⟨S_, .f32⟩
  | 80 => ⟨S128x20575, .f32⟩
  | 81 => ⟨S128x20575, .f32⟩
  | 82 => ⟨S128x20575, .f32⟩
  | 83 => ⟨S_, .f32⟩
  | 84 => ⟨S128x20575, .f32⟩
  | 85 => ⟨S128x20575, .f32⟩
  | 86 => ⟨S128x20575, .f32⟩
  | 87 => ⟨S_, .f32⟩
  | 88 => ⟨S128x20575, .f32⟩
  | 89 => ⟨S128x20575, .i1⟩
  | 90 => ⟨S_, .f32⟩
  | 91 => ⟨S_, .f32⟩
  | 92 => ⟨S128x20575, .f32⟩
  | 93 => ⟨S128x20575, .f32⟩
  | _ => ⟨S21000x200, .f32⟩

abbrev hbmTy (i : Nat) : BufTy := match i / 128 with
  | 0 => hbmTy0_0 i
  | 1 => hbmTy0_1 i
  | _ => ⟨S21000x200, .f32⟩

abbrev bufTy : (tb : Table) → Fin (tcTables nBuf tb) → BufTy
  | .hbm, ⟨i, _⟩ => hbmTy i
  | _, _ => ⟨S21000x200, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_c_3 : Ref sig .tc := ⟨.hbm, 27, rfl⟩
abbrev main_v14 : Ref sig .tc := ⟨.hbm, 28, rfl⟩
abbrev main_v15 : Ref sig .tc := ⟨.hbm, 29, rfl⟩
abbrev main_c_4 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_c_5 : Ref sig .tc := ⟨.hbm, 36, rfl⟩
abbrev main_v21 : Ref sig .tc := ⟨.hbm, 37, rfl⟩
abbrev main_v22 : Ref sig .tc := ⟨.hbm, 38, rfl⟩
abbrev main_c_6 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_c_7 : Ref sig .tc := ⟨.hbm, 45, rfl⟩
abbrev main_v28 : Ref sig .tc := ⟨.hbm, 46, rfl⟩
abbrev main_v29 : Ref sig .tc := ⟨.hbm, 47, rfl⟩
abbrev main_c_8 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_v47 : Ref sig .tc := ⟨.hbm, 66, rfl⟩
abbrev main_v48 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_cst : Ref sig .tc := ⟨.hbm, 96, rfl⟩
abbrev main_v77 : Ref sig .tc := ⟨.hbm, 97, rfl⟩
abbrev main_v78 : Ref sig .tc := ⟨.hbm, 98, rfl⟩
abbrev main_v79 : Ref sig .tc := ⟨.hbm, 99, rfl⟩
abbrev main_c_9 : Ref sig .tc := ⟨.hbm, 100, rfl⟩
abbrev main_v80 : Ref sig .tc := ⟨.hbm, 101, rfl⟩
abbrev main_v81 : Ref sig .tc := ⟨.hbm, 102, rfl⟩
abbrev main_v82 : Ref sig .tc := ⟨.hbm, 103, rfl⟩
abbrev main_v83 : Ref sig .tc := ⟨.hbm, 104, rfl⟩
abbrev main_v84 : Ref sig .tc := ⟨.hbm, 105, rfl⟩
abbrev main_v85 : Ref sig .tc := ⟨.hbm, 106, rfl⟩
abbrev main_cst_10 : Ref sig .tc := ⟨.hbm, 107, rfl⟩
abbrev main_v86 : Ref sig .tc := ⟨.hbm, 108, rfl⟩
abbrev main_v87 : Ref sig .tc := ⟨.hbm, 109, rfl⟩
abbrev main_v88 : Ref sig .tc := ⟨.hbm, 110, rfl⟩
abbrev main_v89 : Ref sig .tc := ⟨.hbm, 111, rfl⟩
abbrev main_cst_11 : Ref sig .tc := ⟨.hbm, 112, rfl⟩
abbrev main_v90 : Ref sig .tc := ⟨.hbm, 113, rfl⟩
abbrev main_cst_12 : Ref sig .tc := ⟨.hbm, 114, rfl⟩
abbrev main_v91 : Ref sig .tc := ⟨.hbm, 115, rfl⟩
abbrev main_v92 : Ref sig .tc := ⟨.hbm, 116, rfl⟩
abbrev main_v93 : Ref sig .tc := ⟨.hbm, 117, rfl⟩
abbrev main_v94 : Ref sig .tc := ⟨.hbm, 118, rfl⟩
abbrev main_cst_13 : Ref sig .tc := ⟨.hbm, 119, rfl⟩
abbrev main_v95 : Ref sig .tc := ⟨.hbm, 120, rfl⟩
abbrev main_v96 : Ref sig .tc := ⟨.hbm, 121, rfl⟩
abbrev main_cst_14 : Ref sig .tc := ⟨.hbm, 122, rfl⟩
abbrev main_v97 : Ref sig .tc := ⟨.hbm, 123, rfl⟩
abbrev main_v98 : Ref sig .tc := ⟨.hbm, 124, rfl⟩
abbrev main_v99 : Ref sig .tc := ⟨.hbm, 125, rfl⟩
abbrev main_cst_15 : Ref sig .tc := ⟨.hbm, 126, rfl⟩
abbrev main_call0_v0 : Ref sig .tc := ⟨.hbm, 127, rfl⟩
abbrev main_call0_v1 : Ref sig .tc := ⟨.hbm, 128, rfl⟩
abbrev main_v100 : Ref sig .tc := ⟨.hbm, 129, rfl⟩
abbrev main_v101 : Ref sig .tc := ⟨.hbm, 130, rfl⟩
abbrev main_v102 : Ref sig .tc := ⟨.hbm, 131, rfl⟩
abbrev main_v103 : Ref sig .tc := ⟨.hbm, 132, rfl⟩
abbrev main_v104 : Ref sig .tc := ⟨.hbm, 133, rfl⟩
abbrev main_v105 : Ref sig .tc := ⟨.hbm, 134, rfl⟩
abbrev main_v106 : Ref sig .tc := ⟨.hbm, 135, rfl⟩
abbrev main_v107 : Ref sig .tc := ⟨.hbm, 136, rfl⟩
abbrev main_v108 : Ref sig .tc := ⟨.hbm, 137, rfl⟩
abbrev main_v109 : Ref sig .tc := ⟨.hbm, 138, rfl⟩
abbrev main_v110 : Ref sig .tc := ⟨.hbm, 139, rfl⟩
abbrev main_v111 : Ref sig .tc := ⟨.hbm, 140, rfl⟩
abbrev main_v112 : Ref sig .tc := ⟨.hbm, 141, rfl⟩
abbrev main_v113 : Ref sig .tc := ⟨.hbm, 142, rfl⟩
abbrev main_v114 : Ref sig .tc := ⟨.hbm, 143, rfl⟩
abbrev main_v115 : Ref sig .tc := ⟨.hbm, 144, rfl⟩
abbrev main_v116 : Ref sig .tc := ⟨.hbm, 145, rfl⟩
abbrev main_v117 : Ref sig .tc := ⟨.hbm, 146, rfl⟩
abbrev main_v118 : Ref sig .tc := ⟨.hbm, 147, rfl⟩
abbrev main_v119 : Ref sig .tc := ⟨.hbm, 148, rfl⟩
abbrev main_v120 : Ref sig .tc := ⟨.hbm, 149, rfl⟩
abbrev main_v121 : Ref sig .tc := ⟨.hbm, 150, rfl⟩
abbrev main_v122 : Ref sig .tc := ⟨.hbm, 151, rfl⟩
abbrev main_v123 : Ref sig .tc := ⟨.hbm, 152, rfl⟩
abbrev main_v124 : Ref sig .tc := ⟨.hbm, 153, rfl⟩
abbrev main_v125 : Ref sig .tc := ⟨.hbm, 154, rfl⟩
abbrev main_v126 : Ref sig .tc := ⟨.hbm, 155, rfl⟩
abbrev main_v127 : Ref sig .tc := ⟨.hbm, 156, rfl⟩
abbrev main_v128 : Ref sig .tc := ⟨.hbm, 157, rfl⟩
abbrev main_v129 : Ref sig .tc := ⟨.hbm, 158, rfl⟩
abbrev main_v130 : Ref sig .tc := ⟨.hbm, 159, rfl⟩
abbrev main_v131 : Ref sig .tc := ⟨.hbm, 160, rfl⟩
abbrev main_v132 : Ref sig .tc := ⟨.hbm, 161, rfl⟩
abbrev main_v133 : Ref sig .tc := ⟨.hbm, 162, rfl⟩
abbrev main_v134 : Ref sig .tc := ⟨.hbm, 163, rfl⟩
abbrev main_v135 : Ref sig .tc := ⟨.hbm, 164, rfl⟩
abbrev main_v136 : Ref sig .tc := ⟨.hbm, 165, rfl⟩
abbrev main_v137 : Ref sig .tc := ⟨.hbm, 166, rfl⟩
abbrev main_v138 : Ref sig .tc := ⟨.hbm, 167, rfl⟩
abbrev main_v139 : Ref sig .tc := ⟨.hbm, 168, rfl⟩
abbrev main_v140 : Ref sig .tc := ⟨.hbm, 169, rfl⟩
abbrev main_v141 : Ref sig .tc := ⟨.hbm, 170, rfl⟩
abbrev main_cst_16 : Ref sig .tc := ⟨.hbm, 171, rfl⟩
abbrev main_v142 : Ref sig .tc := ⟨.hbm, 172, rfl⟩
abbrev main_v143 : Ref sig .tc := ⟨.hbm, 173, rfl⟩
abbrev main_v144 : Ref sig .tc := ⟨.hbm, 174, rfl⟩
abbrev main_c_17 : Ref sig .tc := ⟨.hbm, 175, rfl⟩
abbrev main_v145 : Ref sig .tc := ⟨.hbm, 176, rfl⟩
abbrev main_v146 : Ref sig .tc := ⟨.hbm, 177, rfl⟩
abbrev main_v147 : Ref sig .tc := ⟨.hbm, 178, rfl⟩
abbrev main_v148 : Ref sig .tc := ⟨.hbm, 179, rfl⟩
abbrev main_v149 : Ref sig .tc := ⟨.hbm, 180, rfl⟩
abbrev main_v150 : Ref sig .tc := ⟨.hbm, 181, rfl⟩
abbrev main_cst_18 : Ref sig .tc := ⟨.hbm, 182, rfl⟩
abbrev main_v151 : Ref sig .tc := ⟨.hbm, 183, rfl⟩
abbrev main_v152 : Ref sig .tc := ⟨.hbm, 184, rfl⟩
abbrev main_v153 : Ref sig .tc := ⟨.hbm, 185, rfl⟩
abbrev main_v154 : Ref sig .tc := ⟨.hbm, 186, rfl⟩
abbrev main_cst_19 : Ref sig .tc := ⟨.hbm, 187, rfl⟩
abbrev main_v155 : Ref sig .tc := ⟨.hbm, 188, rfl⟩
abbrev main_cst_20 : Ref sig .tc := ⟨.hbm, 189, rfl⟩
abbrev main_v156 : Ref sig .tc := ⟨.hbm, 190, rfl⟩
abbrev main_v157 : Ref sig .tc := ⟨.hbm, 191, rfl⟩
abbrev main_v158 : Ref sig .tc := ⟨.hbm, 192, rfl⟩
abbrev main_v159 : Ref sig .tc := ⟨.hbm, 193, rfl⟩
abbrev main_cst_21 : Ref sig .tc := ⟨.hbm, 194, rfl⟩
abbrev main_v160 : Ref sig .tc := ⟨.hbm, 195, rfl⟩
abbrev main_v161 : Ref sig .tc := ⟨.hbm, 196, rfl⟩
abbrev main_cst_22 : Ref sig .tc := ⟨.hbm, 197, rfl⟩
abbrev main_v162 : Ref sig .tc := ⟨.hbm, 198, rfl⟩
abbrev main_v163 : Ref sig .tc := ⟨.hbm, 199, rfl⟩
abbrev main_v164 : Ref sig .tc := ⟨.hbm, 200, rfl⟩
abbrev main_cst_23 : Ref sig .tc := ⟨.hbm, 201, rfl⟩
abbrev main_call1_v0 : Ref sig .tc := ⟨.hbm, 202, rfl⟩
abbrev main_call1_v1 : Ref sig .tc := ⟨.hbm, 203, rfl⟩
abbrev main_v165 : Ref sig .tc := ⟨.hbm, 204, rfl⟩
abbrev main_cst_24 : Ref sig .tc := ⟨.hbm, 205, rfl⟩
abbrev main_v166 : Ref sig .tc := ⟨.hbm, 206, rfl⟩
abbrev main_cst_25 : Ref sig .tc := ⟨.hbm, 207, rfl⟩
abbrev main_v167 : Ref sig .tc := ⟨.hbm, 208, rfl⟩
abbrev main_v168 : Ref sig .tc := ⟨.hbm, 209, rfl⟩
abbrev main_v169 : Ref sig .tc := ⟨.hbm, 210, rfl⟩
abbrev main_cst_26 : Ref sig .tc := ⟨.hbm, 211, rfl⟩
abbrev main_v170 : Ref sig .tc := ⟨.hbm, 212, rfl⟩
abbrev main_v171 : Ref sig .tc := ⟨.hbm, 213, rfl⟩
abbrev main_v172 : Ref sig .tc := ⟨.hbm, 214, rfl⟩
abbrev main_cst_27 : Ref sig .tc := ⟨.hbm, 215, rfl⟩
abbrev main_v173 : Ref sig .tc := ⟨.hbm, 216, rfl⟩
abbrev main_v174 : Ref sig .tc := ⟨.hbm, 217, rfl⟩
abbrev main_cst_28 : Ref sig .tc := ⟨.hbm, 218, rfl⟩
abbrev main_call2_v0 : Ref sig .tc := ⟨.hbm, 219, rfl⟩
abbrev main_call2_v1 : Ref sig .tc := ⟨.hbm, 220, rfl⟩
abbrev main_v175 : Ref sig .tc := ⟨.hbm, 221, rfl⟩

abbrev nD : Nat := 1
abbrev τ : Topo := Topo.v7x

variable {F : FTy → Type} [FloatOps F]

class Facts₀ : Prop where
  bcast_S_S128x512 : S_.BroadcastsInDim S128x512 (![] : Fin 0 → Fin S128x512.rank)
  bcast_S128x512_S128x512x1_0_1 : S128x512.BroadcastsInDim S128x512x1 (![0, 1] : Fin 2 → Fin S128x512x1.rank)
  bcast_S128x200_S128x1x200_0_2 : S128x200.BroadcastsInDim S128x1x200 (![0, 2] : Fin 2 → Fin S128x1x200.rank)
  slices_S128x512x200_S128x512x100_0_0_0 : S128x512x200.Slices ![0, 0, 0] S128x512x100
  slices_S128x512x200_S128x512x100_0_0_100 : S128x512x200.Slices ![0, 0, 100] S128x512x100
  slices_S128x1x200_S128x1x100_0_0_0 : S128x1x200.Slices ![0, 0, 0] S128x1x100
  slices_S128x1x200_S128x1x100_0_0_100 : S128x1x200.Slices ![0, 0, 100] S128x1x100
  bcast_S128x1x100_S128x512x100_0_1_2 : S128x1x100.BroadcastsInDim S128x512x100 (![0, 1, 2] : Fin 3 → Fin S128x512x100.rank)
  reducesTo_S128x512x100_S128x512_d2 : S128x512x100.ReducesTo [2] S128x512
  h_S_ : 0 < S_.numel
  bcast_S128_S128x1_0 : S128.BroadcastsInDim S128x1 (![0] : Fin 1 → Fin S128x1.rank)
  bcast_S_S128x1 : S_.BroadcastsInDim S128x1 (![] : Fin 0 → Fin S128x1.rank)
  bcast_S128x1_S128x512_0_1 : S128x1.BroadcastsInDim S128x512 (![0, 1] : Fin 2 → Fin S128x512.rank)
  shapeCasts_S128x512_S65536 : S128x512.ShapeCasts S65536
  bcast_S_S2633600 : S_.BroadcastsInDim S2633600 (![] : Fin 0 → Fin S2633600.rank)
  bcast_S65536_S65536x1_0 : S65536.BroadcastsInDim S65536x1 (![0] : Fin 1 → Fin S65536x1.rank)
  shapeCasts_S2633600_S128x20575 : S2633600.ShapeCasts S128x20575
  bcast_S_S65536 : S_.BroadcastsInDim S65536 (![] : Fin 0 → Fin S65536.rank)
  bcast_S_S128x20575 : S_.BroadcastsInDim S128x20575 (![] : Fin 0 → Fin S128x20575.rank)
  gather_S21000x200_S128x512x1_S128x512x200_2_0_n_n_0_2_1200_wf : GatherDims.WF S21000x200 S128x512x1 S128x512x200 [2] [0] [] [0] [] 2 ![1, 200]
  scatter_S2633600_S65536x1_S65536_n_0_0_1_wf : ScatterDims.WF S2633600 S65536x1 S65536 [] [0] [0] 1

variable [Facts₀]

def gather_S21000x200_S128x512x1_S128x512x200_2_0_n_n_0_2_1200 : GatherDims S21000x200 S128x512x1 S128x512x200 where
  offsetDims := [2]
  collapsedSliceDims := [0]
  operandBatchingDims := []
  startIndicesBatchingDims := []
  startIndexMap := [0]
  indexVectorDim := 2
  sliceSizes := ![1, 200]
  wf := gather_S21000x200_S128x512x1_S128x512x200_2_0_n_n_0_2_1200_wf
def scatter_S2633600_S65536x1_S65536_n_0_0_1 : ScatterDims S2633600 S65536x1 S65536 where
  updateWindowDims := []
  insertedWindowDims := [0]
  scatterDimsToOperandDims := [0]
  indexVectorDim := 1
  wf := scatter_S2633600_S65536x1_S65536_n_0_0_1_wf

class Facts : Prop extends Facts₀ where

variable [Facts]
-- ==== Proof.Spec.lean ====
/-
  The mathematics both programs compute, stated once over the extended reals and index words.

  A question `b` has 512 paths; path `p` names five rows of a 21000 × 200 table (subject, relation 1, entity 1,
  relation 2, entity 2) and two tail entities.  A row is read by its index word: `rowAt tbl n` is row `n` of the
  table when `n < 21000` and the zero row otherwise (what a sum of one-hot products gives, and, for an index in
  range, what a plain row read gives).  A path's score against the question's embedding `q` is a complex
  three-way product summed over the 100 coordinates: with each 200-vector split into a lower half (`lo`) and an
  upper half (`hi`), `score s r n q = ∑ k, (im k · lo n k + re k · hi n k)`.
  The scores of the paths whose tail word is entity `e` are averaged: `cntAt` counts those paths, `sumAt` adds
  their scores, and `meanAt` is the quotient by `max count 1` where the count is positive and zero elsewhere.
  The two hops are then combined entity by entity (`combine`).
-/
import Idealize.ShloMosaic.PureOps.Ideal
import Idealize.ShloMosaic.Lib.ValueIdx

noncomputable section

namespace Cert.PathSpec

open Idealize.ShloMosaic Idealize.ShloMosaic.ValueIdx

/-- The embedding table: 21000 rows of 200 extended reals. -/
abbrev Tbl : Type := (⟨2, ![21000, 200]⟩ : Shape).Idx → EReal

/-- Row `n` of the table at coordinate `d`; the zero row when `n` is not a row of the table. -/
def rowAt (tbl : Tbl) (n : ℕ) (d : Fin 200) : EReal :=
  if h : n < 21000 then tbl (ix2 ⟨n, h⟩ d) else 0

theorem rowAt_of_lt (tbl : Tbl) {n : ℕ} (h : n < 21000) (d : Fin 200) : rowAt tbl n d = tbl (ix2 ⟨n, h⟩ d) := by
  unfold rowAt; rw [dif_pos h]

/-- The lower half of a 200-vector. -/
def lo (v : Fin 200 → EReal) (k : Fin 100) : EReal := v ⟨k.val, by omega⟩
/-- The upper half of a 200-vector. -/
def hi (v : Fin 200 → EReal) (k : Fin 100) : EReal := v ⟨k.val + 100, by omega⟩

/-- One coordinate of the score: the imaginary part of `l · r · q` times `h0` plus its real part times `h1`, with the
    products and differences grouped as both programs group them. -/
def scoreTerm (l0 l1 r0 r1 h0 h1 q0 q1 : EReal) : EReal :=
  (l0 * r0 * q0 - l1 * r1 * q0 - l1 * r0 * q1 - l0 * r1 * q1) * h0
    + (l1 * r0 * q0 + l0 * r1 * q0 + l0 * r0 * q1 - l1 * r1 * q1) * h1

/-- The score of a path with rows `s`, `r`, `n` against the question's embedding `q`. -/
def score (s r n q : Fin 200 → EReal) : EReal :=
  ∑ k : Fin 100, scoreTerm (lo s k) (hi s k) (lo r k) (hi r k) (lo n k) (hi n k) (lo q k) (hi q k)

/-- One when the tail word names entity `e`, zero otherwise. -/
def oneAt (w : BitVec 32) (e : ℕ) : EReal := if w.toNat = e then 1 else 0

/-- The number of paths whose tail is entity `e`. -/
def cntAt (tl : Fin 512 → BitVec 32) (e : ℕ) : EReal := ∑ p : Fin 512, oneAt (tl p) e
/-- The sum of the scores of the paths whose tail is entity `e`. -/
def sumAt (sc : Fin 512 → EReal) (tl : Fin 512 → BitVec 32) (e : ℕ) : EReal := ∑ p : Fin 512, oneAt (tl p) e * sc p

/-- The mean score of the paths whose tail is entity `e`; zero when there is none. -/
def meanAt (sc : Fin 512 → EReal) (tl : Fin 512 → BitVec 32) (e : ℕ) : EReal :=
  Scalar.select (Ideal.cmp .ogt (cntAt tl e) (Ideal.ofBits .f32 0x00000000#32))
    (Ideal.div (sumAt sc tl e) (max (cntAt tl e) (Ideal.ofBits .f32 0x3F800000#32))) (Ideal.ofBits .f32 0x00000000#32)

/-- The two hops' means combined: `γ · (γ · 1 + o1) + o2`, replaced by the floor value where it is exactly zero. -/
def combine (o1 o2 : EReal) : EReal :=
  Scalar.select
    (Ideal.cmp .oeq (Ideal.ofBits .f32 0x3F4CCCCD#32 * (Ideal.ofBits .f32 0x3F4CCCCD#32 * Ideal.ofBits .f32 0x3F800000#32 + o1) + o2)
      (Ideal.ofBits .f32 0x00000000#32))
    (Ideal.ofBits .f32 0xC7C34F80#32)
    (Ideal.ofBits .f32 0x3F4CCCCD#32 * (Ideal.ofBits .f32 0x3F4CCCCD#32 * Ideal.ofBits .f32 0x3F800000#32 + o1) + o2)

/-- The index arrays: a word for each question and path. -/
abbrev Words : Type := (⟨2, ![128, 512]⟩ : Shape).Idx → BitVec 32

/-- The score of path `p` of question `b` from the table, the question embeddings and three index arrays. -/
def pathScore (tbl : Tbl) (q : (⟨2, ![128, 200]⟩ : Shape).Idx → EReal) (a r n : Words) (b : Fin 128) (p : Fin 512) : EReal :=
  score (rowAt tbl (a (ix2 b p)).toNat) (rowAt tbl (r (ix2 b p)).toNat) (rowAt tbl (n (ix2 b p)).toNat) (fun d => q (ix2 b d))

/-- The whole result: for question `b` and entity `e`, the first hop's mean over the paths ending at `e` combined with the
    second hop's. -/
def result (tbl : Tbl) (q : (⟨2, ![128, 200]⟩ : Shape).Idx → EReal) (s r1 n1 r2 n2 t1 t2 : Words) :
    (⟨2, ![128, 20575]⟩ : Shape).Idx → EReal := fun i =>
  combine (meanAt (fun p => pathScore tbl q s r1 n1 (i 0) p) (fun p => t1 (ix2 (i 0) p)) (i 1).val)
    (meanAt (fun p => pathScore tbl q n1 r2 n2 (i 0) p) (fun p => t2 (ix2 (i 0) p)) (i 1).val)

end Cert.PathSpec

end
-- ==== Proof.GatherSteps.lean ====
/-
  Reading a table row through one-hot products.

  The table's 21000 rows are taken 1400 at a time.  For a column of 512 index words, one step adds to an
  accumulator the matrix product of the 512 × 1400 indicator "word p equals c + j" with the chunk of rows
  c .. c + 1399.  The indicator's entry at (p, j) is one or zero; the words j + c and word p are equal exactly when
  the numbers are, since j + c stays below 21000 and cannot wrap.  So at (p, d) the product's sum over j has at most
  one term that is not zero times an entry: it is the chunk's row (word p − c) at d when c ≤ word p < c + 1400, and
  zero otherwise (zero times anything is zero in the extended reals, so no finiteness is asked of the table).

  Fifteen steps from the zero accumulator, c = 0, 1400, …, 19600, keep the invariant "after the steps below c the
  value at (p, d) is the table's row (word p) at d when word p < c, and zero otherwise": a step adds either a row to
  zero or zero to what is there.  Entry (j, d) of the chunk read at offset c is the table's entry (c + j, d).  After
  the last step the bound is 21000, and the value is the table's row (word p) at d when the word is below 21000 and
  zero otherwise: `rowAt`.  The column of index words is the index block [1, 1, 512] recast to [1, 512] and
  transposed, so its entry (p, 0) is the block's entry (0, 0, p).
-/
import proofs.«404836_j17403207483556_2_alg».proof.Proof.Gen.KernelIdeal.Frame
import proofs.«404836_j17403207483556_2_alg».proof.Proof.Spec
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.GatherSteps

open Idealize.ShloMosaic Idealize.ShloMosaic.ValueIdx Idealize.SL.Sem Cert.KernelIdeal Cert.KernelIdeal.Gen

variable {F : FTy → Type} [FloatOps F]

/-- One step: the accumulator plus the product of the indicator of "index word = c + column" with a chunk of rows. -/
def ohStep (c : BitVec 32) (idx : IVec S512x1 32) (acc : FVec F S512x200 .f32) (ch : Vec F S1400x200 .f32) : FVec F S512x200 .f32 :=
  addf acc (matmul dot_S512x1400_S1400x200_S512x200_1_0_0_1_n_n none
    (truncf .bf16 (sitofp .f32 (extui 32 (cmpi .eq (addi (iota .tc S512x1400 32 [1] iota_S512x1400_d1_w32) (broadcast S512x1400 c))
       (broadcastTo S512x1400 idx broadcasts_S512x1_S512x1400)) natLt_1_32)) bitsLt_bf16_f32)
    (truncf .bf16 ch bitsLt_bf16_f32) (constant S512x200 .f32 0x00000000#32))

/-- The body's value for this gather is fifteen steps from the zero accumulator. -/
theorem gather_s_steps (xi : Vec F S1x1x512 .i32) (l1 l2 l3 l4 l5 l6 l7 l8 l9 l10 l11 l12 l13 l14 l15 : Vec F S1400x200 .f32) :
    k0_pay12 (k0_pay10 (k0_pay3 xi) (k0_pay8 (k0_pay3 xi) (k0_pay5 (k0_pay3 xi) (k0_pay4 xi l1 l2 l3) (iota .tc S512x1400 32 [1] iota_S512x1400_d1_w32) 4200#32 l4 l5 l6) (k0_pay6 (F := F) (k0_pay3 xi)) (k0_pay7 l7) (constant S512x200 .f32 0x00000000#32) l8 l9 l10) (k0_pay9 (F := F) (k0_pay3 xi)) l11 l12 l13 l14) (k0_pay11 (k0_pay3 xi)) l15 = (ohStep 19600#32 (k0_pay3 xi) (ohStep 18200#32 (k0_pay3 xi) (ohStep 16800#32 (k0_pay3 xi) (ohStep 15400#32 (k0_pay3 xi) (ohStep 14000#32 (k0_pay3 xi) (ohStep 12600#32 (k0_pay3 xi) (ohStep 11200#32 (k0_pay3 xi) (ohStep 9800#32 (k0_pay3 xi) (ohStep 8400#32 (k0_pay3 xi) (ohStep 7000#32 (k0_pay3 xi) (ohStep 5600#32 (k0_pay3 xi) (ohStep 4200#32 (k0_pay3 xi) (ohStep 2800#32 (k0_pay3 xi) (ohStep 1400#32 (k0_pay3 xi) (ohStep 0#32 (k0_pay3 xi) (broadcast S512x200 (Scalar.ofBits .f32 0x00000000#32)) l1) l2) l3) l4) l5) l6) l7) l8) l9) l10) l11) l12) l13) l14) l15) := rfl

/-- The body's value for this gather is fifteen steps from the zero accumulator. -/
theorem gather_r1_steps (xi : Vec F S1x1x512 .i32) (l1 l2 l3 l4 l5 l6 l7 l8 l9 l10 l11 l12 l13 l14 l15 : Vec F S1400x200 .f32) :
    k0_pay23 (k0_pay13 xi) (k0_pay20 (k0_pay13 xi) (k0_pay19 (k0_pay13 xi) (k0_pay16 (k0_pay13 xi) (k0_pay14 xi l1 l2) (k0_pay15 xi) l3 l4 l5 l6) k0_pay17 (k0_pay18 (k0_pay13 xi)) l7 l8 l9 l10) (iota .tc S512x1400 32 [1] iota_S512x1400_d1_w32) l11 l12 l13) (k0_pay21 (F := F) (k0_pay13 xi)) (k0_pay22 l14) l15 = (ohStep 19600#32 (k0_pay13 xi) (ohStep 18200#32 (k0_pay13 xi) (ohStep 16800#32 (k0_pay13 xi) (ohStep 15400#32 (k0_pay13 xi) (ohStep 14000#32 (k0_pay13 xi) (ohStep 12600#32 (k0_pay13 xi) (ohStep 11200#32 (k0_pay13 xi) (ohStep 9800#32 (k0_pay13 xi) (ohStep 8400#32 (k0_pay13 xi) (ohStep 7000#32 (k0_pay13 xi) (ohStep 5600#32 (k0_pay13 xi) (ohStep 4200#32 (k0_pay13 xi) (ohStep 2800#32 (k0_pay13 xi) (ohStep 1400#32 (k0_pay13 xi) (ohStep 0#32 (k0_pay13 xi) (broadcast S512x200 (Scalar.ofBits .f32 0x00000000#32)) l1) l2) l3) l4) l5) l6) l7) l8) l9) l10) l11) l12) l13) l14) l15) := rfl

/-- The body's value for this gather is fifteen steps from the zero accumulator. -/
theorem gather_n1_steps (xi : Vec F S1x1x512 .i32) (l1 l2 l3 l4 l5 l6 l7 l8 l9 l10 l11 l12 l13 l14 l15 : Vec F S1400x200 .f32) :
    k0_pay32 (k0_pay24 xi) (k0_pay30 (k0_pay24 xi) (k0_pay28 (k0_pay24 xi) (k0_pay26 (k0_pay24 xi) (k0_pay25 xi l1 l2) l3 l4 l5) (k0_pay27 (F := F) (k0_pay24 xi)) l6 l7 l8 l9) (k0_pay29 (F := F) (k0_pay24 xi)) l10 l11 l12 l13) k0_pay31 l14 l15 = (ohStep 19600#32 (k0_pay24 xi) (ohStep 18200#32 (k0_pay24 xi) (ohStep 16800#32 (k0_pay24 xi) (ohStep 15400#32 (k0_pay24 xi) (ohStep 14000#32 (k0_pay24 xi) (ohStep 12600#32 (k0_pay24 xi) (ohStep 11200#32 (k0_pay24 xi) (ohStep 9800#32 (k0_pay24 xi) (ohStep 8400#32 (k0_pay24 xi) (ohStep 7000#32 (k0_pay24 xi) (ohStep 5600#32 (k0_pay24 xi) (ohStep 4200#32 (k0_pay24 xi) (ohStep 2800#32 (k0_pay24 xi) (ohStep 1400#32 (k0_pay24 xi) (ohStep 0#32 (k0_pay24 xi) (broadcast S512x200 (Scalar.ofBits .f32 0x00000000#32)) l1) l2) l3) l4) l5) l6) l7) l8) l9) l10) l11) l12) l13) l14) l15) := rfl

/-- The body's value for this gather is fifteen steps from the zero accumulator. -/
theorem gather_r2_steps (xi : Vec F S1x1x512 .i32) (l1 l2 l3 l4 l5 l6 l7 l8 l9 l10 l11 l12 l13 l14 l15 : Vec F S1400x200 .f32) :
    k0_pay42 (k0_pay33 xi) (k0_pay40 (k0_pay33 xi) (k0_pay38 (k0_pay33 xi) (k0_pay36 (k0_pay33 xi) (k0_pay34 xi l1) (k0_pay35 xi) l2 l3 l4 l5) (iota .tc S512x1400 32 [1] iota_S512x1400_d1_w32) k0_pay37 l6 l7 l8) (k0_pay39 (k0_pay33 xi) l9) l10 l11 l12) (k0_pay41 (F := F) (k0_pay33 xi)) l13 l14 l15 = (ohStep 19600#32 (k0_pay33 xi) (ohStep 18200#32 (k0_pay33 xi) (ohStep 16800#32 (k0_pay33 xi) (ohStep 15400#32 (k0_pay33 xi) (ohStep 14000#32 (k0_pay33 xi) (ohStep 12600#32 (k0_pay33 xi) (ohStep 11200#32 (k0_pay33 xi) (ohStep 9800#32 (k0_pay33 xi) (ohStep 8400#32 (k0_pay33 xi) (ohStep 7000#32 (k0_pay33 xi) (ohStep 5600#32 (k0_pay33 xi) (ohStep 4200#32 (k0_pay33 xi) (ohStep 2800#32 (k0_pay33 xi) (ohStep 1400#32 (k0_pay33 xi) (ohStep 0#32 (k0_pay33 xi) (broadcast S512x200 (Scalar.ofBits .f32 0x00000000#32)) l1) l2) l3) l4) l5) l6) l7) l8) l9) l10) l11) l12) l13) l14) l15) := rfl

/-- The body's value for this gather is fifteen steps from the zero accumulator. -/
theorem gather_n2_steps (xi : Vec F S1x1x512 .i32) (l1 l2 l3 l4 l5 l6 l7 l8 l9 l10 l11 l12 l13 l14 l15 : Vec F S1400x200 .f32) :
    k0_pay52 (k0_pay43 xi) (k0_pay51 (k0_pay43 xi) (k0_pay49 (k0_pay43 xi) (k0_pay47 (k0_pay43 xi) (k0_pay44 (F := F)) (k0_pay45 xi) (k0_pay46 l1) (constant S512x200 .f32 0x00000000#32) l2 l3 l4) (k0_pay48 (F := F) (k0_pay43 xi)) l5 l6 l7 l8) (k0_pay50 (k0_pay43 xi)) l9 l10 l11 l12) (iota .tc S512x1400 32 [1] iota_S512x1400_d1_w32) 16800#32 l13 l14 l15 = (ohStep 19600#32 (k0_pay43 xi) (ohStep 18200#32 (k0_pay43 xi) (ohStep 16800#32 (k0_pay43 xi) (ohStep 15400#32 (k0_pay43 xi) (ohStep 14000#32 (k0_pay43 xi) (ohStep 12600#32 (k0_pay43 xi) (ohStep 11200#32 (k0_pay43 xi) (ohStep 9800#32 (k0_pay43 xi) (ohStep 8400#32 (k0_pay43 xi) (ohStep 7000#32 (k0_pay43 xi) (ohStep 5600#32 (k0_pay43 xi) (ohStep 4200#32 (k0_pay43 xi) (ohStep 2800#32 (k0_pay43 xi) (ohStep 1400#32 (k0_pay43 xi) (ohStep 0#32 (k0_pay43 xi) (broadcast S512x200 (Scalar.ofBits .f32 0x00000000#32)) l1) l2) l3) l4) l5) l6) l7) l8) l9) l10) l11) l12) l13) l14) l15) := rfl

/-! ## The product's operand indices

At the result index (p, d) and contraction position k the left operand is read at (p, k) and the right one at
(k, d): one lemma per operand axis. -/

private theorem lhs_oh_0 (i : S512x200.Idx) (q : dot_S512x1400_S1400x200_S512x200_1_0_0_1_n_n.contr.Idx) :
    (dot_S512x1400_S1400x200_S512x200_1_0_0_1_n_n.lhsIdx i q 0).val = (i 0).val := by
  unfold DotDims.lhsIdx
  rw [dif_neg (show ¬(0 : Fin S512x1400.rank) ∈ dot_S512x1400_S1400x200_S512x200_1_0_0_1_n_n.lhsBatch by decide), dif_pos (show (0 : Fin S512x1400.rank) ∈ dot_S512x1400_S1400x200_S512x200_1_0_0_1_n_n.lhsNonContracting by decide)]
  rfl

private theorem lhs_oh_1 (i : S512x200.Idx) (q : dot_S512x1400_S1400x200_S512x200_1_0_0_1_n_n.contr.Idx) :
    (dot_S512x1400_S1400x200_S512x200_1_0_0_1_n_n.lhsIdx i q 1).val = (q ⟨0, by decide⟩).val :=
  dot_S512x1400_S1400x200_S512x200_1_0_0_1_n_n.lhsIdx_val_of_single rfl i q

private theorem rhs_oh_0 (i : S512x200.Idx) (q : dot_S512x1400_S1400x200_S512x200_1_0_0_1_n_n.contr.Idx) :
    (dot_S512x1400_S1400x200_S512x200_1_0_0_1_n_n.rhsIdx i q 0).val = (q ⟨0, by decide⟩).val :=
  dot_S512x1400_S1400x200_S512x200_1_0_0_1_n_n.rhsIdx_val_of_single rfl i q

private theorem rhs_oh_1 (i : S512x200.Idx) (q : dot_S512x1400_S1400x200_S512x200_1_0_0_1_n_n.contr.Idx) :
    (dot_S512x1400_S1400x200_S512x200_1_0_0_1_n_n.rhsIdx i q 1).val = (i 1).val := by
  unfold DotDims.rhsIdx
  rw [dif_neg (show ¬(1 : Fin S1400x200.rank) ∈ dot_S512x1400_S1400x200_S512x200_1_0_0_1_n_n.rhsBatch by decide), dif_pos (show (1 : Fin S1400x200.rank) ∈ dot_S512x1400_S1400x200_S512x200_1_0_0_1_n_n.rhsNonContracting by decide)]
  rfl

/-- The product into the zero accumulator, read at (p, d): the sum over the 1400 columns of the left operand's
    row p times the right operand's column d. -/
private theorem oh_matmul_apply (L : FVec Ideal S512x1400 .bf16) (R : FVec Ideal S1400x200 .bf16) (p : Fin 512) (d : Fin 200) :
    matmul dot_S512x1400_S1400x200_S512x200_1_0_0_1_n_n none L R (constant (F := Ideal) S512x200 .f32 0x00000000#32) (ix2 p d)
      = ∑ k : Fin 1400, L (ix2 p k) * R (ix2 k d) := by
  show FloatOps.matmul dot_S512x1400_S1400x200_S512x200_1_0_0_1_n_n none L R (constant (F := Ideal) S512x200 .f32 0x00000000#32) (ix2 p d) = _
  rw [Ideal.matmul_constant_zero_apply, ← Equiv.sum_comp (contrEquiv1 dot_S512x1400_S1400x200_S512x200_1_0_0_1_n_n 1400 rfl rfl).symm]
  refine Finset.sum_congr rfl fun k _ => ?_
  have hk := contrEquiv1_symm_val dot_S512x1400_S1400x200_S512x200_1_0_0_1_n_n 1400 rfl rfl k
  have el : dot_S512x1400_S1400x200_S512x200_1_0_0_1_n_n.lhsIdx (ix2 p d) ((contrEquiv1 dot_S512x1400_S1400x200_S512x200_1_0_0_1_n_n 1400 rfl rfl).symm k) = ix2 p k := funext fun a => Fin.ext (by
    match a with
    | ⟨0, _⟩ => exact lhs_oh_0 _ _
    | ⟨1, _⟩ => exact (lhs_oh_1 _ _).trans hk)
  have er : dot_S512x1400_S1400x200_S512x200_1_0_0_1_n_n.rhsIdx (ix2 p d) ((contrEquiv1 dot_S512x1400_S1400x200_S512x200_1_0_0_1_n_n 1400 rfl rfl).symm k) = ix2 k d := funext fun a => Fin.ext (by
    match a with
    | ⟨0, _⟩ => exact (rhs_oh_0 _ _).trans hk
    | ⟨1, _⟩ => exact rhs_oh_1 _ _)
  rw [el, er]

/-! ## The indicator -/

/-- A bit widened to a word and read as a signed number is one or zero. -/
private theorem bit_toInt (b : Bool) : ((BitVec.ofBool b).setWidth 32).toInt = if b = true then 1 else 0 := by
  cases b <;> decide

/-- For a column j < 1400 and an offset c ≤ 19600 the word j + c does not wrap, so it is the word w exactly when
    the number w is j + c. -/
private theorem word_add_eq_iff (j c : ℕ) (hj : j < 1400) (hc : c + 1400 ≤ 21000) (w : BitVec 32) :
    BitVec.ofNat 32 j + BitVec.ofNat 32 c = w ↔ w.toNat = j + c := by
  have e : (BitVec.ofNat 32 j + BitVec.ofNat 32 c).toNat = j + c := by
    rw [BitVec.toNat_add, BitVec.toNat_ofNat, BitVec.toNat_ofNat]
    omega
  constructor
  · intro h; rw [← h, e]
  · intro h; exact BitVec.eq_of_toNat_eq (by rw [e, h])

/-- The left operand at (p, j): one when the word j + c is index word p, zero otherwise. -/
private theorem oneHot_apply (c : ℕ) (idx : IVec S512x1 32) (p : Fin 512) (k : Fin 1400) :
    (truncf .bf16 (sitofp .f32 (extui 32 (cmpi .eq (addi (iota .tc S512x1400 32 [1] iota_S512x1400_d1_w32) (broadcast S512x1400 (BitVec.ofNat 32 c)))
       (broadcastTo S512x1400 idx broadcasts_S512x1_S512x1400)) natLt_1_32)) bitsLt_bf16_f32 : FVec Ideal S512x1400 .bf16) (ix2 p k)
      = if BitVec.ofNat 32 k.val + BitVec.ofNat 32 c = idx (ix2 p (0 : Fin 1)) then 1 else 0 := by
  have hb : broadcastTo S512x1400 idx broadcasts_S512x1_S512x1400 (ix2 p k) = idx (ix2 p (0 : Fin 1)) :=
    broadcastTo_apply idx broadcasts_S512x1_S512x1400 (ix2 p k) (ix2 p (0 : Fin 1)) fun a => by
      match a with
      | ⟨0, _⟩ => rfl
      | ⟨1, _⟩ => rfl
  have hi : iota .tc S512x1400 32 [1] iota_S512x1400_d1_w32 (ix2 p k) = BitVec.ofNat 32 k.val :=
    iota_single_apply _ _ _ _ _ _
  show (((((BitVec.ofBool (iota .tc S512x1400 32 [1] iota_S512x1400_d1_w32 (ix2 p k) + BitVec.ofNat 32 c
      == broadcastTo S512x1400 idx broadcasts_S512x1_S512x1400 (ix2 p k))).setWidth 32).toInt : ℝ) : EReal)) = _
  rw [hb, hi, bit_toInt]
  by_cases h : BitVec.ofNat 32 k.val + BitVec.ofNat 32 c = idx (ix2 p (0 : Fin 1))
  · rw [if_pos h, if_pos (beq_iff_eq.mpr h)]; simp
  · rw [if_neg h, if_neg (fun hh => h (beq_iff_eq.mp hh))]; simp

/-- A sum of indicator-times-entry terms has at most one term that is not zero: the one at column w − c. -/
private theorem sum_oneHot (c : ℕ) (hc : c + 1400 ≤ 21000) (w : BitVec 32) (L R : Fin 1400 → EReal)
    (hL : ∀ k : Fin 1400, L k = if BitVec.ofNat 32 k.val + BitVec.ofNat 32 c = w then 1 else 0) :
    ∑ k : Fin 1400, L k * R k = if h : c ≤ w.toNat ∧ w.toNat < c + 1400 then R ⟨w.toNat - c, by omega⟩ else 0 := by
  by_cases h : c ≤ w.toNat ∧ w.toNat < c + 1400
  · rw [dif_pos h, Finset.sum_eq_single (⟨w.toNat - c, by omega⟩ : Fin 1400)]
    · rw [hL, if_pos ((word_add_eq_iff (w.toNat - c) c (by omega) hc w).mpr (by omega)), one_mul]
    · intro k _ hk
      rw [hL, if_neg, zero_mul]
      intro hw
      have e := (word_add_eq_iff k.val c k.isLt hc w).mp hw
      exact hk (Fin.ext (show k.val = w.toNat - c by omega))
    · intro hn; exact absurd (Finset.mem_univ _) hn
  · rw [dif_neg h]
    refine Finset.sum_eq_zero fun k _ => ?_
    rw [hL, if_neg, zero_mul]
    intro hw
    have e := (word_add_eq_iff k.val c k.isLt hc w).mp hw
    have hk := k.isLt
    omega

/-- One step read at (p, d), at the extended reals. -/
theorem ohStep_apply (c : ℕ) (hc : c + 1400 ≤ 21000) (idx : IVec S512x1 32) (acc : FVec Ideal S512x200 .f32) (ch : Vec Ideal S1400x200 .f32)
    (p : Fin 512) (d : Fin 200) :
    ohStep (F := Ideal) (BitVec.ofNat 32 c) idx acc ch (ix2 p d)
      = acc (ix2 p d) + (if h : c ≤ (idx (ix2 p (0 : Fin 1))).toNat ∧ (idx (ix2 p (0 : Fin 1))).toNat < c + 1400
          then ch (ix2 ⟨(idx (ix2 p (0 : Fin 1))).toNat - c, by omega⟩ d) else 0) := by
  unfold ohStep
  rw [addf_apply]
  refine congrArg (fun t => acc (ix2 p d) + t) ?_
  refine (oh_matmul_apply _ _ p d).trans ?_
  exact sum_oneHot c hc (idx (ix2 p (0 : Fin 1))) _ _ (fun k => oneHot_apply c idx p k)

/-! ## The fifteen steps -/

/-- The part of the table below row b: row n when n < b, zero otherwise. -/
private def rowBelow (x6 : Cert.PathSpec.Tbl) (b n : ℕ) (d : Fin 200) : EReal :=
  if n < b then Cert.PathSpec.rowAt x6 n d else 0

private theorem rowBelow_zero (x6 : Cert.PathSpec.Tbl) (n : ℕ) (d : Fin 200) : rowBelow x6 0 n d = 0 := by
  unfold rowBelow; rw [if_neg (Nat.not_lt_zero n)]

/-- Below the table's last row every row is there: a word that names no row reads the zero row either way. -/
private theorem rowBelow_top (x6 : Cert.PathSpec.Tbl) (n : ℕ) (d : Fin 200) :
    rowBelow x6 21000 n d = Cert.PathSpec.rowAt x6 n d := by
  unfold rowBelow
  by_cases h : n < 21000
  · rw [if_pos h]
  · rw [if_neg h]; unfold Cert.PathSpec.rowAt; rw [dif_neg h]

/-- The chunk of 1400 rows read at row offset c: its entry (j, d) is the table's entry (c + j, d). -/
private theorem ld_chunk (x6 : Vec Ideal S21000x200 .f32) (c : ℕ) (hc : c + 1400 ≤ 21000)
    (inb : ∀ a, (![c, 0] : Fin 2 → ℕ) a + S1400x200.size a ≤ S21000x200.size a) (j : Fin 1400) (d : Fin 200) :
    (View.ld x6 (Rect.unit (s := S21000x200) ![c, 0] S1400x200.size inb) : Vec Ideal S1400x200 .f32) (ix2 j d)
      = Cert.PathSpec.rowAt x6 (c + j.val) d := by
  rw [Cert.PathSpec.rowAt_of_lt x6 (show c + j.val < 21000 by have := j.isLt; omega) d]
  refine congrArg x6 (funext fun a => Fin.ext ?_)
  match a with
  | ⟨0, _⟩ => show c + 1 * j.val = c + j.val; omega
  | ⟨1, _⟩ => show 0 + 1 * d.val = d.val; omega

/-- The arithmetic of one step: "the row when n < c" plus "the chunk's row n − c when c ≤ n < c + 1400" is "the row
    when n < c + 1400", the chunk holding rows c .. c + 1399. -/
private theorem step_arith (x6 : Cert.PathSpec.Tbl) (c n : ℕ) (d : Fin 200) (hc : c + 1400 ≤ 21000) (R : Fin 1400 → EReal)
    (hR : ∀ j : Fin 1400, R j = Cert.PathSpec.rowAt x6 (c + j.val) d) :
    rowBelow x6 c n d + (if h : c ≤ n ∧ n < c + 1400 then R ⟨n - c, by omega⟩ else 0) = rowBelow x6 (c + 1400) n d := by
  unfold rowBelow
  by_cases h1 : n < c
  · rw [if_pos h1, dif_neg (show ¬(c ≤ n ∧ n < c + 1400) by omega), if_pos (show n < c + 1400 by omega), add_zero]
  · by_cases h2 : n < c + 1400
    · rw [if_neg h1, dif_pos (show c ≤ n ∧ n < c + 1400 from ⟨by omega, h2⟩), if_pos h2, zero_add, hR]
      exact congrArg (fun m => Cert.PathSpec.rowAt x6 m d) (show c + (n - c) = n by omega)
    · rw [if_neg h1, dif_neg (show ¬(c ≤ n ∧ n < c + 1400) by omega), if_neg h2, add_zero]

/-- One step keeps the invariant: from "the row when the word is below c" to "the row when the word is below
    c + 1400", when the chunk holds rows c .. c + 1399. -/
private theorem fold_step (x6 : Vec Ideal S21000x200 .f32) (idx : IVec S512x1 32) (c c' : ℕ) (hc : c + 1400 ≤ 21000) (hc' : c + 1400 = c')
    (acc : FVec Ideal S512x200 .f32) (ch : Vec Ideal S1400x200 .f32)
    (hch : ∀ (j : Fin 1400) (d : Fin 200), ch (ix2 j d) = Cert.PathSpec.rowAt x6 (c + j.val) d)
    (hacc : ∀ (p : Fin 512) (d : Fin 200), acc (ix2 p d) = rowBelow x6 c (idx (ix2 p (0 : Fin 1))).toNat d)
    (p : Fin 512) (d : Fin 200) :
    ohStep (F := Ideal) (BitVec.ofNat 32 c) idx acc ch (ix2 p d) = rowBelow x6 c' (idx (ix2 p (0 : Fin 1))).toNat d := by
  subst hc'
  rw [ohStep_apply c hc, hacc]
  exact step_arith x6 c _ d hc (fun j => ch (ix2 j d)) (fun j => hch j d)

/-- Fifteen steps from the zero accumulator over the table's fifteen chunks leave, at (p, d), the table's row
    named by index word p. -/
private theorem rows_of_steps (x6 : Vec Ideal S21000x200 .f32) (idx : IVec S512x1 32) (p : Fin 512) (d : Fin 200) :
    ((ohStep 19600#32 idx (ohStep 18200#32 idx (ohStep 16800#32 idx (ohStep 15400#32 idx (ohStep 14000#32 idx (ohStep 12600#32 idx (ohStep 11200#32 idx (ohStep 9800#32 idx (ohStep 8400#32 idx (ohStep 7000#32 idx (ohStep 5600#32 idx (ohStep 4200#32 idx (ohStep 2800#32 idx (ohStep 1400#32 idx (ohStep 0#32 idx (broadcast S512x200 (Scalar.ofBits .f32 0x00000000#32)) (View.ld x6 r0_1)) (View.ld x6 r0_2)) (View.ld x6 r0_3)) (View.ld x6 r0_4)) (View.ld x6 r0_5)) (View.ld x6 r0_6)) (View.ld x6 r0_7)) (View.ld x6 r0_8)) (View.ld x6 r0_9)) (View.ld x6 r0_10)) (View.ld x6 r0_11)) (View.ld x6 r0_12)) (View.ld x6 r0_13)) (View.ld x6 r0_14)) (View.ld x6 r0_15)) : FVec Ideal S512x200 .f32) (ix2 p d)
      = Cert.PathSpec.rowAt x6 (idx (ix2 p (0 : Fin 1))).toNat d := by
  have s0 : ∀ (p : Fin 512) (d : Fin 200), (broadcast S512x200 (Scalar.ofBits (F := Ideal) .f32 0x00000000#32) : FVec Ideal S512x200 .f32) (ix2 p d)
      = rowBelow x6 0 (idx (ix2 p (0 : Fin 1))).toNat d := fun p d =>
    (Ideal.ofBits_zero_f32).trans (rowBelow_zero x6 _ d).symm
  have s1 := fold_step x6 idx 0 1400 (by norm_num) rfl _ _ (ld_chunk x6 0 (by norm_num) inb_S21000x200_S1400x200_0_0) s0
  have s2 := fold_step x6 idx 1400 2800 (by norm_num) rfl _ _ (ld_chunk x6 1400 (by norm_num) inb_S21000x200_S1400x200_1400_0) s1
  have s3 := fold_step x6 idx 2800 4200 (by norm_num) rfl _ _ (ld_chunk x6 2800 (by norm_num) inb_S21000x200_S1400x200_2800_0) s2
  have s4 := fold_step x6 idx 4200 5600 (by norm_num) rfl _ _ (ld_chunk x6 4200 (by norm_num) inb_S21000x200_S1400x200_4200_0) s3
  have s5 := fold_step x6 idx 5600 7000 (by norm_num) rfl _ _ (ld_chunk x6 5600 (by norm_num) inb_S21000x200_S1400x200_5600_0) s4
  have s6 := fold_step x6 idx 7000 8400 (by norm_num) rfl _ _ (ld_chunk x6 7000 (by norm_num) inb_S21000x200_S1400x200_7000_0) s5
  have s7 := fold_step x6 idx 8400 9800 (by norm_num) rfl _ _ (ld_chunk x6 8400 (by norm_num) inb_S21000x200_S1400x200_8400_0) s6
  have s8 := fold_step x6 idx 9800 11200 (by norm_num) rfl _ _ (ld_chunk x6 9800 (by norm_num) inb_S21000x200_S1400x200_9800_0) s7
  have s9 := fold_step x6 idx 11200 12600 (by norm_num) rfl _ _ (ld_chunk x6 11200 (by norm_num) inb_S21000x200_S1400x200_11200_0) s8
  have s10 := fold_step x6 idx 12600 14000 (by norm_num) rfl _ _ (ld_chunk x6 12600 (by norm_num) inb_S21000x200_S1400x200_12600_0) s9
  have s11 := fold_step x6 idx 14000 15400 (by norm_num) rfl _ _ (ld_chunk x6 14000 (by norm_num) inb_S21000x200_S1400x200_14000_0) s10
  have s12 := fold_step x6 idx 15400 16800 (by norm_num) rfl _ _ (ld_chunk x6 15400 (by norm_num) inb_S21000x200_S1400x200_15400_0) s11
  have s13 := fold_step x6 idx 16800 18200 (by norm_num) rfl _ _ (ld_chunk x6 16800 (by norm_num) inb_S21000x200_S1400x200_16800_0) s12
  have s14 := fold_step x6 idx 18200 19600 (by norm_num) rfl _ _ (ld_chunk x6 18200 (by norm_num) inb_S21000x200_S1400x200_18200_0) s13
  have s15 := fold_step x6 idx 19600 21000 (by norm_num) rfl _ _ (ld_chunk x6 19600 (by norm_num) inb_S21000x200_S1400x200_19600_0) s14
  exact (s15 p d).trans (rowBelow_top x6 _ d)

/-- The column of index words at (p, 0) is the index block at (0, 0, p): two recasts and a transpose. -/
private theorem col_apply (xi : IVec S1x1x512 32) (p : Fin 512) :
    transpose S512x1 [1, 0] (shapeCast S1x512 (shapeCast S1x1x512 xi shapeCasts_S1x1x512_S1x1x512) shapeCasts_S1x1x512_S1x512)
        transposes_S1x512_p1_0_S512x1 (ix2 p (0 : Fin 1))
      = xi (ix3 (0 : Fin 1) (0 : Fin 1) p) := by
  refine (transpose_ix2_apply _ _ p (0 : Fin 1)).trans ?_
  refine (shapeCast_1ab_ab_apply _ _ (0 : Fin 1) p).trans ?_
  rw [shapeCast_self]

/-- The body's value for this gather, read at (p, d): the table's row named by path p's index word. -/
theorem gather_s_apply (x6 : Vec Ideal S21000x200 .f32) (xi : Vec Ideal S1x1x512 .i32) (p : Fin 512) (d : Fin 200) :
    (k0_pay12 (k0_pay10 (k0_pay3 xi) (k0_pay8 (k0_pay3 xi) (k0_pay5 (k0_pay3 xi) (k0_pay4 xi (View.ld x6 r0_1) (View.ld x6 r0_2) (View.ld x6 r0_3)) (iota .tc S512x1400 32 [1] iota_S512x1400_d1_w32) 4200#32 (View.ld x6 r0_4) (View.ld x6 r0_5) (View.ld x6 r0_6)) (k0_pay6 (F := Ideal) (k0_pay3 xi)) (k0_pay7 (View.ld x6 r0_7)) (constant S512x200 .f32 0x00000000#32) (View.ld x6 r0_8) (View.ld x6 r0_9) (View.ld x6 r0_10)) (k0_pay9 (F := Ideal) (k0_pay3 xi)) (View.ld x6 r0_11) (View.ld x6 r0_12) (View.ld x6 r0_13) (View.ld x6 r0_14)) (k0_pay11 (k0_pay3 xi)) (View.ld x6 r0_15) : FVec Ideal S512x200 .f32) (ix2 p d)
      = Cert.PathSpec.rowAt x6 (xi (ix3 (0 : Fin 1) (0 : Fin 1) p)).toNat d := by
  refine (congrFun (gather_s_steps (F := Ideal) xi (View.ld x6 r0_1) (View.ld x6 r0_2) (View.ld x6 r0_3) (View.ld x6 r0_4) (View.ld x6 r0_5) (View.ld x6 r0_6) (View.ld x6 r0_7) (View.ld x6 r0_8) (View.ld x6 r0_9) (View.ld x6 r0_10) (View.ld x6 r0_11) (View.ld x6 r0_12) (View.ld x6 r0_13) (View.ld x6 r0_14) (View.ld x6 r0_15)) (ix2 p d)).trans ?_
  refine (rows_of_steps x6 (k0_pay3 xi) p d).trans ?_
  have hcol : k0_pay3 (F := Ideal) xi (ix2 p (0 : Fin 1)) = xi (ix3 (0 : Fin 1) (0 : Fin 1) p) := col_apply xi p
  rw [hcol]

/-- The body's value for this gather, read at (p, d): the table's row named by path p's index word. -/
theorem gather_r1_apply (x6 : Vec Ideal S21000x200 .f32) (xi : Vec Ideal S1x1x512 .i32) (p : Fin 512) (d : Fin 200) :
    (k0_pay23 (k0_pay13 xi) (k0_pay20 (k0_pay13 xi) (k0_pay19 (k0_pay13 xi) (k0_pay16 (k0_pay13 xi) (k0_pay14 xi (View.ld x6 r0_1) (View.ld x6 r0_2)) (k0_pay15 xi) (View.ld x6 r0_3) (View.ld x6 r0_4) (View.ld x6 r0_5) (View.ld x6 r0_6)) k0_pay17 (k0_pay18 (k0_pay13 xi)) (View.ld x6 r0_7) (View.ld x6 r0_8) (View.ld x6 r0_9) (View.ld x6 r0_10)) (iota .tc S512x1400 32 [1] iota_S512x1400_d1_w32) (View.ld x6 r0_11) (View.ld x6 r0_12) (View.ld x6 r0_13)) (k0_pay21 (F := Ideal) (k0_pay13 xi)) (k0_pay22 (View.ld x6 r0_14)) (View.ld x6 r0_15) : FVec Ideal S512x200 .f32) (ix2 p d)
      = Cert.PathSpec.rowAt x6 (xi (ix3 (0 : Fin 1) (0 : Fin 1) p)).toNat d := by
  refine (congrFun (gather_r1_steps (F := Ideal) xi (View.ld x6 r0_1) (View.ld x6 r0_2) (View.ld x6 r0_3) (View.ld x6 r0_4) (View.ld x6 r0_5) (View.ld x6 r0_6) (View.ld x6 r0_7) (View.ld x6 r0_8) (View.ld x6 r0_9) (View.ld x6 r0_10) (View.ld x6 r0_11) (View.ld x6 r0_12) (View.ld x6 r0_13) (View.ld x6 r0_14) (View.ld x6 r0_15)) (ix2 p d)).trans ?_
  refine (rows_of_steps x6 (k0_pay13 xi) p d).trans ?_
  have hcol : k0_pay13 (F := Ideal) xi (ix2 p (0 : Fin 1)) = xi (ix3 (0 : Fin 1) (0 : Fin 1) p) := col_apply xi p
  rw [hcol]

/-- The body's value for this gather, read at (p, d): the table's row named by path p's index word. -/
theorem gather_n1_apply (x6 : Vec Ideal S21000x200 .f32) (xi : Vec Ideal S1x1x512 .i32) (p : Fin 512) (d : Fin 200) :
    (k0_pay32 (k0_pay24 xi) (k0_pay30 (k0_pay24 xi) (k0_pay28 (k0_pay24 xi) (k0_pay26 (k0_pay24 xi) (k0_pay25 xi (View.ld x6 r0_1) (View.ld x6 r0_2)) (View.ld x6 r0_3) (View.ld x6 r0_4) (View.ld x6 r0_5)) (k0_pay27 (F := Ideal) (k0_pay24 xi)) (View.ld x6 r0_6) (View.ld x6 r0_7) (View.ld x6 r0_8) (View.ld x6 r0_9)) (k0_pay29 (F := Ideal) (k0_pay24 xi)) (View.ld x6 r0_10) (View.ld x6 r0_11) (View.ld x6 r0_12) (View.ld x6 r0_13)) k0_pay31 (View.ld x6 r0_14) (View.ld x6 r0_15) : FVec Ideal S512x200 .f32) (ix2 p d)
      = Cert.PathSpec.rowAt x6 (xi (ix3 (0 : Fin 1) (0 : Fin 1) p)).toNat d := by
  refine (congrFun (gather_n1_steps (F := Ideal) xi (View.ld x6 r0_1) (View.ld x6 r0_2) (View.ld x6 r0_3) (View.ld x6 r0_4) (View.ld x6 r0_5) (View.ld x6 r0_6) (View.ld x6 r0_7) (View.ld x6 r0_8) (View.ld x6 r0_9) (View.ld x6 r0_10) (View.ld x6 r0_11) (View.ld x6 r0_12) (View.ld x6 r0_13) (View.ld x6 r0_14) (View.ld x6 r0_15)) (ix2 p d)).trans ?_
  refine (rows_of_steps x6 (k0_pay24 xi) p d).trans ?_
  have hcol : k0_pay24 (F := Ideal) xi (ix2 p (0 : Fin 1)) = xi (ix3 (0 : Fin 1) (0 : Fin 1) p) := col_apply xi p
  rw [hcol]

/-- The body's value for this gather, read at (p, d): the table's row named by path p's index word. -/
theorem gather_r2_apply (x6 : Vec Ideal S21000x200 .f32) (xi : Vec Ideal S1x1x512 .i32) (p : Fin 512) (d : Fin 200) :
    (k0_pay42 (k0_pay33 xi) (k0_pay40 (k0_pay33 xi) (k0_pay38 (k0_pay33 xi) (k0_pay36 (k0_pay33 xi) (k0_pay34 xi (View.ld x6 r0_1)) (k0_pay35 xi) (View.ld x6 r0_2) (View.ld x6 r0_3) (View.ld x6 r0_4) (View.ld x6 r0_5)) (iota .tc S512x1400 32 [1] iota_S512x1400_d1_w32) k0_pay37 (View.ld x6 r0_6) (View.ld x6 r0_7) (View.ld x6 r0_8)) (k0_pay39 (k0_pay33 xi) (View.ld x6 r0_9)) (View.ld x6 r0_10) (View.ld x6 r0_11) (View.ld x6 r0_12)) (k0_pay41 (F := Ideal) (k0_pay33 xi)) (View.ld x6 r0_13) (View.ld x6 r0_14) (View.ld x6 r0_15) : FVec Ideal S512x200 .f32) (ix2 p d)
      = Cert.PathSpec.rowAt x6 (xi (ix3 (0 : Fin 1) (0 : Fin 1) p)).toNat d := by
  refine (congrFun (gather_r2_steps (F := Ideal) xi (View.ld x6 r0_1) (View.ld x6 r0_2) (View.ld x6 r0_3) (View.ld x6 r0_4) (View.ld x6 r0_5) (View.ld x6 r0_6) (View.ld x6 r0_7) (View.ld x6 r0_8) (View.ld x6 r0_9) (View.ld x6 r0_10) (View.ld x6 r0_11) (View.ld x6 r0_12) (View.ld x6 r0_13) (View.ld x6 r0_14) (View.ld x6 r0_15)) (ix2 p d)).trans ?_
  refine (rows_of_steps x6 (k0_pay33 xi) p d).trans ?_
  have hcol : k0_pay33 (F := Ideal) xi (ix2 p (0 : Fin 1)) = xi (ix3 (0 : Fin 1) (0 : Fin 1) p) := col_apply xi p
  rw [hcol]

/-- The body's value for this gather, read at (p, d): the table's row named by path p's index word. -/
theorem gather_n2_apply (x6 : Vec Ideal S21000x200 .f32) (xi : Vec Ideal S1x1x512 .i32) (p : Fin 512) (d : Fin 200) :
    (k0_pay52 (k0_pay43 xi) (k0_pay51 (k0_pay43 xi) (k0_pay49 (k0_pay43 xi) (k0_pay47 (k0_pay43 xi) (k0_pay44 (F := Ideal)) (k0_pay45 xi) (k0_pay46 (View.ld x6 r0_1)) (constant S512x200 .f32 0x00000000#32) (View.ld x6 r0_2) (View.ld x6 r0_3) (View.ld x6 r0_4)) (k0_pay48 (F := Ideal) (k0_pay43 xi)) (View.ld x6 r0_5) (View.ld x6 r0_6) (View.ld x6 r0_7) (View.ld x6 r0_8)) (k0_pay50 (k0_pay43 xi)) (View.ld x6 r0_9) (View.ld x6 r0_10) (View.ld x6 r0_11) (View.ld x6 r0_12)) (iota .tc S512x1400 32 [1] iota_S512x1400_d1_w32) 16800#32 (View.ld x6 r0_13) (View.ld x6 r0_14) (View.ld x6 r0_15) : FVec Ideal S512x200 .f32) (ix2 p d)
      = Cert.PathSpec.rowAt x6 (xi (ix3 (0 : Fin 1) (0 : Fin 1) p)).toNat d := by
  refine (congrFun (gather_n2_steps (F := Ideal) xi (View.ld x6 r0_1) (View.ld x6 r0_2) (View.ld x6 r0_3) (View.ld x6 r0_4) (View.ld x6 r0_5) (View.ld x6 r0_6) (View.ld x6 r0_7) (View.ld x6 r0_8) (View.ld x6 r0_9) (View.ld x6 r0_10) (View.ld x6 r0_11) (View.ld x6 r0_12) (View.ld x6 r0_13) (View.ld x6 r0_14) (View.ld x6 r0_15)) (ix2 p d)).trans ?_
  refine (rows_of_steps x6 (k0_pay43 xi) p d).trans ?_
  have hcol : k0_pay43 (F := Ideal) xi (ix2 p (0 : Fin 1)) = xi (ix3 (0 : Fin 1) (0 : Fin 1) p) := col_apply xi p
  rw [hcol]

end Cert.KernelIdeal.GatherSteps

end
-- ==== Proof.ScoreBody.lean ====
/-
  The score of a path from its three gathered rows.

  Three 512 × 200 arrays hold, row by row, the first, second and third table rows of each of the 512 paths;
  a one-row block holds the question's embedding.  Each array is cut into its lower and upper halves of 100
  columns (the two parts of 100 complex numbers), the embedding likewise, and the embedding's halves are
  copied down the 512 rows.  Entry by entry the products and differences of the complex three-way product
  `l · r · q` are taken, its imaginary part is weighted by the third row's lower half and its real part by the
  upper half, and each path's 100 entries are summed.

  Read at path p: a column half of an array at (p, k) is the lower (`lo`) or upper (`hi`) half of row p at k,
  the copied embedding at (p, k) is the embedding's half at k, every product, difference and sum is taken
  entry by entry, and the sum along a row is the sum over k of the 100 entries.  The entry at (p, k) is then
  `scoreTerm` of the eight half-entries, so the whole is `score` of the three rows at p and the embedding.
  The second hop's score is the same arithmetic with three sub-products computed beforehand: the imaginary
  part, the product `l1 · r0`, and the copied lower half of the embedding.
-/
import proofs.«404836_j17403207483556_2_alg».proof.Proof.Gen.KernelIdeal.Frame
import proofs.«404836_j17403207483556_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.ScoreBody

open Idealize.ShloMosaic Idealize.ShloMosaic.ValueIdx Idealize.SL.Sem Cert.KernelIdeal Cert.KernelIdeal.Gen
open Cert.PathSpec (lo hi scoreTerm score)

/-! ## The column halves of an array of rows -/

/-- The lower 100 columns of a 512 × 200 array at (p, k): the lower half of row p at k. -/
private theorem loCols_apply (g : FVec Ideal S512x200 .f32) (h : S512x200.Slices ![0, 0] S512x100)
    (p : Fin 512) (k : Fin 100) :
    extractStridedSlice S512x100 ![0, 0] g h (ix2 p k) = lo (fun d => g (ix2 p d)) k :=
  slice2_axis1_apply 0 g h p k ⟨k.val, by omega⟩ (Nat.zero_add _).symm

/-- The upper 100 columns of a 512 × 200 array at (p, k): the upper half of row p at k. -/
private theorem hiCols_apply (g : FVec Ideal S512x200 .f32) (h : S512x200.Slices ![0, 100] S512x100)
    (p : Fin 512) (k : Fin 100) :
    extractStridedSlice S512x100 ![0, 100] g h (ix2 p k) = hi (fun d => g (ix2 p d)) k :=
  slice2_axis1_apply 100 g h p k ⟨k.val + 100, by omega⟩ (Nat.add_comm k.val 100)

private theorem pay54_apply (g : FVec Ideal S512x200 .f32) (p : Fin 512) (k : Fin 100) :
    k0_pay54 g (ix2 p k) = lo (fun d => g (ix2 p d)) k := loCols_apply g slices_S512x200_o0_0_S512x100 p k
private theorem pay56_apply (g : FVec Ideal S512x200 .f32) (p : Fin 512) (k : Fin 100) :
    k0_pay56 g (ix2 p k) = lo (fun d => g (ix2 p d)) k := loCols_apply g slices_S512x200_o0_0_S512x100 p k
private theorem pay58_apply (g : FVec Ideal S512x200 .f32) (p : Fin 512) (k : Fin 100) :
    k0_pay58 g (ix2 p k) = lo (fun d => g (ix2 p d)) k := loCols_apply g slices_S512x200_o0_0_S512x100 p k
private theorem pay63_apply (g : FVec Ideal S512x200 .f32) (p : Fin 512) (k : Fin 100) :
    k0_pay63 g (ix2 p k) = lo (fun d => g (ix2 p d)) k := loCols_apply g slices_S512x200_o0_0_S512x100 p k
private theorem pay65_apply (g : FVec Ideal S512x200 .f32) (p : Fin 512) (k : Fin 100) :
    k0_pay65 g (ix2 p k) = lo (fun d => g (ix2 p d)) k := loCols_apply g slices_S512x200_o0_0_S512x100 p k
private theorem pay67_apply (g : FVec Ideal S512x200 .f32) (p : Fin 512) (k : Fin 100) :
    k0_pay67 g (ix2 p k) = lo (fun d => g (ix2 p d)) k := loCols_apply g slices_S512x200_o0_0_S512x100 p k

private theorem pay55_apply (g : FVec Ideal S512x200 .f32) (p : Fin 512) (k : Fin 100) :
    k0_pay55 g (ix2 p k) = hi (fun d => g (ix2 p d)) k := hiCols_apply g slices_S512x200_o0_100_S512x100 p k
private theorem pay57_apply (g : FVec Ideal S512x200 .f32) (p : Fin 512) (k : Fin 100) :
    k0_pay57 g (ix2 p k) = hi (fun d => g (ix2 p d)) k := hiCols_apply g slices_S512x200_o0_100_S512x100 p k
private theorem pay59_apply (g : FVec Ideal S512x200 .f32) (p : Fin 512) (k : Fin 100) :
    k0_pay59 g (ix2 p k) = hi (fun d => g (ix2 p d)) k := hiCols_apply g slices_S512x200_o0_100_S512x100 p k
private theorem pay64_apply (g : FVec Ideal S512x200 .f32) (p : Fin 512) (k : Fin 100) :
    k0_pay64 g (ix2 p k) = hi (fun d => g (ix2 p d)) k := hiCols_apply g slices_S512x200_o0_100_S512x100 p k
private theorem pay66_apply (g : FVec Ideal S512x200 .f32) (p : Fin 512) (k : Fin 100) :
    k0_pay66 g (ix2 p k) = hi (fun d => g (ix2 p d)) k := hiCols_apply g slices_S512x200_o0_100_S512x100 p k
private theorem pay68_apply (g : FVec Ideal S512x200 .f32) (p : Fin 512) (k : Fin 100) :
    k0_pay68 g (ix2 p k) = hi (fun d => g (ix2 p d)) k := hiCols_apply g slices_S512x200_o0_100_S512x100 p k

/-! ## The halves of the embedding -/

/-- The embedding block as a one-row matrix, read at (0, d): the block at (0, 0, d). -/
private theorem qRow_apply (x5l : Vec Ideal S1x1x200 .f32) (d : Fin 200) :
    k0_pay53 (F := Ideal) x5l (ix2 (0 : Fin 1) d) = x5l (ix3 (0 : Fin 1) (0 : Fin 1) d) := by
  unfold k0_pay53
  refine (shapeCast_1ab_ab_apply _ _ (0 : Fin 1) d).trans ?_
  exact shapeCast_apply _ _ _ _ rfl

/-- The lower half of the one-row embedding at (0, k). -/
private theorem qLo_apply (x5l : Vec Ideal S1x1x200 .f32) (h : S1x200.Slices ![0, 0] S1x100) (k : Fin 100) :
    extractStridedSlice S1x100 ![0, 0] (k0_pay53 (F := Ideal) x5l) h (ix2 (0 : Fin 1) k)
      = lo (fun d => x5l (ix3 (0 : Fin 1) (0 : Fin 1) d)) k :=
  (slice2_axis1_apply 0 (k0_pay53 (F := Ideal) x5l) h (0 : Fin 1) k ⟨k.val, by omega⟩ (Nat.zero_add _).symm).trans
    (qRow_apply x5l _)

/-- The upper half of the one-row embedding at (0, k). -/
private theorem qHi_apply (x5l : Vec Ideal S1x1x200 .f32) (h : S1x200.Slices ![0, 100] S1x100) (k : Fin 100) :
    extractStridedSlice S1x100 ![0, 100] (k0_pay53 (F := Ideal) x5l) h (ix2 (0 : Fin 1) k)
      = hi (fun d => x5l (ix3 (0 : Fin 1) (0 : Fin 1) d)) k :=
  (slice2_axis1_apply 100 (k0_pay53 (F := Ideal) x5l) h (0 : Fin 1) k ⟨k.val + 100, by omega⟩
    (Nat.add_comm k.val 100)).trans (qRow_apply x5l _)

private theorem pay60_apply (x5l : Vec Ideal S1x1x200 .f32) (k : Fin 100) :
    k0_pay60 (F := Ideal) x5l (ix2 (0 : Fin 1) k) = lo (fun d => x5l (ix3 (0 : Fin 1) (0 : Fin 1) d)) k :=
  qLo_apply x5l slices_S1x200_o0_0_S1x100 k
private theorem pay61_apply (x5l : Vec Ideal S1x1x200 .f32) (k : Fin 100) :
    k0_pay61 (F := Ideal) x5l (ix2 (0 : Fin 1) k) = hi (fun d => x5l (ix3 (0 : Fin 1) (0 : Fin 1) d)) k :=
  qHi_apply x5l slices_S1x200_o0_100_S1x100 k
private theorem pay69_apply (x5l : Vec Ideal S1x1x200 .f32) (k : Fin 100) :
    k0_pay69 (k0_pay53 (F := Ideal) x5l) (ix2 (0 : Fin 1) k) = lo (fun d => x5l (ix3 (0 : Fin 1) (0 : Fin 1) d)) k :=
  qLo_apply x5l slices_S1x200_o0_0_S1x100 k
private theorem pay70_apply (x5l : Vec Ideal S1x1x200 .f32) (k : Fin 100) :
    k0_pay70 (k0_pay53 (F := Ideal) x5l) (ix2 (0 : Fin 1) k) = hi (fun d => x5l (ix3 (0 : Fin 1) (0 : Fin 1) d)) k :=
  qHi_apply x5l slices_S1x200_o0_100_S1x100 k

/-! ## The sum along a row, and the vector of sums as a 1 × 1 × 512 block -/

/-- A 512 × 100 array summed along its rows, read at p: the sum over k of its entries at (p, k). -/
private theorem rowSum_apply (v : FVec Ideal S512x100 .f32) (h : S512x100.Reduces [1] S512)
    (hacc : (0x00000000#32 : BitVec 32) = 0x00000000#32) (p : Fin 512) :
    multiReduction .add [1] S512 v 0x00000000#32 h (.inl rfl) hacc (ix1 p) = ∑ k : Fin 100, v (ix2 p k) := by
  refine (Ideal.multiReduction_add_single v 0x00000000#32 h (.inl rfl) hacc (ix1 p)).trans ?_
  show ∑ k : Fin 100, v (h.lift (ix1 p) k) = _
  refine Finset.sum_congr rfl fun k _ => congrArg v ?_
  funext c
  match c with
  | ⟨0, _⟩ => exact Fin.ext rfl
  | ⟨1, _⟩ => exact Fin.ext rfl

/-- A vector of 512 entries laid out as a 1 × 1 × 512 block, read at (0, 0, p): the vector at p. -/
private theorem block512_apply (v : FVec Ideal S512 .f32) (h : S512.ShapeCasts S1x1x512) (p : Fin 512) :
    shapeCast S1x1x512 v h (ix3 (0 : Fin 1) (0 : Fin 1) p) = v (ix1 p) :=
  shapeCast_apply v h _ _ (by
    rw [Shape.rowMajor_val_one, Shape.rowMajor_val_three]
    show p.val = (0 * 1 + 0) * 512 + p.val
    omega)

/-! ## The arithmetic over the halves -/

/-- The first hop's arithmetic over any six half-arrays and two embedding halves, read at path p: the sum over k
    of `scoreTerm` of the eight entries. -/
private theorem body1_apply (l0 l1 r0 r1 h0 h1 : FVec Ideal S512x100 .f32) (q0 q1 : FVec Ideal S1x100 .f32)
    (p : Fin 512) :
    k0_pay62 l0 l1 r0 r1 h0 h1 q0 q1 (ix1 p)
      = ∑ k : Fin 100, scoreTerm (l0 (ix2 p k)) (l1 (ix2 p k)) (r0 (ix2 p k)) (r1 (ix2 p k)) (h0 (ix2 p k))
          (h1 (ix2 p k)) (q0 (ix2 (0 : Fin 1) k)) (q1 (ix2 (0 : Fin 1) k)) := by
  unfold k0_pay62
  refine (rowSum_apply _ _ rfl p).trans ?_
  refine Finset.sum_congr rfl fun k _ => ?_
  simp only [mulf_apply, addf_apply, subf_apply, broadcastTo_1b_ab_apply]
  rfl

/-- The first hop's score at path p, from the gathered rows `gs`, `gr`, `gn` and the embedding block `x5l`. -/
theorem score1_apply (gs gr gn : FVec Ideal S512x200 .f32) (x5l : Vec Ideal S1x1x200 .f32) (p : Fin 512) :
    (k0_pay1 (k0_pay62 (k0_pay54 gs) (k0_pay55 gs) (k0_pay56 gr) (k0_pay57 gr) (k0_pay58 gn) (k0_pay59 gn) (k0_pay60 x5l) (k0_pay61 x5l)) : FVec Ideal S1x1x512 .f32)
        (ix3 (0 : Fin 1) (0 : Fin 1) p)
      = Cert.PathSpec.score (fun d => gs (ix2 p d)) (fun d => gr (ix2 p d)) (fun d => gn (ix2 p d)) (fun d => x5l (ix3 (0 : Fin 1) (0 : Fin 1) d)) := by
  unfold k0_pay1
  refine (block512_apply _ _ p).trans ?_
  refine (body1_apply _ _ _ _ _ _ _ _ p).trans ?_
  unfold Cert.PathSpec.score
  refine Finset.sum_congr rfl fun k _ => ?_
  rw [pay54_apply, pay55_apply, pay56_apply, pay57_apply, pay58_apply, pay59_apply, pay60_apply, pay61_apply]

/-! ## The second hop: the same arithmetic, three sub-products computed beforehand -/

/-- The imaginary part of the three-way product, entry by entry. -/
private theorem pay71_apply (gs gr : FVec Ideal S512x200 .f32) (qq : FVec Ideal S1x200 .f32) (p : Fin 512) (k : Fin 100) :
    k0_pay71 gs gr qq (ix2 p k)
      = k0_pay63 gs (ix2 p k) * k0_pay65 gr (ix2 p k) * k0_pay69 qq (ix2 (0 : Fin 1) k)
        - k0_pay64 gs (ix2 p k) * k0_pay66 gr (ix2 p k) * k0_pay69 qq (ix2 (0 : Fin 1) k)
        - k0_pay64 gs (ix2 p k) * k0_pay65 gr (ix2 p k) * k0_pay70 qq (ix2 (0 : Fin 1) k)
        - k0_pay63 gs (ix2 p k) * k0_pay66 gr (ix2 p k) * k0_pay70 qq (ix2 (0 : Fin 1) k) := by
  unfold k0_pay71
  simp only [mulf_apply, subf_apply, broadcastTo_1b_ab_apply]

/-- The product of the first row's upper half and the second row's lower half, entry by entry. -/
private theorem pay72_apply (gs gr : FVec Ideal S512x200 .f32) (p : Fin 512) (k : Fin 100) :
    k0_pay72 gs gr (ix2 p k) = k0_pay64 gs (ix2 p k) * k0_pay65 gr (ix2 p k) := rfl

/-- The embedding's lower half copied down the rows, at (p, k): the half at k. -/
private theorem pay73_apply (qq : FVec Ideal S1x200 .f32) (p : Fin 512) (k : Fin 100) :
    k0_pay73 qq (ix2 p k) = k0_pay69 qq (ix2 (0 : Fin 1) k) := by
  unfold k0_pay73
  exact broadcastTo_1b_ab_apply _ _ p k

/-- The second hop's arithmetic over any six half-arrays, two embedding halves and the three sub-products, read at
    path p. -/
private theorem body2_apply (l0 l1 r0 r1 h0 h1 : FVec Ideal S512x100 .f32) (q0 q1 : FVec Ideal S1x100 .f32)
    (im lr qb : FVec Ideal S512x100 .f32) (p : Fin 512) :
    k0_pay2 l0 l1 r0 r1 h0 h1 q0 q1 im lr qb (ix3 (0 : Fin 1) (0 : Fin 1) p)
      = ∑ k : Fin 100, (im (ix2 p k) * h0 (ix2 p k)
          + (lr (ix2 p k) * qb (ix2 p k) + l0 (ix2 p k) * r1 (ix2 p k) * q0 (ix2 (0 : Fin 1) k)
              + l0 (ix2 p k) * r0 (ix2 p k) * q1 (ix2 (0 : Fin 1) k)
              - l1 (ix2 p k) * r1 (ix2 p k) * q1 (ix2 (0 : Fin 1) k)) * h1 (ix2 p k)) := by
  unfold k0_pay2
  refine (block512_apply _ _ p).trans ?_
  refine (rowSum_apply _ _ rfl p).trans ?_
  refine Finset.sum_congr rfl fun k _ => ?_
  simp only [mulf_apply, addf_apply, subf_apply, broadcastTo_1b_ab_apply]

/-- The second hop's score at path p (the same arithmetic, some products shared). -/
theorem score2_apply (gs gr gn : FVec Ideal S512x200 .f32) (x5l : Vec Ideal S1x1x200 .f32) (p : Fin 512) :
    (k0_pay2 (k0_pay63 gs) (k0_pay64 gs) (k0_pay65 gr) (k0_pay66 gr) (k0_pay67 gn) (k0_pay68 gn) (k0_pay69 (k0_pay53 x5l)) (k0_pay70 (k0_pay53 x5l)) (k0_pay71 gs gr (k0_pay53 x5l)) (k0_pay72 gs gr) (k0_pay73 (k0_pay53 x5l)) : FVec Ideal S1x1x512 .f32)
        (ix3 (0 : Fin 1) (0 : Fin 1) p)
      = Cert.PathSpec.score (fun d => gs (ix2 p d)) (fun d => gr (ix2 p d)) (fun d => gn (ix2 p d)) (fun d => x5l (ix3 (0 : Fin 1) (0 : Fin 1) d)) := by
  refine (body2_apply _ _ _ _ _ _ _ _ _ _ _ p).trans ?_
  unfold Cert.PathSpec.score
  refine Finset.sum_congr rfl fun k _ => ?_
  rw [pay71_apply, pay72_apply, pay73_apply, pay63_apply, pay64_apply, pay65_apply, pay66_apply, pay67_apply,
    pay68_apply, pay69_apply, pay70_apply]
  rfl

end Cert.KernelIdeal.ScoreBody

end
-- ==== Proof.Region0Array.lean ====
/-
  The first kernel's two output arrays, whole.

  Point t of the grid is question t.  It reads row t of each of the five index arrays (a 1 × 1 × 512 block of words),
  row t of the question embeddings (a 1 × 1 × 200 block) and the whole 21000 × 200 table, and writes back two
  1 × 1 × 512 blocks of scores.  At path p the first block holds `score` of the table rows named by the subject,
  first-relation and first-entity words of path p against the question's embedding, the second block `score` of the
  rows named by the first-entity, second-relation and second-entity words: the three gathers read at (p, d) are
  `rowAt` of the word, and the arithmetic on the gathered rows read at p is `score`.

  Each output block at point t is therefore block t of ONE function of the whole arrays: at (b, 0, p), the score of
  path p of question b.  A block's element (0, 0, p) sits in its array at (t · 1 + 0, 0 · 1 + 0, 0 · 512 + p), the
  table's block is the table, and the 128 output blocks tile the 128 × 1 × 512 arrays (index (b, 0, p) lies in point
  b's block), so after the region each output array holds that function.
-/
import proofs.«404836_j17403207483556_2_alg».proof.Proof.Gen.KernelIdeal.Frame
import proofs.«404836_j17403207483556_2_alg».proof.Proof.Spec
import proofs.«404836_j17403207483556_2_alg».proof.Proof.GatherSteps
import proofs.«404836_j17403207483556_2_alg».proof.Proof.ScoreBody
import Idealize.ShloMosaic.Lib.ValueIdx
import Idealize.ShloMosaic.Lib.Pipeline.Value

noncomputable section

namespace Cert.KernelIdeal.Region0Array

open Idealize.ShloMosaic Idealize.ShloMosaic.ValueIdx Idealize.ShloMosaic.TcCoe Idealize.SL.Sem Cert.KernelIdeal Cert.KernelIdeal.Gen
open Idealize.ShloMosaic.Pipeline (Dat Cfg Window)

/-! ## The body's two output blocks at a path -/

/-- Three zero offsets, as the constant function. -/
theorem zero_offsets : (![0, 0, 0] : Fin 3 → Nat) = fun _ => 0 := funext fun a => by fin_cases a <;> rfl

/-- Equal rows and embeddings give equal scores. -/
theorem score_congr {s s' r r' n n' q q' : Fin 200 → EReal} (hs : s = s') (hr : r = r') (hn : n = n') (hq : q = q') :
    Cert.PathSpec.score s r n q = Cert.PathSpec.score s' r' n' q' := by rw [hs, hr, hn, hq]

/-- The body's first output block at path p: the score of the rows named by the subject, first-relation and first-entity
    words of path p. -/
theorem out0_7_apply (x0 x1 x2 x3 x4 : Vec Ideal S1x1x512 .i32) (x5 : Vec Ideal S1x1x200 .f32) (x6 : Vec Ideal S21000x200 .f32) (p : Fin 512) :
    out0_7 (F := Ideal) x0 x1 x2 x3 x4 x5 x6 (ix3 (0 : Fin 1) (0 : Fin 1) p)
      = Cert.PathSpec.score (Cert.PathSpec.rowAt x6 (x0 (ix3 (0 : Fin 1) (0 : Fin 1) p)).toNat)
          (Cert.PathSpec.rowAt x6 (x1 (ix3 (0 : Fin 1) (0 : Fin 1) p)).toNat)
          (Cert.PathSpec.rowAt x6 (x2 (ix3 (0 : Fin 1) (0 : Fin 1) p)).toNat)
          (fun d => x5 (ix3 (0 : Fin 1) (0 : Fin 1) d)) := by
  unfold out0_7
  rw [View.canon_unit_zero zero_offsets]
  simp only [View.ld_unit_zero (S := S1x1x512) zero_offsets, View.ld_unit_zero (S := S1x1x200) zero_offsets]
  refine (ScoreBody.score1_apply _ _ _ _ p).trans ?_
  refine score_congr (funext fun d => ?_) (funext fun d => ?_) (funext fun d => ?_) rfl
  · exact GatherSteps.gather_s_apply x6 x0 p d
  · exact GatherSteps.gather_r1_apply x6 x1 p d
  · exact GatherSteps.gather_n1_apply x6 x2 p d

/-- The second output block at path p: the first-entity, second-relation and second-entity words. -/
theorem out0_8_apply (x0 x1 x2 x3 x4 : Vec Ideal S1x1x512 .i32) (x5 : Vec Ideal S1x1x200 .f32) (x6 : Vec Ideal S21000x200 .f32) (p : Fin 512) :
    out0_8 (F := Ideal) x0 x1 x2 x3 x4 x5 x6 (ix3 (0 : Fin 1) (0 : Fin 1) p)
      = Cert.PathSpec.score (Cert.PathSpec.rowAt x6 (x2 (ix3 (0 : Fin 1) (0 : Fin 1) p)).toNat)
          (Cert.PathSpec.rowAt x6 (x3 (ix3 (0 : Fin 1) (0 : Fin 1) p)).toNat)
          (Cert.PathSpec.rowAt x6 (x4 (ix3 (0 : Fin 1) (0 : Fin 1) p)).toNat)
          (fun d => x5 (ix3 (0 : Fin 1) (0 : Fin 1) d)) := by
  unfold out0_8
  rw [View.canon_unit_zero zero_offsets]
  simp only [View.ld_unit_zero (S := S1x1x512) zero_offsets, View.ld_unit_zero (S := S1x1x200) zero_offsets]
  refine (ScoreBody.score2_apply _ _ _ _ p).trans ?_
  refine score_congr (funext fun d => ?_) (funext fun d => ?_) (funext fun d => ?_) rfl
  · exact GatherSteps.gather_n1_apply x6 x2 p d
  · exact GatherSteps.gather_r2_apply x6 x3 p d
  · exact GatherSteps.gather_n2_apply x6 x4 p d

/-! ## The whole score array as one function of the whole input arrays -/

/-- At (b, 0, p): the score of the three table rows that the index arrays `a`, `r`, `n` name at (b, 0, p), against row b of
    the question embeddings. -/
def scoreArr (tbl : Cert.PathSpec.Tbl) (q : S128x1x200.Idx → EReal) (a r n : S128x1x512.Idx → BitVec 32) : S128x1x512.Idx → EReal :=
  fun i => Cert.PathSpec.score (Cert.PathSpec.rowAt tbl (a i).toNat) (Cert.PathSpec.rowAt tbl (r i).toNat)
    (Cert.PathSpec.rowAt tbl (n i).toNat) (fun d => q (ix3 (⟨(i 0).val, (i 0).isLt⟩ : Fin 128) (0 : Fin 1) d))

/-- A 1 × 1 × 512 block's index is (0, 0, p). -/
theorem eq_row_ix3 (y : S1x1x512.Idx) : y = ix3 (0 : Fin 1) (0 : Fin 1) (⟨(y 2).val, (y 2).isLt⟩ : Fin 512) := by
  funext a
  match a with
  | ⟨0, _⟩ => exact Fin.ext (by have h : (y 0).val < 1 := (y 0).isLt; show (y 0).val = 0; omega)
  | ⟨1, _⟩ => exact Fin.ext (by have h : (y 1).val < 1 := (y 1).isLt; show (y 1).val = 0; omega)
  | ⟨2, _⟩ => rfl

/-- Grid point t as a row of the 128-row arrays. -/
def rowOf (t : Fin cfg0.N) : Fin 128 := ⟨t.val, Nat.lt_of_lt_of_eq t.isLt N_0⟩

/-! ## The windows' block indices, decided over the grid: (t, 0, 0) for the rows, (0, 0) for the table -/

theorem index0_0 : ∀ t : Fin cfg0.N, win0_0.index t (0 : Fin 3) = t.val ∧ win0_0.index t (1 : Fin 3) = 0 ∧ win0_0.index t (2 : Fin 3) = 0 :=
  (by decide +kernel : ∀ t : Fin grid0.N, win0_0.index t (0 : Fin 3) = t.val ∧ win0_0.index t (1 : Fin 3) = 0 ∧ win0_0.index t (2 : Fin 3) = 0)
theorem index0_1 : ∀ t : Fin cfg0.N, win0_1.index t (0 : Fin 3) = t.val ∧ win0_1.index t (1 : Fin 3) = 0 ∧ win0_1.index t (2 : Fin 3) = 0 :=
  (by decide +kernel : ∀ t : Fin grid0.N, win0_1.index t (0 : Fin 3) = t.val ∧ win0_1.index t (1 : Fin 3) = 0 ∧ win0_1.index t (2 : Fin 3) = 0)
theorem index0_2 : ∀ t : Fin cfg0.N, win0_2.index t (0 : Fin 3) = t.val ∧ win0_2.index t (1 : Fin 3) = 0 ∧ win0_2.index t (2 : Fin 3) = 0 :=
  (by decide +kernel : ∀ t : Fin grid0.N, win0_2.index t (0 : Fin 3) = t.val ∧ win0_2.index t (1 : Fin 3) = 0 ∧ win0_2.index t (2 : Fin 3) = 0)
theorem index0_3 : ∀ t : Fin cfg0.N, win0_3.index t (0 : Fin 3) = t.val ∧ win0_3.index t (1 : Fin 3) = 0 ∧ win0_3.index t (2 : Fin 3) = 0 :=
  (by decide +kernel : ∀ t : Fin grid0.N, win0_3.index t (0 : Fin 3) = t.val ∧ win0_3.index t (1 : Fin 3) = 0 ∧ win0_3.index t (2 : Fin 3) = 0)
theorem index0_4 : ∀ t : Fin cfg0.N, win0_4.index t (0 : Fin 3) = t.val ∧ win0_4.index t (1 : Fin 3) = 0 ∧ win0_4.index t (2 : Fin 3) = 0 :=
  (by decide +kernel : ∀ t : Fin grid0.N, win0_4.index t (0 : Fin 3) = t.val ∧ win0_4.index t (1 : Fin 3) = 0 ∧ win0_4.index t (2 : Fin 3) = 0)
theorem index0_5 : ∀ t : Fin cfg0.N, win0_5.index t (0 : Fin 3) = t.val ∧ win0_5.index t (1 : Fin 3) = 0 ∧ win0_5.index t (2 : Fin 3) = 0 :=
  (by decide +kernel : ∀ t : Fin grid0.N, win0_5.index t (0 : Fin 3) = t.val ∧ win0_5.index t (1 : Fin 3) = 0 ∧ win0_5.index t (2 : Fin 3) = 0)
theorem index0_6 : ∀ t : Fin cfg0.N, win0_6.index t (0 : Fin 2) = 0 ∧ win0_6.index t (1 : Fin 2) = 0 :=
  (by decide +kernel : ∀ t : Fin grid0.N, win0_6.index t (0 : Fin 2) = 0 ∧ win0_6.index t (1 : Fin 2) = 0)
theorem index0_7 : ∀ t : Fin cfg0.N, win0_7.index t (0 : Fin 3) = t.val ∧ win0_7.index t (1 : Fin 3) = 0 ∧ win0_7.index t (2 : Fin 3) = 0 :=
  (by decide +kernel : ∀ t : Fin grid0.N, win0_7.index t (0 : Fin 3) = t.val ∧ win0_7.index t (1 : Fin 3) = 0 ∧ win0_7.index t (2 : Fin 3) = 0)
theorem index0_8 : ∀ t : Fin cfg0.N, win0_8.index t (0 : Fin 3) = t.val ∧ win0_8.index t (1 : Fin 3) = 0 ∧ win0_8.index t (2 : Fin 3) = 0 :=
  (by decide +kernel : ∀ t : Fin grid0.N, win0_8.index t (0 : Fin 3) = t.val ∧ win0_8.index t (1 : Fin 3) = 0 ∧ win0_8.index t (2 : Fin 3) = 0)

variable (V : (c : Dev nD) → (b : Ref sig .tc) → Buf (Elt Ideal) ((c : Thread nD τ).loc b))

/-! ## The input blocks at point t, read off the arrays -/

/-- The subject words' block at point t is row t of their array. -/
theorem iblk0_0_apply (c : Dev nD) (t : Fin cfg0.N) (p : Fin 512) :
    (iblk0 (F := Ideal) V c 0 t : Vec Ideal S1x1x512 .i32) (ix3 (0 : Fin 1) (0 : Fin 1) p)
      = (V c main_v0 : S128x1x512.Idx → BitVec 32) (ix3 (rowOf t) (0 : Fin 1) p) := by
  obtain ⟨e0, e1, e2⟩ := index0_0 t
  unfold iblk0
  rw [View.read_apply]
  show V c main_v0 _ = V c main_v0 _
  congr 1
  funext a
  apply Fin.ext
  match a with
  | ⟨0, _⟩ => show win0_0.index t (0 : Fin 3) * 1 + 1 * 0 = t.val; omega
  | ⟨1, _⟩ => show win0_0.index t (1 : Fin 3) * 1 + 1 * 0 = 0; omega
  | ⟨2, _⟩ => show win0_0.index t (2 : Fin 3) * 512 + 1 * p.val = p.val; omega

/-- The first-relation words' block at point t is row t of their array. -/
theorem iblk0_1_apply (c : Dev nD) (t : Fin cfg0.N) (p : Fin 512) :
    (iblk0 (F := Ideal) V c 1 t : Vec Ideal S1x1x512 .i32) (ix3 (0 : Fin 1) (0 : Fin 1) p)
      = (V c main_v1 : S128x1x512.Idx → BitVec 32) (ix3 (rowOf t) (0 : Fin 1) p) := by
  obtain ⟨e0, e1, e2⟩ := index0_1 t
  unfold iblk0
  rw [View.read_apply]
  show V c main_v1 _ = V c main_v1 _
  congr 1
  funext a
  apply Fin.ext
  match a with
  | ⟨0, _⟩ => show win0_1.index t (0 : Fin 3) * 1 + 1 * 0 = t.val; omega
  | ⟨1, _⟩ => show win0_1.index t (1 : Fin 3) * 1 + 1 * 0 = 0; omega
  | ⟨2, _⟩ => show win0_1.index t (2 : Fin 3) * 512 + 1 * p.val = p.val; omega

/-- The first-entity words' block at point t is row t of their array. -/
theorem iblk0_2_apply (c : Dev nD) (t : Fin cfg0.N) (p : Fin 512) :
    (iblk0 (F := Ideal) V c 2 t : Vec Ideal S1x1x512 .i32) (ix3 (0 : Fin 1) (0 : Fin 1) p)
      = (V c main_v2 : S128x1x512.Idx → BitVec 32) (ix3 (rowOf t) (0 : Fin 1) p) := by
  obtain ⟨e0, e1, e2⟩ := index0_2 t
  unfold iblk0
  rw [View.read_apply]
  show V c main_v2 _ = V c main_v2 _
  congr 1
  funext a
  apply Fin.ext
  match a with
  | ⟨0, _⟩ => show win0_2.index t (0 : Fin 3) * 1 + 1 * 0 = t.val; omega
  | ⟨1, _⟩ => show win0_2.index t (1 : Fin 3) * 1 + 1 * 0 = 0; omega
  | ⟨2, _⟩ => show win0_2.index t (2 : Fin 3) * 512 + 1 * p.val = p.val; omega

/-- The second-relation words' block at point t is row t of their array. -/
theorem iblk0_3_apply (c : Dev nD) (t : Fin cfg0.N) (p : Fin 512) :
    (iblk0 (F := Ideal) V c 3 t : Vec Ideal S1x1x512 .i32) (ix3 (0 : Fin 1) (0 : Fin 1) p)
      = (V c main_v3 : S128x1x512.Idx → BitVec 32) (ix3 (rowOf t) (0 : Fin 1) p) := by
  obtain ⟨e0, e1, e2⟩ := index0_3 t
  unfold iblk0
  rw [View.read_apply]
  show V c main_v3 _ = V c main_v3 _
  congr 1
  funext a
  apply Fin.ext
  match a with
  | ⟨0, _⟩ => show win0_3.index t (0 : Fin 3) * 1 + 1 * 0 = t.val; omega
  | ⟨1, _⟩ => show win0_3.index t (1 : Fin 3) * 1 + 1 * 0 = 0; omega
  | ⟨2, _⟩ => show win0_3.index t (2 : Fin 3) * 512 + 1 * p.val = p.val; omega

/-- The second-entity words' block at point t is row t of their array. -/
theorem iblk0_4_apply (c : Dev nD) (t : Fin cfg0.N) (p : Fin 512) :
    (iblk0 (F := Ideal) V c 4 t : Vec Ideal S1x1x512 .i32) (ix3 (0 : Fin 1) (0 : Fin 1) p)
      = (V c main_v4 : S128x1x512.Idx → BitVec 32) (ix3 (rowOf t) (0 : Fin 1) p) := by
  obtain ⟨e0, e1, e2⟩ := index0_4 t
  unfold iblk0
  rw [View.read_apply]
  show V c main_v4 _ = V c main_v4 _
  congr 1
  funext a
  apply Fin.ext
  match a with
  | ⟨0, _⟩ => show win0_4.index t (0 : Fin 3) * 1 + 1 * 0 = t.val; omega
  | ⟨1, _⟩ => show win0_4.index t (1 : Fin 3) * 1 + 1 * 0 = 0; omega
  | ⟨2, _⟩ => show win0_4.index t (2 : Fin 3) * 512 + 1 * p.val = p.val; omega

/-- The embedding block at point t is row t of the question embeddings. -/
theorem iblk0_5_row (c : Dev nD) (t : Fin cfg0.N) :
    (fun d : Fin 200 => (iblk0 (F := Ideal) V c 5 t : Vec Ideal S1x1x200 .f32) (ix3 (0 : Fin 1) (0 : Fin 1) d))
      = fun d : Fin 200 => (V c main_v5 : S128x1x200.Idx → EReal) (ix3 (rowOf t) (0 : Fin 1) d) := by
  obtain ⟨e0, e1, e2⟩ := index0_5 t
  funext d
  unfold iblk0
  rw [View.read_apply]
  show V c main_v5 _ = V c main_v5 _
  congr 1
  funext a
  apply Fin.ext
  match a with
  | ⟨0, _⟩ => show win0_5.index t (0 : Fin 3) * 1 + 1 * 0 = t.val; omega
  | ⟨1, _⟩ => show win0_5.index t (1 : Fin 3) * 1 + 1 * 0 = 0; omega
  | ⟨2, _⟩ => show win0_5.index t (2 : Fin 3) * 200 + 1 * d.val = d.val; omega

/-- The table's block at every point is the table. -/
theorem iblk0_6_eq (c : Dev nD) (t : Fin cfg0.N) :
    (iblk0 (F := Ideal) V c 6 t : Vec Ideal S21000x200 .f32) = (V c main_arg0 : S21000x200.Idx → EReal) := by
  obtain ⟨e0, e1⟩ := index0_6 t
  funext y
  unfold iblk0
  rw [View.read_apply]
  show V c main_arg0 _ = V c main_arg0 y
  congr 1
  funext a
  apply Fin.ext
  match a with
  | ⟨0, _⟩ => show win0_6.index t (0 : Fin 2) * 21000 + 1 * (y 0).val = (y 0).val; omega
  | ⟨1, _⟩ => show win0_6.index t (1 : Fin 2) * 200 + 1 * (y 1).val = (y 1).val; omega

/-! ## The output arrays -/

/-- The first hop's score array from the region's entry contents. -/
abbrev hop1 (c : Dev nD) : S128x1x512.Idx → EReal :=
  scoreArr (V c main_arg0) (V c main_v5) (V c main_v0) (V c main_v1) (V c main_v2)

/-- The second hop's score array from the region's entry contents. -/
abbrev hop2 (c : Dev nD) : S128x1x512.Idx → EReal :=
  scoreArr (V c main_arg0) (V c main_v5) (V c main_v2) (V c main_v3) (V c main_v4)

/-- Element (0, 0, p) of point t's block of the first output sits at (t, 0, p) of the array. -/
theorem emb7 (t : Fin cfg0.N) (p : Fin 512) :
    ((cfg0.win 7).blk t).view.emb (ix3 (0 : Fin 1) (0 : Fin 1) p) = (ix3 (rowOf t) (0 : Fin 1) p : S128x1x512.Idx) := by
  obtain ⟨e0, e1, e2⟩ := index0_7 t
  funext a
  apply Fin.ext
  match a with
  | ⟨0, _⟩ => show win0_7.index t (0 : Fin 3) * 1 + 1 * 0 = t.val; omega
  | ⟨1, _⟩ => show win0_7.index t (1 : Fin 3) * 1 + 1 * 0 = 0; omega
  | ⟨2, _⟩ => show win0_7.index t (2 : Fin 3) * 512 + 1 * p.val = p.val; omega

/-- What point t writes back to the first output is block t of the score array. -/
theorem flushed7_eq (c : Dev nD) (t : Fin cfg0.N) :
    (dat0 (F := Ideal) V c).flushed 7 t = ((cfg0.win 7).blk t).view.read (Elt Ideal) (hop1 V c) := by
  show (cfg0.win 7).cut (grid0.coords t) ((dat0 (F := Ideal) V c).after 7 t) = _
  rw [after0_7]
  funext y
  obtain ⟨p, rfl⟩ : ∃ p : Fin 512, y = ix3 (0 : Fin 1) (0 : Fin 1) p := ⟨_, eq_row_ix3 y⟩
  rw [View.read_apply]
  show out0_7 (F := Ideal) (iblk0 V c 0 t) (iblk0 V c 1 t) (iblk0 V c 2 t) (iblk0 V c 3 t) (iblk0 V c 4 t) (iblk0 V c 5 t) (iblk0 V c 6 t)
      (ix3 (0 : Fin 1) (0 : Fin 1) p) = hop1 V c (((cfg0.win 7).blk t).view.emb (ix3 (0 : Fin 1) (0 : Fin 1) p))
  rw [emb7 t p]
  refine (out0_7_apply _ _ _ _ _ _ _ p).trans ?_
  rw [iblk0_6_eq V c t, iblk0_0_apply V c t p, iblk0_1_apply V c t p, iblk0_2_apply V c t p, iblk0_5_row V c t]
  rfl

/-- An index of the first output array is in point t's block iff each coordinate is in the block's range on its axis. -/
theorem mem_blk7 (t : Fin cfg0.N) (i : S128x1x512.Idx) :
    i ∈ ((cfg0.win 7).blk t).view.set ↔ ∀ a : Fin 3, win0_7.index t a * S1x1x512.size a ≤ (i a).val ∧ (i a).val < win0_7.index t a * S1x1x512.size a + S1x1x512.size a := by
  show i ∈ ((View.whole main_v6_0).slice (win0_7.rect t)).set ↔ _
  rw [View.set_slice_whole, Rect.mem_set_unit]
  exact Iff.rfl

/-- Index (b, 0, p) of the first output array is in point b's block, which is written back. -/
theorem cover7 (i : S128x1x512.Idx) :
    ∃ t : Fin cfg0.N, (cfg0.win 7).flush t = true ∧ i ∈ ((cfg0.win 7).blk t).view.set := by
  have h0 : (i 0).val < 128 := (i 0).isLt
  have h1 : (i 1).val < 1 := (i 1).isLt
  have h2 : (i 2).val < 512 := (i 2).isLt
  have hN : (i 0).val < cfg0.N := Nat.lt_of_lt_of_eq h0 N_0.symm
  refine ⟨⟨(i 0).val, hN⟩, flush0_7 _, ?_⟩
  rw [mem_blk7]
  have e0 : win0_7.index ⟨(i 0).val, hN⟩ (0 : Fin 3) = (i 0).val := (index0_7 ⟨(i 0).val, hN⟩).1
  have e1 : win0_7.index ⟨(i 0).val, hN⟩ (1 : Fin 3) = 0 := (index0_7 ⟨(i 0).val, hN⟩).2.1
  have e2 : win0_7.index ⟨(i 0).val, hN⟩ (2 : Fin 3) = 0 := (index0_7 ⟨(i 0).val, hN⟩).2.2
  intro a
  match a with
  | ⟨0, _⟩ => show win0_7.index ⟨(i 0).val, hN⟩ (0 : Fin 3) * 1 ≤ (i 0).val ∧ (i 0).val < win0_7.index ⟨(i 0).val, hN⟩ (0 : Fin 3) * 1 + 1; omega
  | ⟨1, _⟩ => show win0_7.index ⟨(i 0).val, hN⟩ (1 : Fin 3) * 1 ≤ (i 1).val ∧ (i 1).val < win0_7.index ⟨(i 0).val, hN⟩ (1 : Fin 3) * 1 + 1; omega
  | ⟨2, _⟩ => show win0_7.index ⟨(i 0).val, hN⟩ (2 : Fin 3) * 512 ≤ (i 2).val ∧ (i 2).val < win0_7.index ⟨(i 0).val, hN⟩ (2 : Fin 3) * 512 + 512; omega

/-- After the region the first output array is the score array. -/
theorem arr0_7_eq (c : Dev nD) : (dat0 (F := Ideal) V c).arrAt 7 cfg0.N = hop1 V c :=
  (dat0 (F := Ideal) V c).arrAt_eq_of_cover 7 (hop1 V c) (fun t _ => flushed7_eq V c t) cover7

/-- Element (0, 0, p) of point t's block of the second output sits at (t, 0, p) of the array. -/
theorem emb8 (t : Fin cfg0.N) (p : Fin 512) :
    ((cfg0.win 8).blk t).view.emb (ix3 (0 : Fin 1) (0 : Fin 1) p) = (ix3 (rowOf t) (0 : Fin 1) p : S128x1x512.Idx) := by
  obtain ⟨e0, e1, e2⟩ := index0_8 t
  funext a
  apply Fin.ext
  match a with
  | ⟨0, _⟩ => show win0_8.index t (0 : Fin 3) * 1 + 1 * 0 = t.val; omega
  | ⟨1, _⟩ => show win0_8.index t (1 : Fin 3) * 1 + 1 * 0 = 0; omega
  | ⟨2, _⟩ => show win0_8.index t (2 : Fin 3) * 512 + 1 * p.val = p.val; omega

/-- What point t writes back to the second output is block t of the score array. -/
theorem flushed8_eq (c : Dev nD) (t : Fin cfg0.N) :
    (dat0 (F := Ideal) V c).flushed 8 t = ((cfg0.win 8).blk t).view.read (Elt Ideal) (hop2 V c) := by
  show (cfg0.win 8).cut (grid0.coords t) ((dat0 (F := Ideal) V c).after 8 t) = _
  rw [after0_8]
  funext y
  obtain ⟨p, rfl⟩ : ∃ p : Fin 512, y = ix3 (0 : Fin 1) (0 : Fin 1) p := ⟨_, eq_row_ix3 y⟩
  rw [View.read_apply]
  show out0_8 (F := Ideal) (iblk0 V c 0 t) (iblk0 V c 1 t) (iblk0 V c 2 t) (iblk0 V c 3 t) (iblk0 V c 4 t) (iblk0 V c 5 t) (iblk0 V c 6 t)
      (ix3 (0 : Fin 1) (0 : Fin 1) p) = hop2 V c (((cfg0.win 8).blk t).view.emb (ix3 (0 : Fin 1) (0 : Fin 1) p))
  rw [emb8 t p]
  refine (out0_8_apply _ _ _ _ _ _ _ p).trans ?_
  rw [iblk0_6_eq V c t, iblk0_2_apply V c t p, iblk0_3_apply V c t p, iblk0_4_apply V c t p, iblk0_5_row V c t]
  rfl

/-- An index of the second output array is in point t's block iff each coordinate is in the block's range on its axis. -/
theorem mem_blk8 (t : Fin cfg0.N) (i : S128x1x512.Idx) :
    i ∈ ((cfg0.win 8).blk t).view.set ↔ ∀ a : Fin 3, win0_8.index t a * S1x1x512.size a ≤ (i a).val ∧ (i a).val < win0_8.index t a * S1x1x512.size a + S1x1x512.size a := by
  show i ∈ ((View.whole main_v6_1).slice (win0_8.rect t)).set ↔ _
  rw [View.set_slice_whole, Rect.mem_set_unit]
  exact Iff.rfl

/-- Index (b, 0, p) of the second output array is in point b's block, which is written back. -/
theorem cover8 (i : S128x1x512.Idx) :
    ∃ t : Fin cfg0.N, (cfg0.win 8).flush t = true ∧ i ∈ ((cfg0.win 8).blk t).view.set := by
  have h0 : (i 0).val < 128 := (i 0).isLt
  have h1 : (i 1).val < 1 := (i 1).isLt
  have h2 : (i 2).val < 512 := (i 2).isLt
  have hN : (i 0).val < cfg0.N := Nat.lt_of_lt_of_eq h0 N_0.symm
  refine ⟨⟨(i 0).val, hN⟩, flush0_8 _, ?_⟩
  rw [mem_blk8]
  have e0 : win0_8.index ⟨(i 0).val, hN⟩ (0 : Fin 3) = (i 0).val := (index0_8 ⟨(i 0).val, hN⟩).1
  have e1 : win0_8.index ⟨(i 0).val, hN⟩ (1 : Fin 3) = 0 := (index0_8 ⟨(i 0).val, hN⟩).2.1
  have e2 : win0_8.index ⟨(i 0).val, hN⟩ (2 : Fin 3) = 0 := (index0_8 ⟨(i 0).val, hN⟩).2.2
  intro a
  match a with
  | ⟨0, _⟩ => show win0_8.index ⟨(i 0).val, hN⟩ (0 : Fin 3) * 1 ≤ (i 0).val ∧ (i 0).val < win0_8.index ⟨(i 0).val, hN⟩ (0 : Fin 3) * 1 + 1; omega
  | ⟨1, _⟩ => show win0_8.index ⟨(i 0).val, hN⟩ (1 : Fin 3) * 1 ≤ (i 1).val ∧ (i 1).val < win0_8.index ⟨(i 0).val, hN⟩ (1 : Fin 3) * 1 + 1; omega
  | ⟨2, _⟩ => show win0_8.index ⟨(i 0).val, hN⟩ (2 : Fin 3) * 512 ≤ (i 2).val ∧ (i 2).val < win0_8.index ⟨(i 0).val, hN⟩ (2 : Fin 3) * 512 + 512; omega

/-- After the region the second output array is the score array. -/
theorem arr0_8_eq (c : Dev nD) : (dat0 (F := Ideal) V c).arrAt 8 cfg0.N = hop2 V c :=
  (dat0 (F := Ideal) V c).arrAt_eq_of_cover 8 (hop2 V c) (fun t _ => flushed8_eq V c t) cover8

/-- After the region, output array 7 (the first hop's scores, 128 × 1 × 512) at (b, 0, p), from the region's entry contents
    `V`: `main_v0`, `main_v1`, `main_v2` are the 128 × 1 × 512 index arrays of the subject, first relation and first entity,
    `main_v5` the 128 × 1 × 200 embeddings, `main_arg0` the table. -/
theorem arr0_7_apply (c : Dev nD) (b : Fin 128) (p : Fin 512) :
    (dat0 (F := Ideal) V c).arrAt 7 cfg0.N (ix3 b (0 : Fin 1) p)
      = Cert.PathSpec.score (Cert.PathSpec.rowAt (V c main_arg0) (V c main_v0 (ix3 b (0 : Fin 1) p) : BitVec 32).toNat)
          (Cert.PathSpec.rowAt (V c main_arg0) (V c main_v1 (ix3 b (0 : Fin 1) p) : BitVec 32).toNat)
          (Cert.PathSpec.rowAt (V c main_arg0) (V c main_v2 (ix3 b (0 : Fin 1) p) : BitVec 32).toNat)
          (fun d => (V c main_v5 (ix3 b (0 : Fin 1) d) : EReal)) := by
  rw [arr0_7_eq V c]
  rfl

/-- Output array 8 (the second hop's scores): the first-entity (`main_v2`), second-relation (`main_v3`) and second-entity
    (`main_v4`) index arrays. -/
theorem arr0_8_apply (c : Dev nD) (b : Fin 128) (p : Fin 512) :
    (dat0 (F := Ideal) V c).arrAt 8 cfg0.N (ix3 b (0 : Fin 1) p)
      = Cert.PathSpec.score (Cert.PathSpec.rowAt (V c main_arg0) (V c main_v2 (ix3 b (0 : Fin 1) p) : BitVec 32).toNat)
          (Cert.PathSpec.rowAt (V c main_arg0) (V c main_v3 (ix3 b (0 : Fin 1) p) : BitVec 32).toNat)
          (Cert.PathSpec.rowAt (V c main_arg0) (V c main_v4 (ix3 b (0 : Fin 1) p) : BitVec 32).toNat)
          (fun d => (V c main_v5 (ix3 b (0 : Fin 1) d) : EReal)) := by
  rw [arr0_8_eq V c]
  rfl

end Cert.KernelIdeal.Region0Array

end
-- ==== Proof.MeanBody.lean ====
/-
  The mean score per tail entity, as the second kernel computes it.

  A question's 21504 entity slots are taken 2688 at a time.  For a chunk starting at c the 2688 × 512 indicator
  "tail word of path p equals c + row" is formed; its row sums count the paths ending at each entity, the row sums
  of the indicator times the scores add their scores, and the quotient by max(count, 1) is kept where the count is
  positive and zero elsewhere.  The eight chunks tile the output block, so slot e holds `meanAt` of the scores
  and tail words at e.

  The steps.  One chunk is written once as a function of its start word, the score row and the tail row
  (`meanChunk`), and each of the sixteen stored values is that function at its own start, by unfolding.  Read at
  row r, the indicator entry of path p is 1 when the tail word of p is c + r as a number and 0 otherwise (the start
  and the row add without wrapping, since c + 2688 ≤ 21504), so the two row sums are `cntAt` and `sumAt` at
  c + r and the selected quotient is `meanAt` there.  A slot of the block lies in exactly the chunk whose rows hold
  it, at row e − c, so the block is one function of the slot.
-/
import proofs.«404836_j17403207483556_2_alg».proof.Proof.Gen.KernelIdeal.Frame
import proofs.«404836_j17403207483556_2_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.MeanBody

open Idealize.ShloMosaic Idealize.ShloMosaic.ValueIdx Idealize.SL.Sem Cert.KernelIdeal Cert.KernelIdeal.Gen

/-! ## One chunk, as a function of its start word, the score row and the tail row -/

section Chunk
variable {F : FTy → Type} [FloatOps F]

/-- The indicator of the chunk starting at `c`: at row r and path p, one when the tail word of p is the word c + r. -/
def indic (c : BitVec 32) (tl : IVec S1x512 32) : FVec F S2688x512 .f32 :=
  sitofp .f32 (extui 32 (cmpi .eq (addi (iota .tc S2688x512 32 [0] iota_S2688x512_d0_w32) (broadcast S2688x512 c))
    (broadcastTo S2688x512 tl broadcasts_S1x512_S2688x512)) natLt_1_32)

/-- The indicator's row sums: how many paths end at each entity of the chunk. -/
def cntRow (c : BitVec 32) (tl : IVec S1x512 32) : FVec F S2688 .f32 :=
  multiReduction .add [1] S2688 (indic (F := F) c tl) 0x00000000#32 reduces_S2688x512_S2688 (.inl rfl) rfl

/-- The row sums of the indicator times the scores: the sum of the scores of the paths ending at each entity. -/
def sumRow (c : BitVec 32) (sc : FVec F S1x512 .f32) (tl : IVec S1x512 32) : FVec F S2688 .f32 :=
  multiReduction .add [1] S2688 (mulf (indic (F := F) c tl) (broadcastTo S2688x512 sc broadcasts_S1x512_S2688x512))
    0x00000000#32 reduces_S2688x512_S2688 (.inl rfl) rfl

/-- The quotient of the sums by max(count, 1), kept where the count is positive and zero elsewhere. -/
def meanRow (sum cnt : FVec F S2688 .f32) : FVec F S2688 .f32 :=
  select (cmpf .ogt cnt (broadcast S2688 (Scalar.ofBits .f32 0x00000000#32 : F .f32)))
    (divf sum (maximumf cnt (broadcast S2688 (Scalar.ofBits .f32 0x3F800000#32 : F .f32))))
    (broadcast S2688 (Scalar.ofBits .f32 0x00000000#32 : F .f32))

/-- The chunk starting at `c`, in the shape it is stored in. -/
def meanChunk (c : BitVec 32) (sc : FVec F S1x512 .f32) (tl : IVec S1x512 32) : FVec F S1x1x2688 .f32 :=
  shapeCast S1x1x2688 (meanRow (sumRow c sc tl) (cntRow (F := F) c tl)) shapeCasts_S2688_S1x1x2688

/-! ## The sixteen stored values are that function, each at its own start -/

theorem pay5_eq (v0 : Vec F S1x1x512 .f32) (v3 : Vec F S1x1x512 .i32) :
    k1_pay5 v0 v3 = meanChunk 0#32 (k1_pay3 v0) (k1_pay4 v3) := rfl
theorem pay10_eq (v0 : Vec F S1x1x512 .f32) (v3 : Vec F S1x1x512 .i32) :
    k1_pay10 (k1_pay7 v0 v3) (k1_pay8 v3) (k1_pay9 (F := F)) = meanChunk 2688#32 (k1_pay3 v0) (k1_pay4 v3) := rfl
theorem pay11_eq (sc : FVec F S1x512 .f32) (tl : IVec S1x512 32) : k1_pay11 sc tl = meanChunk 5376#32 sc tl := rfl
theorem pay15_eq (sc : FVec F S1x512 .f32) (tl : IVec S1x512 32) :
    k1_pay15 (k1_pay13 sc tl) (k1_pay14 (F := F) tl) = meanChunk 8064#32 sc tl := rfl
theorem pay16_eq (sc : FVec F S1x512 .f32) (tl : IVec S1x512 32) : k1_pay16 sc tl = meanChunk 10752#32 sc tl := rfl
theorem pay19_eq (sc : FVec F S1x512 .f32) (tl : IVec S1x512 32) :
    k1_pay19 (k1_pay17 (F := F) tl) (k1_pay18 sc tl) = meanChunk 13440#32 sc tl := rfl
theorem pay20_eq (sc : FVec F S1x512 .f32) (tl : IVec S1x512 32) : k1_pay20 sc tl = meanChunk 16128#32 sc tl := rfl
theorem pay23_eq (sc : FVec F S1x512 .f32) (tl : IVec S1x512 32) :
    k1_pay23 (k1_pay21 (F := F) tl) (k1_pay22 sc tl) = meanChunk 18816#32 sc tl := rfl

theorem pay27_eq (v174 : Vec F S1x1x512 .f32) (v177 : Vec F S1x1x512 .i32) :
    k1_pay27 (k1_pay26 v174 v177) = meanChunk 0#32 (k1_pay24 v174) (k1_pay25 v177) := rfl
theorem pay28_eq (sc : FVec F S1x512 .f32) (tl : IVec S1x512 32) : k1_pay28 sc tl = meanChunk 2688#32 sc tl := rfl
theorem pay30_eq (sc : FVec F S1x512 .f32) (tl : IVec S1x512 32) :
    k1_pay30 (k1_pay29 sc tl) = meanChunk 5376#32 sc tl := rfl
theorem pay31_eq (sc : FVec F S1x512 .f32) (tl : IVec S1x512 32) : k1_pay31 sc tl = meanChunk 8064#32 sc tl := rfl
theorem pay37_eq (sc : FVec F S1x512 .f32) (tl : IVec S1x512 32) :
    k1_pay37 (k1_pay34 (F := F) tl) (k1_pay35 sc tl) (k1_pay36 (F := F)) = meanChunk 10752#32 sc tl := rfl
theorem pay38_eq (sc : FVec F S1x512 .f32) (tl : IVec S1x512 32) : k1_pay38 sc tl = meanChunk 13440#32 sc tl := rfl
theorem pay1_eq (sc : FVec F S1x512 .f32) (tl : IVec S1x512 32) :
    k1_pay1 (k1_pay41 (F := F) tl) (k1_pay42 sc tl) = meanChunk 16128#32 sc tl := rfl
theorem pay2_eq (sc : FVec F S1x512 .f32) (tl : IVec S1x512 32) : k1_pay2 sc tl = meanChunk 18816#32 sc tl := rfl

end Chunk

/-! ## Words: the equality test as an extended real, and the sum of the start and the row -/

/-- The widened, converted bit of the test "x = w": one or zero. -/
def bitVal (x w : BitVec 32) : EReal := ((((IntOp.cmpi .eq x w).setWidth 32).toInt : ℝ) : EReal)

theorem bitVal_eq (x w : BitVec 32) : bitVal x w = if x = w then 1 else 0 := by
  show ((((BitVec.ofBool (x == w)).setWidth 32).toInt : ℝ) : EReal) = _
  by_cases h : x = w
  · subst h
    have e : ((BitVec.ofBool (x == x)).setWidth 32).toInt = 1 := by
      rw [beq_self_eq_true]; decide
    rw [if_pos rfl, e, Int.cast_one, EReal.coe_one]
  · have e : ((BitVec.ofBool (x == w)).setWidth 32).toInt = 0 := by
      rw [beq_eq_false_iff_ne.mpr h]; decide
    rw [if_neg h, e, Int.cast_zero, EReal.coe_zero]

/-- The row's word plus the start word is the word `w` exactly when `w` is the number start + row: nothing wraps. -/
theorem word_eq_iff (c w : BitVec 32) (r : ℕ) (h : c.toNat + r < 4294967296) :
    BitVec.ofNat 32 r + c = w ↔ w.toNat = c.toNat + r := by
  constructor
  · rintro rfl
    rw [BitVec.toNat_add, BitVec.toNat_ofNat]
    omega
  · intro hw
    apply BitVec.eq_of_toNat_eq
    rw [BitVec.toNat_add, BitVec.toNat_ofNat, hw]
    omega

/-! ## Layout: the row vector stored as a [1, 1, 2688] block, and a row sum as a sum over the paths -/

/-- An [a] array cast to [1, 1, a] reads, at (u, v, i), the operand at i. -/
theorem shapeCast_a_11a_apply {α : Type} {a : ℕ} (x : (⟨1, ![a]⟩ : Shape).Idx → α)
    (h : (⟨1, ![a]⟩ : Shape).ShapeCasts ⟨3, ![1, 1, a]⟩) (u v : Fin 1) (i : Fin a) :
    shapeCast ⟨3, ![1, 1, a]⟩ x h (ix3 u v i) = x (ix1 i) :=
  shapeCast_apply x h _ _ (by
    have hu : u.val = 0 := by omega
    have hv : v.val = 0 := by omega
    rw [Shape.rowMajor_val_three, Shape.rowMajor_val_one]
    show i.val = (u.val * 1 + v.val) * a + i.val
    rw [hu, hv, Nat.zero_mul, Nat.zero_add])

/-- A sum along the paths of a 2688 × 512 array, read at row r, is the sum over the 512 paths of row r's entries. -/
theorem rowSum_apply (src : FVec Ideal S2688x512 .f32) (h : S2688x512.Reduces [1] S2688) (hφ : FKind.Formats .f32)
    (hacc : (0x00000000#32 : BitVec 32) = 0x00000000#32) (r : Fin 2688) :
    multiReduction .add [1] S2688 src 0x00000000#32 h hφ hacc (ix1 r) = ∑ p : Fin 512, src (ix2 r p) := by
  refine (Ideal.multiReduction_add_single src 0x00000000#32 h hφ hacc (ix1 r)).trans ?_
  refine Finset.sum_congr rfl fun k _ => congrArg src ?_
  funext a
  match a with
  | ⟨0, _⟩ => exact Fin.ext rfl
  | ⟨1, _⟩ => exact Fin.ext rfl

/-! ## One chunk at a row: the mean at entity start + row -/

/-- An indicator entry: one when the tail word of path p is the number start + row. -/
theorem indic_apply (c : BitVec 32) (tl : IVec S1x512 32) (hc : c.toNat + 2688 ≤ 21504) (r : Fin 2688) (p : Fin 512) :
    indic (F := Ideal) c tl (ix2 r p) = Cert.PathSpec.oneAt (tl (ix2 (0 : Fin 1) p)) (c.toNat + r.val) := by
  have hb : broadcastTo S2688x512 tl broadcasts_S1x512_S2688x512 (ix2 r p) = tl (ix2 (0 : Fin 1) p) :=
    broadcastTo_1b_ab_apply tl broadcasts_S1x512_S2688x512 r p
  have hi : iota .tc S2688x512 32 [0] iota_S2688x512_d0_w32 (ix2 r p) = BitVec.ofNat 32 r.val :=
    iota_single_apply .tc S2688x512 32 0 iota_S2688x512_d0_w32 (ix2 r p)
  have e : indic (F := Ideal) c tl (ix2 r p)
      = bitVal (iota .tc S2688x512 32 [0] iota_S2688x512_d0_w32 (ix2 r p) + c)
          (broadcastTo S2688x512 tl broadcasts_S1x512_S2688x512 (ix2 r p)) := rfl
  refine e.trans ?_
  rw [hb, hi, bitVal_eq]
  unfold Cert.PathSpec.oneAt
  have hr := r.isLt
  by_cases h : (tl (ix2 (0 : Fin 1) p)).toNat = c.toNat + r.val
  · rw [if_pos h, if_pos ((word_eq_iff c _ r.val (by omega)).mpr h)]
  · rw [if_neg h, if_neg fun h' => h ((word_eq_iff c _ r.val (by omega)).mp h')]

/-- The count row at row r: the number of paths whose tail is entity start + r. -/
theorem cntRow_apply (c : BitVec 32) (tl : IVec S1x512 32) (hc : c.toNat + 2688 ≤ 21504) (r : Fin 2688) :
    cntRow (F := Ideal) c tl (ix1 r) = Cert.PathSpec.cntAt (fun p => tl (ix2 (0 : Fin 1) p)) (c.toNat + r.val) := by
  refine (rowSum_apply (indic (F := Ideal) c tl) reduces_S2688x512_S2688 (.inl rfl) rfl r).trans ?_
  show _ = ∑ p : Fin 512, Cert.PathSpec.oneAt (tl (ix2 (0 : Fin 1) p)) (c.toNat + r.val)
  exact Finset.sum_congr rfl fun p _ => indic_apply c tl hc r p

/-- The sum row at row r: the sum of the scores of the paths whose tail is entity start + r. -/
theorem sumRow_apply (c : BitVec 32) (sc : FVec Ideal S1x512 .f32) (tl : IVec S1x512 32) (hc : c.toNat + 2688 ≤ 21504)
    (r : Fin 2688) :
    sumRow (F := Ideal) c sc tl (ix1 r)
      = Cert.PathSpec.sumAt (fun p => sc (ix2 (0 : Fin 1) p)) (fun p => tl (ix2 (0 : Fin 1) p)) (c.toNat + r.val) := by
  refine (rowSum_apply (mulf (indic (F := Ideal) c tl) (broadcastTo S2688x512 sc broadcasts_S1x512_S2688x512))
    reduces_S2688x512_S2688 (.inl rfl) rfl r).trans ?_
  show _ = ∑ p : Fin 512, Cert.PathSpec.oneAt (tl (ix2 (0 : Fin 1) p)) (c.toNat + r.val) * sc (ix2 (0 : Fin 1) p)
  refine Finset.sum_congr rfl fun p _ => ?_
  show indic (F := Ideal) c tl (ix2 r p) * broadcastTo S2688x512 sc broadcasts_S1x512_S2688x512 (ix2 r p) = _
  rw [indic_apply c tl hc r p, broadcastTo_1b_ab_apply sc broadcasts_S1x512_S2688x512 r p]

/-- The chunk starting at `c` at its row r: the mean at entity c + r. -/
theorem meanChunk_apply (c : BitVec 32) (sc : FVec Ideal S1x512 .f32) (tl : IVec S1x512 32) (hc : c.toNat + 2688 ≤ 21504)
    (r : Fin 2688) :
    meanChunk (F := Ideal) c sc tl (ix3 (0 : Fin 1) (0 : Fin 1) r)
      = Cert.PathSpec.meanAt (fun p => sc (ix2 (0 : Fin 1) p)) (fun p => tl (ix2 (0 : Fin 1) p)) (c.toNat + r.val) := by
  refine (shapeCast_a_11a_apply _ shapeCasts_S2688_S1x1x2688 (0 : Fin 1) (0 : Fin 1) r).trans ?_
  show Scalar.select (Ideal.cmp .ogt (cntRow (F := Ideal) c tl (ix1 r)) (Ideal.ofBits .f32 0x00000000#32))
      (Ideal.div (sumRow (F := Ideal) c sc tl (ix1 r)) (max (cntRow (F := Ideal) c tl (ix1 r)) (Ideal.ofBits .f32 0x3F800000#32)))
      (Ideal.ofBits .f32 0x00000000#32) = _
  rw [cntRow_apply c tl hc r, sumRow_apply c sc tl hc r]
  rfl

/-! ## The block: eight chunks, one function of the slot -/

/-- The mean at every slot of the block. -/
def blockMean (sc : Fin 512 → EReal) (tl : Fin 512 → BitVec 32) : S1x1x21504.Idx → EReal :=
  fun y => Cert.PathSpec.meanAt sc tl (y 2).val

theorem hz : (![0, 0, 0] : Fin 3 → Nat) = fun _ => 0 :=
  funext fun a => match a with | ⟨0, _⟩ => rfl | ⟨1, _⟩ => rfl | ⟨2, _⟩ => rfl

/-- The score row is the score block's one row. -/
theorem pay3_apply (v0 : Vec Ideal S1x1x512 .f32) (p : Fin 512) :
    k1_pay3 v0 (ix2 (0 : Fin 1) p) = v0 (ix3 (0 : Fin 1) (0 : Fin 1) p) :=
  (shapeCast_1ab_ab_apply (shapeCast S1x1x512 v0 shapeCasts_S1x1x512_S1x1x512) shapeCasts_S1x1x512_S1x512 (0 : Fin 1) p).trans
    (congrFun (shapeCast_self v0 shapeCasts_S1x1x512_S1x1x512) _)
/-- The tail row is the tail block's one row. -/
theorem pay4_apply (v3 : Vec Ideal S1x1x512 .i32) (p : Fin 512) :
    k1_pay4 (F := Ideal) v3 (ix2 (0 : Fin 1) p) = v3 (ix3 (0 : Fin 1) (0 : Fin 1) p) :=
  (shapeCast_1ab_ab_apply (shapeCast S1x1x512 v3 shapeCasts_S1x1x512_S1x1x512) shapeCasts_S1x1x512_S1x512 (0 : Fin 1) p).trans
    (congrFun (shapeCast_self v3 shapeCasts_S1x1x512_S1x1x512) _)
theorem pay24_apply (v0 : Vec Ideal S1x1x512 .f32) (p : Fin 512) :
    k1_pay24 v0 (ix2 (0 : Fin 1) p) = v0 (ix3 (0 : Fin 1) (0 : Fin 1) p) :=
  (shapeCast_1ab_ab_apply (shapeCast S1x1x512 v0 shapeCasts_S1x1x512_S1x1x512) shapeCasts_S1x1x512_S1x512 (0 : Fin 1) p).trans
    (congrFun (shapeCast_self v0 shapeCasts_S1x1x512_S1x1x512) _)
theorem pay25_apply (v3 : Vec Ideal S1x1x512 .i32) (p : Fin 512) :
    k1_pay25 (F := Ideal) v3 (ix2 (0 : Fin 1) p) = v3 (ix3 (0 : Fin 1) (0 : Fin 1) p) :=
  (shapeCast_1ab_ab_apply (shapeCast S1x1x512 v3 shapeCasts_S1x1x512_S1x1x512) shapeCasts_S1x1x512_S1x512 (0 : Fin 1) p).trans
    (congrFun (shapeCast_self v3 shapeCasts_S1x1x512_S1x1x512) _)

/-- The chunk stored at offset n, read at a local index, is the block's function at the slot that index lands on. -/
theorem chunk_piece (c : BitVec 32) (n : ℕ) (hn : c.toNat = n) (hc : c.toNat + 2688 ≤ 21504)
    (inb : ∀ a, (![0, 0, n] : Fin 3 → Nat) a + S1x1x2688.size a ≤ S1x1x21504.size a)
    (v0 : Vec Ideal S1x1x512 .f32) (v3 : Vec Ideal S1x1x512 .i32) (sc : FVec Ideal S1x512 .f32) (tl : IVec S1x512 32)
    (hsc : ∀ p : Fin 512, sc (ix2 (0 : Fin 1) p) = v0 (ix3 (0 : Fin 1) (0 : Fin 1) p))
    (htl : ∀ p : Fin 512, tl (ix2 (0 : Fin 1) p) = v3 (ix3 (0 : Fin 1) (0 : Fin 1) p))
    (x : (Rect.unit (s := S1x1x21504) ![0, 0, n] S1x1x2688.size inb).shape.Idx) :
    meanChunk (F := Ideal) c sc tl x
      = blockMean (fun p => v0 (ix3 (0 : Fin 1) (0 : Fin 1) p)) (fun p => v3 (ix3 (0 : Fin 1) (0 : Fin 1) p))
          ((Rect.unit (s := S1x1x21504) ![0, 0, n] S1x1x2688.size inb).emb x) := by
  obtain ⟨a, b, r, rfl⟩ : ∃ (a b : Fin 1) (r : Fin 2688), x = ix3 a b r := ⟨x 0, x 1, x 2, eq_ix3 x⟩
  obtain rfl : a = 0 := Subsingleton.elim _ _
  obtain rfl : b = 0 := Subsingleton.elim _ _
  rw [meanChunk_apply c sc tl hc r, show (fun p => sc (ix2 (0 : Fin 1) p)) = fun p => v0 (ix3 (0 : Fin 1) (0 : Fin 1) p) from funext hsc,
    show (fun p => tl (ix2 (0 : Fin 1) p)) = fun p => v3 (ix3 (0 : Fin 1) (0 : Fin 1) p) from funext htl]
  show Cert.PathSpec.meanAt _ _ (c.toNat + r.val) = Cert.PathSpec.meanAt _ _ (n + 1 * r.val)
  rw [hn, Nat.one_mul]

/-- The first output block of the second kernel at entity slot e: the mean of the first hop's scores over the paths
    whose first tail word is e. -/
theorem out1_4_apply (x0 : Vec Ideal S1x1x512 .f32) (x1 : Vec Ideal S1x1x512 .i32) (x2 : Vec Ideal S1x1x512 .f32) (x3 : Vec Ideal S1x1x512 .i32)
    (e : Fin 21504) :
    out1_4 (F := Ideal) x0 x1 x2 x3 (ix3 (0 : Fin 1) (0 : Fin 1) e)
      = Cert.PathSpec.meanAt (fun p => x0 (ix3 (0 : Fin 1) (0 : Fin 1) p)) (fun p => x1 (ix3 (0 : Fin 1) (0 : Fin 1) p)) e.val := by
  unfold out1_4
  rw [View.ld_unit_zero hz inb_S1x1x512_S1x1x512_0_0_0 x0, View.ld_unit_zero hz inb_S1x1x512_S1x1x512_0_0_0 x1]
  refine View.canon_apply_of_pieces (Val := Elt Ideal)
    (blockMean (fun p => x0 (ix3 (0 : Fin 1) (0 : Fin 1) p)) (fun p => x1 (ix3 (0 : Fin 1) (0 : Fin 1) p))) _
    (fun q hq x => ?_) (ix3 (0 : Fin 1) (0 : Fin 1) e) (cover1_4 _ _ _ _ _ _ _ _ _)
  simp only [List.mem_cons, List.mem_nil_iff, or_false] at hq
  rcases hq with rfl | rfl | rfl | rfl | rfl | rfl | rfl | rfl
  · exact (congrFun (pay23_eq _ _) x).trans
      (chunk_piece 18816#32 18816 rfl (by decide) inb_S1x1x21504_S1x1x2688_0_0_18816 x0 x1 _ _ (pay3_apply x0) (pay4_apply x1) x)
  · exact (congrFun (pay20_eq _ _) x).trans
      (chunk_piece 16128#32 16128 rfl (by decide) inb_S1x1x21504_S1x1x2688_0_0_16128 x0 x1 _ _ (pay3_apply x0) (pay4_apply x1) x)
  · exact (congrFun (pay19_eq _ _) x).trans
      (chunk_piece 13440#32 13440 rfl (by decide) inb_S1x1x21504_S1x1x2688_0_0_13440 x0 x1 _ _ (pay3_apply x0) (pay4_apply x1) x)
  · exact (congrFun (pay16_eq _ _) x).trans
      (chunk_piece 10752#32 10752 rfl (by decide) inb_S1x1x21504_S1x1x2688_0_0_10752 x0 x1 _ _ (pay3_apply x0) (pay4_apply x1) x)
  · exact (congrFun (pay15_eq _ _) x).trans
      (chunk_piece 8064#32 8064 rfl (by decide) inb_S1x1x21504_S1x1x2688_0_0_8064 x0 x1 _ _ (pay3_apply x0) (pay4_apply x1) x)
  · exact (congrFun (pay11_eq _ _) x).trans
      (chunk_piece 5376#32 5376 rfl (by decide) inb_S1x1x21504_S1x1x2688_0_0_5376 x0 x1 _ _ (pay3_apply x0) (pay4_apply x1) x)
  · exact (congrFun (pay10_eq _ _) x).trans
      (chunk_piece 2688#32 2688 rfl (by decide) inb_S1x1x21504_S1x1x2688_0_0_2688 x0 x1 _ _ (pay3_apply x0) (pay4_apply x1) x)
  · exact (congrFun (pay5_eq _ _) x).trans
      (chunk_piece 0#32 0 rfl (by decide) inb_S1x1x21504_S1x1x2688_0_0_0 x0 x1 _ _ (pay3_apply x0) (pay4_apply x1) x)

/-- The second output block at entity slot e: the same for the second hop's scores and the second tail words. -/
theorem out1_5_apply (x0 : Vec Ideal S1x1x512 .f32) (x1 : Vec Ideal S1x1x512 .i32) (x2 : Vec Ideal S1x1x512 .f32) (x3 : Vec Ideal S1x1x512 .i32)
    (e : Fin 21504) :
    out1_5 (F := Ideal) x0 x1 x2 x3 (ix3 (0 : Fin 1) (0 : Fin 1) e)
      = Cert.PathSpec.meanAt (fun p => x2 (ix3 (0 : Fin 1) (0 : Fin 1) p)) (fun p => x3 (ix3 (0 : Fin 1) (0 : Fin 1) p)) e.val := by
  unfold out1_5
  rw [View.ld_unit_zero hz inb_S1x1x512_S1x1x512_0_0_0 x2, View.ld_unit_zero hz inb_S1x1x512_S1x1x512_0_0_0 x3]
  refine View.canon_apply_of_pieces (Val := Elt Ideal)
    (blockMean (fun p => x2 (ix3 (0 : Fin 1) (0 : Fin 1) p)) (fun p => x3 (ix3 (0 : Fin 1) (0 : Fin 1) p))) _
    (fun q hq x => ?_) (ix3 (0 : Fin 1) (0 : Fin 1) e) (cover1_5 _ _ _ _ _ _ _ _ _)
  simp only [List.mem_cons, List.mem_nil_iff, or_false] at hq
  rcases hq with rfl | rfl | rfl | rfl | rfl | rfl | rfl | rfl
  · exact (congrFun (pay2_eq _ _) x).trans
      (chunk_piece 18816#32 18816 rfl (by decide) inb_S1x1x21504_S1x1x2688_0_0_18816 x2 x3 _ _ (pay24_apply x2) (pay25_apply x3) x)
  · exact (congrFun (pay1_eq _ _) x).trans
      (chunk_piece 16128#32 16128 rfl (by decide) inb_S1x1x21504_S1x1x2688_0_0_16128 x2 x3 _ _ (pay24_apply x2) (pay25_apply x3) x)
  · exact (congrFun (pay38_eq _ _) x).trans
      (chunk_piece 13440#32 13440 rfl (by decide) inb_S1x1x21504_S1x1x2688_0_0_13440 x2 x3 _ _ (pay24_apply x2) (pay25_apply x3) x)
  · exact (congrFun (pay37_eq _ _) x).trans
      (chunk_piece 10752#32 10752 rfl (by decide) inb_S1x1x21504_S1x1x2688_0_0_10752 x2 x3 _ _ (pay24_apply x2) (pay25_apply x3) x)
  · exact (congrFun (pay31_eq _ _) x).trans
      (chunk_piece 8064#32 8064 rfl (by decide) inb_S1x1x21504_S1x1x2688_0_0_8064 x2 x3 _ _ (pay24_apply x2) (pay25_apply x3) x)
  · exact (congrFun (pay30_eq _ _) x).trans
      (chunk_piece 5376#32 5376 rfl (by decide) inb_S1x1x21504_S1x1x2688_0_0_5376 x2 x3 _ _ (pay24_apply x2) (pay25_apply x3) x)
  · exact (congrFun (pay28_eq _ _) x).trans
      (chunk_piece 2688#32 2688 rfl (by decide) inb_S1x1x21504_S1x1x2688_0_0_2688 x2 x3 _ _ (pay24_apply x2) (pay25_apply x3) x)
  · exact (congrFun (pay27_eq _ _) x).trans
      (chunk_piece 0#32 0 rfl (by decide) inb_S1x1x21504_S1x1x2688_0_0_0 x2 x3 _ _ (pay24_apply x2) (pay25_apply x3) x)

end Cert.KernelIdeal.MeanBody

end
-- ==== Proof.Region1Array.lean ====
/-
  The second kernel's two output arrays, whole.

  Point t of the grid is question t.  Its blocks of the two score arrays and of the two tail-word arrays are row t of
  those arrays (1 × 1 × 512 of 128 × 1 × 512: the block index is (t, 0, 0)), and it writes back the 1 × 1 × 21504 block
  (t, 0, 0) of each output, whose value at entity slot e is `meanAt` of the block's scores and tail words at e.
  Let `meanArr sc tl` be the 128 × 1 × 21504 array whose entry (b, 0, e) is the mean, over the paths of question b
  whose tail word is e, of the scores in row b of `sc`.  What point t writes back is block t of that one array, and the
  128 blocks tile the output (index (b, 0, e) lies in block b), so after the region each output array is `meanArr` of
  its hop's scores and tail words as the region found them.
-/
import proofs.«404836_j17403207483556_2_alg».proof.Proof.Gen.KernelIdeal.Frame
import proofs.«404836_j17403207483556_2_alg».proof.Proof.Spec
import proofs.«404836_j17403207483556_2_alg».proof.Proof.MeanBody
import Idealize.ShloMosaic.Lib.ValueIdx
import Idealize.ShloMosaic.Lib.Pipeline.Value

noncomputable section

namespace Cert.KernelIdeal.Region1Array

open Idealize.ShloMosaic Idealize.ShloMosaic.ValueIdx Idealize.ShloMosaic.TcCoe Idealize.SL.Sem Cert.KernelIdeal Cert.KernelIdeal.Gen
open Idealize.ShloMosaic.Pipeline (Dat Cfg Window)

variable (V : (c : Dev nD) → (b : Ref sig .tc) → Buf (Elt Ideal) ((c : Thread nD τ).loc b))

/-! ## The array of means -/

/-- The means of all 128 questions as one array: entry (b, ·, e) is the mean of row b of the scores over the paths of
    question b whose tail word is e. -/
def meanArr (sc : S128x1x512.Idx → Elt Ideal .f32) (tl : S128x1x512.Idx → Elt Ideal .i32) : S128x1x21504.Idx → Elt Ideal .f32 :=
  fun i => Cert.PathSpec.meanAt (fun p => sc (ix3 (⟨(i 0).val, (i 0).isLt⟩ : Fin 128) (0 : Fin 1) p))
    (fun p => tl (ix3 (⟨(i 0).val, (i 0).isLt⟩ : Fin 128) (0 : Fin 1) p)) (i 2).val

/-- The array of means at an index whose first coordinate is b and whose last is n. -/
theorem meanArr_apply (sc : S128x1x512.Idx → Elt Ideal .f32) (tl : S128x1x512.Idx → Elt Ideal .i32) (i : S128x1x21504.Idx)
    (b : Fin 128) (n : ℕ) (h0 : (i 0).val = b.val) (h2 : (i 2).val = n) :
    meanArr sc tl i = Cert.PathSpec.meanAt (fun p => sc (ix3 b (0 : Fin 1) p)) (fun p => tl (ix3 b (0 : Fin 1) p)) n := by
  have hb : (⟨(i 0).val, (i 0).isLt⟩ : Fin 128) = b := Fin.ext h0
  subst h2
  show Cert.PathSpec.meanAt (fun p => sc (ix3 (⟨(i 0).val, (i 0).isLt⟩ : Fin 128) (0 : Fin 1) p))
    (fun p => tl (ix3 (⟨(i 0).val, (i 0).isLt⟩ : Fin 128) (0 : Fin 1) p)) (i 2).val = _
  rw [hb]

/-! ## The grid and the windows' block indices -/

/-- A point of the grid is one of the 128 questions. -/
theorem point_lt (t : Fin cfg1.N) : t.val < 128 := lt_of_lt_of_eq t.isLt N_1

/-- Every window's block index at point t is (t, 0, 0). -/
theorem index_facts : ∀ t : Fin cfg1.N,
    (win1_0.index t (0 : Fin 3) = t.val ∧ win1_0.index t (1 : Fin 3) = 0 ∧ win1_0.index t (2 : Fin 3) = 0)
    ∧ (win1_1.index t (0 : Fin 3) = t.val ∧ win1_1.index t (1 : Fin 3) = 0 ∧ win1_1.index t (2 : Fin 3) = 0)
    ∧ (win1_2.index t (0 : Fin 3) = t.val ∧ win1_2.index t (1 : Fin 3) = 0 ∧ win1_2.index t (2 : Fin 3) = 0)
    ∧ (win1_3.index t (0 : Fin 3) = t.val ∧ win1_3.index t (1 : Fin 3) = 0 ∧ win1_3.index t (2 : Fin 3) = 0)
    ∧ (win1_4.index t (0 : Fin 3) = t.val ∧ win1_4.index t (1 : Fin 3) = 0 ∧ win1_4.index t (2 : Fin 3) = 0)
    ∧ (win1_5.index t (0 : Fin 3) = t.val ∧ win1_5.index t (1 : Fin 3) = 0 ∧ win1_5.index t (2 : Fin 3) = 0) :=
  (by decide +kernel : ∀ t : Fin grid1.N, _)

/-! ## The input blocks are rows of the arrays -/

/-- The first hop's score block at point t is row t of the score array. -/
theorem iblk_0_apply (c : Dev nD) (t : Fin cfg1.N) (p : Fin 512) :
    iblk1 (F := Ideal) V c 0 t (ix3 (0 : Fin 1) (0 : Fin 1) p)
      = V c main_v9 (ix3 (⟨t.val, point_lt t⟩ : Fin 128) (0 : Fin 1) p) := by
  obtain ⟨⟨e0, e1, e2⟩, -⟩ := index_facts t
  unfold iblk1
  rw [View.read_apply]
  show V c main_v9 _ = V c main_v9 _
  congr 1
  funext a
  apply Fin.ext
  match a with
  | ⟨0, _⟩ => show win1_0.index t (0 : Fin 3) * 1 + 1 * 0 = t.val; omega
  | ⟨1, _⟩ => show win1_0.index t (1 : Fin 3) * 1 + 1 * 0 = 0; omega
  | ⟨2, _⟩ => show win1_0.index t (2 : Fin 3) * 512 + 1 * p.val = p.val; omega

/-- The first hop's tail-word block at point t is row t of the tail-word array. -/
theorem iblk_1_apply (c : Dev nD) (t : Fin cfg1.N) (p : Fin 512) :
    iblk1 (F := Ideal) V c 1 t (ix3 (0 : Fin 1) (0 : Fin 1) p)
      = V c main_v10 (ix3 (⟨t.val, point_lt t⟩ : Fin 128) (0 : Fin 1) p) := by
  obtain ⟨-, ⟨e0, e1, e2⟩, -⟩ := index_facts t
  unfold iblk1
  rw [View.read_apply]
  show V c main_v10 _ = V c main_v10 _
  congr 1
  funext a
  apply Fin.ext
  match a with
  | ⟨0, _⟩ => show win1_1.index t (0 : Fin 3) * 1 + 1 * 0 = t.val; omega
  | ⟨1, _⟩ => show win1_1.index t (1 : Fin 3) * 1 + 1 * 0 = 0; omega
  | ⟨2, _⟩ => show win1_1.index t (2 : Fin 3) * 512 + 1 * p.val = p.val; omega

/-- The second hop's score block at point t is row t of the score array. -/
theorem iblk_2_apply (c : Dev nD) (t : Fin cfg1.N) (p : Fin 512) :
    iblk1 (F := Ideal) V c 2 t (ix3 (0 : Fin 1) (0 : Fin 1) p)
      = V c main_v11 (ix3 (⟨t.val, point_lt t⟩ : Fin 128) (0 : Fin 1) p) := by
  obtain ⟨-, -, ⟨e0, e1, e2⟩, -⟩ := index_facts t
  unfold iblk1
  rw [View.read_apply]
  show V c main_v11 _ = V c main_v11 _
  congr 1
  funext a
  apply Fin.ext
  match a with
  | ⟨0, _⟩ => show win1_2.index t (0 : Fin 3) * 1 + 1 * 0 = t.val; omega
  | ⟨1, _⟩ => show win1_2.index t (1 : Fin 3) * 1 + 1 * 0 = 0; omega
  | ⟨2, _⟩ => show win1_2.index t (2 : Fin 3) * 512 + 1 * p.val = p.val; omega

/-- The second hop's tail-word block at point t is row t of the tail-word array. -/
theorem iblk_3_apply (c : Dev nD) (t : Fin cfg1.N) (p : Fin 512) :
    iblk1 (F := Ideal) V c 3 t (ix3 (0 : Fin 1) (0 : Fin 1) p)
      = V c main_v12 (ix3 (⟨t.val, point_lt t⟩ : Fin 128) (0 : Fin 1) p) := by
  obtain ⟨-, -, -, ⟨e0, e1, e2⟩, -⟩ := index_facts t
  unfold iblk1
  rw [View.read_apply]
  show V c main_v12 _ = V c main_v12 _
  congr 1
  funext a
  apply Fin.ext
  match a with
  | ⟨0, _⟩ => show win1_3.index t (0 : Fin 3) * 1 + 1 * 0 = t.val; omega
  | ⟨1, _⟩ => show win1_3.index t (1 : Fin 3) * 1 + 1 * 0 = 0; omega
  | ⟨2, _⟩ => show win1_3.index t (2 : Fin 3) * 512 + 1 * p.val = p.val; omega

/-! ## What a point writes back is its block of the array of means -/

/-- An index of a 1 × 1 × 21504 block is (0, 0, e). -/
theorem block_idx_eq (y : S1x1x21504.Idx) : y = ix3 (0 : Fin 1) (0 : Fin 1) (y 2) := by
  funext a
  match a with
  | ⟨0, _⟩ => exact Fin.ext (Nat.lt_one_iff.mp (y 0).isLt)
  | ⟨1, _⟩ => exact Fin.ext (Nat.lt_one_iff.mp (y 1).isLt)
  | ⟨2, _⟩ => rfl

/-- The body's first output block at point t, at a block index that sits at index i of the array (first coordinate t,
    last coordinate kept), is the array of means of the first hop at i. -/
theorem block4_eq (c : Dev nD) (t : Fin cfg1.N) (y : S1x1x21504.Idx) (i : S128x1x21504.Idx)
    (h0 : (i 0).val = t.val) (h2 : (i 2).val = (y 2).val) :
    out1_4 (F := Ideal) (iblk1 V c 0 t) (iblk1 V c 1 t) (iblk1 V c 2 t) (iblk1 V c 3 t) y
      = meanArr (V c main_v9) (V c main_v10) i := by
  obtain ⟨e, rfl⟩ : ∃ e : Fin 21504, y = ix3 (0 : Fin 1) (0 : Fin 1) e := ⟨y 2, block_idx_eq y⟩
  have h2' : (i 2).val = e.val := h2
  refine (Cert.KernelIdeal.MeanBody.out1_4_apply (iblk1 V c 0 t) (iblk1 V c 1 t) (iblk1 V c 2 t) (iblk1 V c 3 t) e).trans ?_
  rw [meanArr_apply (V c main_v9) (V c main_v10) i ⟨t.val, point_lt t⟩ e.val h0 h2']
  have e0 : (fun p : Fin 512 => iblk1 (F := Ideal) V c 0 t (ix3 (0 : Fin 1) (0 : Fin 1) p))
      = fun p => V c main_v9 (ix3 (⟨t.val, point_lt t⟩ : Fin 128) (0 : Fin 1) p) := funext (iblk_0_apply V c t)
  have e1 : (fun p : Fin 512 => iblk1 (F := Ideal) V c 1 t (ix3 (0 : Fin 1) (0 : Fin 1) p))
      = fun p => V c main_v10 (ix3 (⟨t.val, point_lt t⟩ : Fin 128) (0 : Fin 1) p) := funext (iblk_1_apply V c t)
  rw [e0, e1]

/-- The same for the second output block and the second hop. -/
theorem block5_eq (c : Dev nD) (t : Fin cfg1.N) (y : S1x1x21504.Idx) (i : S128x1x21504.Idx)
    (h0 : (i 0).val = t.val) (h2 : (i 2).val = (y 2).val) :
    out1_5 (F := Ideal) (iblk1 V c 0 t) (iblk1 V c 1 t) (iblk1 V c 2 t) (iblk1 V c 3 t) y
      = meanArr (V c main_v11) (V c main_v12) i := by
  obtain ⟨e, rfl⟩ : ∃ e : Fin 21504, y = ix3 (0 : Fin 1) (0 : Fin 1) e := ⟨y 2, block_idx_eq y⟩
  have h2' : (i 2).val = e.val := h2
  refine (Cert.KernelIdeal.MeanBody.out1_5_apply (iblk1 V c 0 t) (iblk1 V c 1 t) (iblk1 V c 2 t) (iblk1 V c 3 t) e).trans ?_
  rw [meanArr_apply (V c main_v11) (V c main_v12) i ⟨t.val, point_lt t⟩ e.val h0 h2']
  have e2 : (fun p : Fin 512 => iblk1 (F := Ideal) V c 2 t (ix3 (0 : Fin 1) (0 : Fin 1) p))
      = fun p => V c main_v11 (ix3 (⟨t.val, point_lt t⟩ : Fin 128) (0 : Fin 1) p) := funext (iblk_2_apply V c t)
  have e3 : (fun p : Fin 512 => iblk1 (F := Ideal) V c 3 t (ix3 (0 : Fin 1) (0 : Fin 1) p))
      = fun p => V c main_v12 (ix3 (⟨t.val, point_lt t⟩ : Fin 128) (0 : Fin 1) p) := funext (iblk_3_apply V c t)
  rw [e2, e3]

/-- What point t writes back to the first output is block t of the first hop's array of means. -/
theorem flushed4_eq (c : Dev nD) (t : Fin cfg1.N) :
    (dat1 (F := Ideal) V c).flushed 4 t
      = ((cfg1.win 4).blk t).view.read (Elt Ideal) (meanArr (V c main_v9) (V c main_v10)) := by
  obtain ⟨-, -, -, -, ⟨e0, e1, e2⟩, -⟩ := index_facts t
  show (cfg1.win 4).cut (grid1.coords t) ((dat1 (F := Ideal) V c).after 4 t) = _
  rw [after1_4]
  funext y
  show out1_4 (F := Ideal) (iblk1 V c 0 t) (iblk1 V c 1 t) (iblk1 V c 2 t) (iblk1 V c 3 t) ((cfg1.win 4).xinj (grid1.coords t) y)
    = meanArr (V c main_v9) (V c main_v10) (((cfg1.win 4).blk t).view.emb y)
  have hy0 : (y 0).val < 1 := (y 0).isLt
  refine block4_eq V c t _ _ ?_ ?_
  · show win1_4.index t (0 : Fin 3) * 1 + 1 * (y 0).val = t.val; omega
  · show win1_4.index t (2 : Fin 3) * 21504 + 1 * (y 2).val = (y 2).val; omega

/-- What point t writes back to the second output is block t of the second hop's array of means. -/
theorem flushed5_eq (c : Dev nD) (t : Fin cfg1.N) :
    (dat1 (F := Ideal) V c).flushed 5 t
      = ((cfg1.win 5).blk t).view.read (Elt Ideal) (meanArr (V c main_v11) (V c main_v12)) := by
  obtain ⟨-, -, -, -, -, e0, e1, e2⟩ := index_facts t
  show (cfg1.win 5).cut (grid1.coords t) ((dat1 (F := Ideal) V c).after 5 t) = _
  rw [after1_5]
  funext y
  show out1_5 (F := Ideal) (iblk1 V c 0 t) (iblk1 V c 1 t) (iblk1 V c 2 t) (iblk1 V c 3 t) ((cfg1.win 5).xinj (grid1.coords t) y)
    = meanArr (V c main_v11) (V c main_v12) (((cfg1.win 5).blk t).view.emb y)
  have hy0 : (y 0).val < 1 := (y 0).isLt
  refine block5_eq V c t _ _ ?_ ?_
  · show win1_5.index t (0 : Fin 3) * 1 + 1 * (y 0).val = t.val; omega
  · show win1_5.index t (2 : Fin 3) * 21504 + 1 * (y 2).val = (y 2).val; omega

/-! ## The blocks tile the outputs -/

/-- An index of the first output is in point t's block iff each coordinate is in the block's range on its axis. -/
theorem mem_blk4 (t : Fin cfg1.N) (i : S128x1x21504.Idx) :
    i ∈ ((cfg1.win 4).blk t).view.set
      ↔ ∀ a : Fin 3, win1_4.index t a * S1x1x21504.size a ≤ (i a).val ∧ (i a).val < win1_4.index t a * S1x1x21504.size a + S1x1x21504.size a := by
  show i ∈ ((View.whole main_v13_0).slice (win1_4.rect t)).set ↔ _
  rw [View.set_slice_whole, Rect.mem_set_unit]
  exact Iff.rfl

/-- The same for the second output. -/
theorem mem_blk5 (t : Fin cfg1.N) (i : S128x1x21504.Idx) :
    i ∈ ((cfg1.win 5).blk t).view.set
      ↔ ∀ a : Fin 3, win1_5.index t a * S1x1x21504.size a ≤ (i a).val ∧ (i a).val < win1_5.index t a * S1x1x21504.size a + S1x1x21504.size a := by
  show i ∈ ((View.whole main_v13_1).slice (win1_5.rect t)).set ↔ _
  rw [View.set_slice_whole, Rect.mem_set_unit]
  exact Iff.rfl

/-- Question b as a point of the grid. -/
def pointOf (b : Fin 128) : Fin cfg1.N := ⟨b.val, lt_of_lt_of_eq b.isLt N_1.symm⟩

/-- Index (b, 0, e) of the first output lies in point b's block. -/
theorem mem_block4 (b : Fin 128) (e : Fin 21504) :
    (ix3 b (0 : Fin 1) e : S128x1x21504.Idx) ∈ ((cfg1.win 4).blk (pointOf b)).view.set := by
  obtain ⟨-, -, -, -, ⟨e0, e1, e2⟩, -⟩ := index_facts (pointOf b)
  have hb : (pointOf b).val = b.val := rfl
  have he : e.val < 21504 := e.isLt
  rw [mem_blk4]
  intro a
  match a with
  | ⟨0, _⟩ => show win1_4.index (pointOf b) (0 : Fin 3) * 1 ≤ b.val ∧ b.val < win1_4.index (pointOf b) (0 : Fin 3) * 1 + 1; omega
  | ⟨1, _⟩ => show win1_4.index (pointOf b) (1 : Fin 3) * 1 ≤ 0 ∧ 0 < win1_4.index (pointOf b) (1 : Fin 3) * 1 + 1; omega
  | ⟨2, _⟩ => show win1_4.index (pointOf b) (2 : Fin 3) * 21504 ≤ e.val ∧ e.val < win1_4.index (pointOf b) (2 : Fin 3) * 21504 + 21504; omega

/-- Index (b, 0, e) of the second output lies in point b's block. -/
theorem mem_block5 (b : Fin 128) (e : Fin 21504) :
    (ix3 b (0 : Fin 1) e : S128x1x21504.Idx) ∈ ((cfg1.win 5).blk (pointOf b)).view.set := by
  obtain ⟨-, -, -, -, -, e0, e1, e2⟩ := index_facts (pointOf b)
  have hb : (pointOf b).val = b.val := rfl
  have he : e.val < 21504 := e.isLt
  rw [mem_blk5]
  intro a
  match a with
  | ⟨0, _⟩ => show win1_5.index (pointOf b) (0 : Fin 3) * 1 ≤ b.val ∧ b.val < win1_5.index (pointOf b) (0 : Fin 3) * 1 + 1; omega
  | ⟨1, _⟩ => show win1_5.index (pointOf b) (1 : Fin 3) * 1 ≤ 0 ∧ 0 < win1_5.index (pointOf b) (1 : Fin 3) * 1 + 1; omega
  | ⟨2, _⟩ => show win1_5.index (pointOf b) (2 : Fin 3) * 21504 ≤ e.val ∧ e.val < win1_5.index (pointOf b) (2 : Fin 3) * 21504 + 21504; omega

/-! ## The arrays after the region -/

/-- After the region, output array 4 (128 × 1 × 21504) at (b, 0, e), from the region's entry contents `V`: `main_v9` the first hop's
    scores and `main_v10` the first tail words, both 128 × 1 × 512. -/
theorem arr1_4_apply (c : Dev nD) (b : Fin 128) (e : Fin 21504) :
    (dat1 (F := Ideal) V c).arrAt 4 cfg1.N (ix3 b (0 : Fin 1) e)
      = Cert.PathSpec.meanAt (fun p => (V c main_v9 (ix3 b (0 : Fin 1) p) : EReal)) (fun p => (V c main_v10 (ix3 b (0 : Fin 1) p) : BitVec 32)) e.val := by
  refine ((dat1 (F := Ideal) V c).arrAt_apply_of_mem 4 (meanArr (V c main_v9) (V c main_v10)) (fun t _ => flushed4_eq V c t)
    cfg1.N (pointOf b) (ix3 b (0 : Fin 1) e) (pointOf b).isLt (flush1_4 (pointOf b)) (mem_block4 b e)).trans ?_
  exact meanArr_apply (V c main_v9) (V c main_v10) (ix3 b (0 : Fin 1) e) b e.val rfl rfl

/-- Output array 5: `main_v11` the second hop's scores and `main_v12` the second tail words. -/
theorem arr1_5_apply (c : Dev nD) (b : Fin 128) (e : Fin 21504) :
    (dat1 (F := Ideal) V c).arrAt 5 cfg1.N (ix3 b (0 : Fin 1) e)
      = Cert.PathSpec.meanAt (fun p => (V c main_v11 (ix3 b (0 : Fin 1) p) : EReal)) (fun p => (V c main_v12 (ix3 b (0 : Fin 1) p) : BitVec 32)) e.val := by
  refine ((dat1 (F := Ideal) V c).arrAt_apply_of_mem 5 (meanArr (V c main_v11) (V c main_v12)) (fun t _ => flushed5_eq V c t)
    cfg1.N (pointOf b) (ix3 b (0 : Fin 1) e) (pointOf b).isLt (flush1_5 (pointOf b)) (mem_block5 b e)).trans ?_
  exact meanArr_apply (V c main_v11) (V c main_v12) (ix3 b (0 : Fin 1) e) b e.val rfl rfl

end Cert.KernelIdeal.Region1Array

end
-- ==== Proof.HostSide.lean ====
/-
  The kernel's program outside its two kernels: what each buffer holds at the boundaries of @main.

  Before the first kernel the five index arrays and the embeddings are reshaped from 128 × n to 128 × 1 × n (the same
  entries: (b, 0, p) holds (b, p)).  Between the kernels the two score arrays are reshaped to 128 × 512 and back, and the
  two tail arrays to 128 × 1 × 512.  After the second kernel its two 128 × 1 × 21504 outputs are reshaped to 128 × 21504, cut
  to the first 20575 entity slots and combined, γ · (γ · 1 + first) + second, with the floor value where that is exactly
  zero.  Chaining the two kernels' whole-array values through these reshapes, the result array is `result` of the nine
  arguments.
-/
import proofs.«404836_j17403207483556_2_alg».proof.Proof.Gen.KernelIdeal.Frame
import proofs.«404836_j17403207483556_2_alg».proof.Proof.Spec
import proofs.«404836_j17403207483556_2_alg».proof.Proof.Region0Array
import proofs.«404836_j17403207483556_2_alg».proof.Proof.Region1Array
import Idealize.ShloMosaic.Lib.ValueIdx
import Idealize.ShloMosaic.Lib.ValueLayout
import Idealize.ShloMosaic.Lib.Pipeline.Value
import Idealize.ShloMosaic.Lib.StableHlo.Run

set_option maxRecDepth 16384

noncomputable section

namespace Cert.KernelIdeal.HostSide

open Idealize.ShloMosaic Idealize.ShloMosaic.ValueIdx Idealize.ShloMosaic.TcCoe Idealize.SL.Sem Idealize.ShloMosaic.StableHlo
open Cert.KernelIdeal Cert.KernelIdeal.Gen

variable (m : (ℓ : Loc nD τ sig) → Buf (Elt Ideal) ℓ) (ρ : Dev nD → PrngReg)

/-! ## Reshapes that add or drop a middle unit axis, read at an index -/

theorem shapeCast_ab_a1b_apply {a b : ℕ} {α : Type} (x : (⟨2, ![a, b]⟩ : Shape).Idx → α)
    (h : (⟨2, ![a, b]⟩ : Shape).ShapeCasts ⟨3, ![a, 1, b]⟩) (i : Fin a) (u : Fin 1) (j : Fin b) :
    shapeCast ⟨3, ![a, 1, b]⟩ x h (ix3 i u j) = x (ix2 i j) :=
  shapeCast_apply x h _ _ (by
    have hu : u.val = 0 := by omega
    rw [Shape.rowMajor_val_three, Shape.rowMajor_val_two]
    show i.val * b + j.val = (i.val * 1 + u.val) * b + j.val
    rw [hu, Nat.mul_one, Nat.add_zero])

theorem shapeCast_a1b_ab_apply {a b : ℕ} {α : Type} (x : (⟨3, ![a, 1, b]⟩ : Shape).Idx → α)
    (h : (⟨3, ![a, 1, b]⟩ : Shape).ShapeCasts ⟨2, ![a, b]⟩) (i : Fin a) (j : Fin b) :
    shapeCast ⟨2, ![a, b]⟩ x h (ix2 i j) = x (ix3 i (0 : Fin 1) j) :=
  shapeCast_apply x h _ _ (by
    rw [Shape.rowMajor_val_three, Shape.rowMajor_val_two]
    show (i.val * 1 + 0) * b + j.val = i.val * b + j.val
    rw [Nat.mul_one, Nat.add_zero])

/-- A constant spread over the 128 × 20575 array reads the constant everywhere. -/
theorem bcast_scalar_apply (x : FVec Ideal S_ .f32) (i : S128x20575.Idx) :
    broadcastInDim S128x20575 ![] bcast_S_S128x20575 x i = x ix0 :=
  broadcastInDim_apply _ bcast_S_S128x20575 x i ix0 (fun a => a.elim0)

/-! ## The buffers at the boundaries of @main -/

theorem V1_v0 (c : Dev nD) : V1 m ρ c main_v0 = shapeCast S128x1x512 (m ((c : Thread nD τ).loc main_arg2)) shapeCasts_S128x512_S128x1x512 := by
  show StableHlo.after hostOps0 (W0 m ρ c) (Proc.devRef .tc main_v0) = _
  after_results
  rfl
theorem V1_v1 (c : Dev nD) : V1 m ρ c main_v1 = shapeCast S128x1x512 (m ((c : Thread nD τ).loc main_arg3)) shapeCasts_S128x512_S128x1x512 := by
  show StableHlo.after hostOps0 (W0 m ρ c) (Proc.devRef .tc main_v1) = _
  after_results
  rfl
theorem V1_v2 (c : Dev nD) : V1 m ρ c main_v2 = shapeCast S128x1x512 (m ((c : Thread nD τ).loc main_arg4)) shapeCasts_S128x512_S128x1x512 := by
  show StableHlo.after hostOps0 (W0 m ρ c) (Proc.devRef .tc main_v2) = _
  after_results
  rfl
theorem V1_v3 (c : Dev nD) : V1 m ρ c main_v3 = shapeCast S128x1x512 (m ((c : Thread nD τ).loc main_arg5)) shapeCasts_S128x512_S128x1x512 := by
  show StableHlo.after hostOps0 (W0 m ρ c) (Proc.devRef .tc main_v3) = _
  after_results
  rfl
theorem V1_v4 (c : Dev nD) : V1 m ρ c main_v4 = shapeCast S128x1x512 (m ((c : Thread nD τ).loc main_arg6)) shapeCasts_S128x512_S128x1x512 := by
  show StableHlo.after hostOps0 (W0 m ρ c) (Proc.devRef .tc main_v4) = _
  after_results
  rfl
theorem V1_v5 (c : Dev nD) : V1 m ρ c main_v5 = shapeCast S128x1x200 (m ((c : Thread nD τ).loc main_arg1)) shapeCasts_S128x200_S128x1x200 := by
  show StableHlo.after hostOps0 (W0 m ρ c) (Proc.devRef .tc main_v5) = _
  after_results
  rfl
theorem V1_arg0 (c : Dev nD) : V1 m ρ c main_arg0 = m ((c : Thread nD τ).loc main_arg0) := by
  show StableHlo.after hostOps0 (W0 m ρ c) (Proc.devRef .tc main_arg0) = _
  after_results

theorem W2_v6_0 (c : Dev nD) : W2 m ρ c (Proc.devRef .tc main_v6_0) = (dat0 (V1 m ρ) c).arrAt 7 cfg0.N := W2_arr m ρ c 7
theorem W2_v6_1 (c : Dev nD) : W2 m ρ c (Proc.devRef .tc main_v6_1) = (dat0 (V1 m ρ) c).arrAt 8 cfg0.N := W2_arr m ρ c 8
theorem W2_arg7 (c : Dev nD) : W2 m ρ c (Proc.devRef .tc main_arg7) = m ((c : Thread nD τ).loc main_arg7) := by
  rw [W2_of_ne m ρ c main_arg7 (by decide)]
  show StableHlo.after hostOps0 (W0 m ρ c) (Proc.devRef .tc main_arg7) = _
  after_results
theorem W2_arg8 (c : Dev nD) : W2 m ρ c (Proc.devRef .tc main_arg8) = m ((c : Thread nD τ).loc main_arg8) := by
  rw [W2_of_ne m ρ c main_arg8 (by decide)]
  show StableHlo.after hostOps0 (W0 m ρ c) (Proc.devRef .tc main_arg8) = _
  after_results

theorem V3_v9 (c : Dev nD) : V3 m ρ c main_v9
    = shapeCast S128x1x512 (shapeCast S128x512 (W2 m ρ c (Proc.devRef .tc main_v6_0)) shapeCasts_S128x1x512_S128x512) shapeCasts_S128x512_S128x1x512 := by
  show StableHlo.after hostOps1 (W2 m ρ c) (Proc.devRef .tc main_v9) = _
  after_results
  rfl
theorem V3_v11 (c : Dev nD) : V3 m ρ c main_v11
    = shapeCast S128x1x512 (shapeCast S128x512 (W2 m ρ c (Proc.devRef .tc main_v6_1)) shapeCasts_S128x1x512_S128x512) shapeCasts_S128x512_S128x1x512 := by
  show StableHlo.after hostOps1 (W2 m ρ c) (Proc.devRef .tc main_v11) = _
  after_results
  rfl
theorem V3_v10 (c : Dev nD) : V3 m ρ c main_v10
    = shapeCast S128x1x512 (W2 m ρ c (Proc.devRef .tc main_arg7)) shapeCasts_S128x512_S128x1x512 := by
  show StableHlo.after hostOps1 (W2 m ρ c) (Proc.devRef .tc main_v10) = _
  after_results
  rfl
theorem V3_v12 (c : Dev nD) : V3 m ρ c main_v12
    = shapeCast S128x1x512 (W2 m ρ c (Proc.devRef .tc main_arg8)) shapeCasts_S128x512_S128x1x512 := by
  show StableHlo.after hostOps1 (W2 m ρ c) (Proc.devRef .tc main_v12) = _
  after_results
  rfl

theorem W4_v13_0 (c : Dev nD) : W4 m ρ c (Proc.devRef .tc main_v13_0) = (dat1 (V3 m ρ) c).arrAt 4 cfg1.N := W4_arr m ρ c 4
theorem W4_v13_1 (c : Dev nD) : W4 m ρ c (Proc.devRef .tc main_v13_1) = (dat1 (V3 m ρ) c).arrAt 5 cfg1.N := W4_arr m ρ c 5

/-- The combination before the guard, as the host computes it from the two output arrays of the second region:
    γ · (γ · 1 + first) + second, on the first 20575 entity slots of each question. -/
def pre27 (a b : Vec Ideal S128x1x21504 .f32) : FVec Ideal S128x20575 .f32 :=
  addf (mulf (broadcastInDim S128x20575 ![] bcast_S_S128x20575 (constant S_ .f32 0x3F4CCCCD#32))
      (addf (mulf (broadcastInDim S128x20575 ![] bcast_S_S128x20575 (constant S_ .f32 0x3F4CCCCD#32))
          (broadcastInDim S128x20575 ![] bcast_S_S128x20575 (constant S_ .f32 0x3F800000#32)))
        (extractStridedSlice S128x20575 ![0, 0] (shapeCast S128x21504 a shapeCasts_S128x1x21504_S128x21504) slices_S128x21504_S128x20575_0_0)))
    (extractStridedSlice S128x20575 ![0, 0] (shapeCast S128x21504 b shapeCasts_S128x1x21504_S128x21504) slices_S128x21504_S128x20575_0_0)

theorem W5_v24 (c : Dev nD) : W5 m ρ c (Proc.devRef .tc main_v24)
    = pre27 (W4 m ρ c (Proc.devRef .tc main_v13_0)) (W4 m ρ c (Proc.devRef .tc main_v13_1)) := by
  show StableHlo.after hostOps2 (W4 m ρ c) (Proc.devRef .tc main_v24) = _
  after_results_simp
  rfl
theorem W5_v26 (c : Dev nD) : W5 m ρ c (Proc.devRef .tc main_v26)
    = cmpf .oeq (pre27 (W4 m ρ c (Proc.devRef .tc main_v13_0)) (W4 m ρ c (Proc.devRef .tc main_v13_1)))
        (broadcastInDim S128x20575 ![] bcast_S_S128x20575 (constant S_ .f32 0x00000000#32)) := by
  show StableHlo.after hostOps2 (W4 m ρ c) (Proc.devRef .tc main_v26) = _
  after_results_simp
  rfl
theorem W5_cst_3 (c : Dev nD) : W5 m ρ c (Proc.devRef .tc main_cst_3) = constant (F := Ideal) S_ .f32 0xC7C34F80#32 := by
  show StableHlo.after hostOps2 (W4 m ρ c) (Proc.devRef .tc main_cst_3) = _
  after_results_simp
theorem W6_v27 (c : Dev nD) : W6 m ρ c (Proc.devRef .tc main_v27)
    = select (W5 m ρ c (Proc.devRef .tc main_v26))
        (broadcastInDim S128x20575 ![] bcast_S_S128x20575 (W5 m ρ c (Proc.devRef .tc main_cst_3)))
        (W5 m ρ c (Proc.devRef .tc main_v24)) := by
  show StableHlo.after hostOps2_1 (W5 m ρ c) (Proc.devRef .tc main_v27) = _
  after_results_simp
  try simp only [TRef.ofBuf, TRef.toBuf, cast_eq]
  try rfl

/-- The combination before the guard at question b, entity e: from the two arrays at (b, 0, e). -/
theorem pre27_apply (a b' : Vec Ideal S128x1x21504 .f32) (b : Fin 128) (e : Fin 20575) :
    pre27 a b' (ix2 b e)
      = Ideal.ofBits .f32 0x3F4CCCCD#32 * (Ideal.ofBits .f32 0x3F4CCCCD#32 * Ideal.ofBits .f32 0x3F800000#32
          + a (ix3 b (0 : Fin 1) ⟨e.val, by omega⟩)) + b' (ix3 b (0 : Fin 1) ⟨e.val, by omega⟩) := by
  have hs : ∀ x : Vec Ideal S128x1x21504 .f32,
      extractStridedSlice S128x20575 ![0, 0] (shapeCast S128x21504 x shapeCasts_S128x1x21504_S128x21504) slices_S128x21504_S128x20575_0_0 (ix2 b e)
        = x (ix3 b (0 : Fin 1) ⟨e.val, by omega⟩) := fun x => by
    refine (extractStridedSlice_apply _ _ _ _ (ix2 b ⟨e.val, by omega⟩) (fun a => ?_)).trans (shapeCast_a1b_ab_apply x _ b ⟨e.val, by omega⟩)
    match a with
    | ⟨0, _⟩ => show b.val = 0 + b.val; omega
    | ⟨1, _⟩ => show e.val = 0 + e.val; omega
  unfold pre27
  show (broadcastInDim S128x20575 ![] bcast_S_S128x20575 (constant S_ .f32 0x3F4CCCCD#32) (ix2 b e))
      * ((broadcastInDim S128x20575 ![] bcast_S_S128x20575 (constant S_ .f32 0x3F4CCCCD#32) (ix2 b e))
          * (broadcastInDim S128x20575 ![] bcast_S_S128x20575 (constant S_ .f32 0x3F800000#32) (ix2 b e)) + _) + _ = _
  rw [bcast_scalar_apply, bcast_scalar_apply, hs a, hs b']
  rfl

/-- The result buffer at question b, entity e, over the second region's two output arrays. -/
theorem W6_v27_apply (c : Dev nD) (b : Fin 128) (e : Fin 20575) :
    W6 m ρ c (Proc.devRef .tc main_v27) (ix2 b e)
      = Scalar.select (Ideal.cmp .oeq
            (Ideal.ofBits .f32 0x3F4CCCCD#32 * (Ideal.ofBits .f32 0x3F4CCCCD#32 * Ideal.ofBits .f32 0x3F800000#32
              + W4 m ρ c (Proc.devRef .tc main_v13_0) (ix3 b (0 : Fin 1) ⟨e.val, by omega⟩))
              + W4 m ρ c (Proc.devRef .tc main_v13_1) (ix3 b (0 : Fin 1) ⟨e.val, by omega⟩))
            (Ideal.ofBits .f32 0x00000000#32))
          (Ideal.ofBits .f32 0xC7C34F80#32)
          (Ideal.ofBits .f32 0x3F4CCCCD#32 * (Ideal.ofBits .f32 0x3F4CCCCD#32 * Ideal.ofBits .f32 0x3F800000#32
              + W4 m ρ c (Proc.devRef .tc main_v13_0) (ix3 b (0 : Fin 1) ⟨e.val, by omega⟩))
              + W4 m ρ c (Proc.devRef .tc main_v13_1) (ix3 b (0 : Fin 1) ⟨e.val, by omega⟩)) := by
  rw [W6_v27, W5_v26, W5_v24, W5_cst_3]
  show Scalar.select (Ideal.cmp .oeq (pre27 _ _ (ix2 b e)) (broadcastInDim S128x20575 ![] bcast_S_S128x20575 (constant (F := Ideal) S_ .f32 0x00000000#32) (ix2 b e)))
      (broadcastInDim S128x20575 ![] bcast_S_S128x20575 (constant (F := Ideal) S_ .f32 0xC7C34F80#32) (ix2 b e)) (pre27 _ _ (ix2 b e)) = _
  rw [pre27_apply, bcast_scalar_apply, bcast_scalar_apply]
  rfl

/-! ## From the boundaries back to the arguments -/

theorem V1_v0_apply (c : Dev nD) (b : Fin 128) (p : Fin 512) :
    V1 m ρ c main_v0 (ix3 b (0 : Fin 1) p) = m ((c : Thread nD τ).loc main_arg2) (ix2 b p) :=
  (congrFun (V1_v0 m ρ c) _).trans (shapeCast_ab_a1b_apply _ _ b 0 p)
theorem V1_v1_apply (c : Dev nD) (b : Fin 128) (p : Fin 512) :
    V1 m ρ c main_v1 (ix3 b (0 : Fin 1) p) = m ((c : Thread nD τ).loc main_arg3) (ix2 b p) :=
  (congrFun (V1_v1 m ρ c) _).trans (shapeCast_ab_a1b_apply _ _ b 0 p)
theorem V1_v2_apply (c : Dev nD) (b : Fin 128) (p : Fin 512) :
    V1 m ρ c main_v2 (ix3 b (0 : Fin 1) p) = m ((c : Thread nD τ).loc main_arg4) (ix2 b p) :=
  (congrFun (V1_v2 m ρ c) _).trans (shapeCast_ab_a1b_apply _ _ b 0 p)
theorem V1_v3_apply (c : Dev nD) (b : Fin 128) (p : Fin 512) :
    V1 m ρ c main_v3 (ix3 b (0 : Fin 1) p) = m ((c : Thread nD τ).loc main_arg5) (ix2 b p) :=
  (congrFun (V1_v3 m ρ c) _).trans (shapeCast_ab_a1b_apply _ _ b 0 p)
theorem V1_v4_apply (c : Dev nD) (b : Fin 128) (p : Fin 512) :
    V1 m ρ c main_v4 (ix3 b (0 : Fin 1) p) = m ((c : Thread nD τ).loc main_arg6) (ix2 b p) :=
  (congrFun (V1_v4 m ρ c) _).trans (shapeCast_ab_a1b_apply _ _ b 0 p)
theorem V1_v5_apply (c : Dev nD) (b : Fin 128) (d : Fin 200) :
    V1 m ρ c main_v5 (ix3 b (0 : Fin 1) d) = m ((c : Thread nD τ).loc main_arg1) (ix2 b d) :=
  (congrFun (V1_v5 m ρ c) _).trans (shapeCast_ab_a1b_apply _ _ b 0 d)

/-- What the second region finds as the first hop's scores: `pathScore` of the arguments. -/
theorem score1_at (c : Dev nD) (b : Fin 128) (p : Fin 512) :
    V3 m ρ c main_v9 (ix3 b (0 : Fin 1) p)
      = Cert.PathSpec.pathScore (m ((c : Thread nD τ).loc main_arg0)) (m ((c : Thread nD τ).loc main_arg1))
          (m ((c : Thread nD τ).loc main_arg2)) (m ((c : Thread nD τ).loc main_arg3)) (m ((c : Thread nD τ).loc main_arg4)) b p := by
  rw [V3_v9, shapeCast_shapeCast, W2_v6_0, Cert.KernelIdeal.Region0Array.arr0_7_apply (V1 m ρ) c b p,
    V1_arg0, V1_v0_apply, V1_v1_apply, V1_v2_apply]
  unfold Cert.PathSpec.pathScore
  congr 1
  funext d
  exact V1_v5_apply m ρ c b d

/-- The second hop's scores likewise. -/
theorem score2_at (c : Dev nD) (b : Fin 128) (p : Fin 512) :
    V3 m ρ c main_v11 (ix3 b (0 : Fin 1) p)
      = Cert.PathSpec.pathScore (m ((c : Thread nD τ).loc main_arg0)) (m ((c : Thread nD τ).loc main_arg1))
          (m ((c : Thread nD τ).loc main_arg4)) (m ((c : Thread nD τ).loc main_arg5)) (m ((c : Thread nD τ).loc main_arg6)) b p := by
  rw [V3_v11, shapeCast_shapeCast, W2_v6_1, Cert.KernelIdeal.Region0Array.arr0_8_apply (V1 m ρ) c b p,
    V1_arg0, V1_v2_apply, V1_v3_apply, V1_v4_apply]
  unfold Cert.PathSpec.pathScore
  congr 1
  funext d
  exact V1_v5_apply m ρ c b d

theorem tail1_at (c : Dev nD) (b : Fin 128) (p : Fin 512) :
    V3 m ρ c main_v10 (ix3 b (0 : Fin 1) p) = m ((c : Thread nD τ).loc main_arg7) (ix2 b p) := by
  rw [V3_v10, W2_arg7]
  exact shapeCast_ab_a1b_apply _ _ b 0 p
theorem tail2_at (c : Dev nD) (b : Fin 128) (p : Fin 512) :
    V3 m ρ c main_v12 (ix3 b (0 : Fin 1) p) = m ((c : Thread nD τ).loc main_arg8) (ix2 b p) := by
  rw [V3_v12, W2_arg8]
  exact shapeCast_ab_a1b_apply _ _ b 0 p

/-- The second region's first output array at (b, 0, e): the first hop's mean over question b's paths ending at e. -/
theorem mean1_at (c : Dev nD) (b : Fin 128) (e : Fin 21504) :
    W4 m ρ c (Proc.devRef .tc main_v13_0) (ix3 b (0 : Fin 1) e)
      = Cert.PathSpec.meanAt (fun p => Cert.PathSpec.pathScore (m ((c : Thread nD τ).loc main_arg0)) (m ((c : Thread nD τ).loc main_arg1))
            (m ((c : Thread nD τ).loc main_arg2)) (m ((c : Thread nD τ).loc main_arg3)) (m ((c : Thread nD τ).loc main_arg4)) b p)
          (fun p => m ((c : Thread nD τ).loc main_arg7) (ix2 b p)) e.val := by
  rw [W4_v13_0, Cert.KernelIdeal.Region1Array.arr1_4_apply (V3 m ρ) c b e,
    funext fun p => score1_at m ρ c b p, funext fun p => tail1_at m ρ c b p]

theorem mean2_at (c : Dev nD) (b : Fin 128) (e : Fin 21504) :
    W4 m ρ c (Proc.devRef .tc main_v13_1) (ix3 b (0 : Fin 1) e)
      = Cert.PathSpec.meanAt (fun p => Cert.PathSpec.pathScore (m ((c : Thread nD τ).loc main_arg0)) (m ((c : Thread nD τ).loc main_arg1))
            (m ((c : Thread nD τ).loc main_arg4)) (m ((c : Thread nD τ).loc main_arg5)) (m ((c : Thread nD τ).loc main_arg6)) b p)
          (fun p => m ((c : Thread nD τ).loc main_arg8) (ix2 b p)) e.val := by
  rw [W4_v13_1, Cert.KernelIdeal.Region1Array.arr1_5_apply (V3 m ρ) c b e,
    funext fun p => score2_at m ρ c b p, funext fun p => tail2_at m ρ c b p]

/-- THE RESULT ARRAY of the kernel's program: `result` of the nine arguments. -/
theorem result_eq (c : Dev nD) :
    W6 m ρ c (Proc.devRef .tc main_v27)
      = Cert.PathSpec.result (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) (m ((c : Thread nD τ).loc main_arg6)) (m ((c : Thread nD τ).loc main_arg7))
          (m ((c : Thread nD τ).loc main_arg8)) := by
  funext i
  obtain ⟨b, e, rfl⟩ : ∃ (b : Fin 128) (e : Fin 20575), i = ix2 b e := ⟨i 0, i 1, eq_ix2 i⟩
  rw [W6_v27_apply, mean1_at, mean2_at]
  rfl

end Cert.KernelIdeal.HostSide

end
-- ==== Proof.RefScore.lean ====
/-
  The reference's path scores.

  The reference reads the table by a row gather at each index word (a negative word first moved up by 21000, the
  start then clamped into the table): for a word below 21000 that is the table's row at the word, `rowAt`.  The
  three gathered rows of a path and the question's embedding are cut into halves, multiplied and summed over the
  100 coordinates exactly as `score` groups them.

  The steps.  (1) The gather read at an index: the operand has two axes, the first collapsed and started at the
  index word (read signed, clamped into [0, 20999]), the second carried whole to the result's last axis, so element
  (b, p, d) of the result is the table at (clamped word of (b, p), d).  (2) A word below 21000 is non-negative as a
  signed number, so the select keeps it, its signed reading is its value and the clamp leaves it: the gathered row
  is `rowAt` at the word.  (3) The slices [0:100] and [100:200] of a gathered row and of the broadcast embedding are
  the halves `lo` and `hi`.  (4) The elementwise products and differences are `scoreTerm` on those halves, and the
  sum over the last axis started from zero is `score`.  The second hop's operations are the first hop's applied to
  the other three index arrays, term for term.
-/
import proofs.«404836_j17403207483556_2_alg».proof.Proof.RefRead
import proofs.«404836_j17403207483556_2_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefScore

open Idealize.ShloMosaic Idealize.ShloMosaic.ValueIdx Idealize.SL.Sem Cert.ReferenceIdeal Cert.ReferenceIdeal.Read

/-! ## The row gather read at an index -/

/-- On the table's first axis (collapsed, in the start index map) the operand index is the start word of (b, p),
    read signed and clamped into [0, 20999]: no batching and no offset coordinate there. -/
theorem row_axis0 {w : Nat} (idx : IVec S128x512x1 w) (b : Fin 128) (p : Fin 512) (d : Fin 200) :
    (gather_S21000x200_S128x512x1_S128x512x200_2_0_n_n_0_2_1200.operandIdx (ix3 b p d) idx 0).val
      = min (idx (ix3 b p (0 : Fin 1))).toInt.toNat 20999 := by
  show gather_S21000x200_S128x512x1_S128x512x200_2_0_n_n_0_2_1200.start (ix3 b p d) idx 0
      + gather_S21000x200_S128x512x1_S128x512x200_2_0_n_n_0_2_1200.batchCoord (ix3 b p d) 0
      + gather_S21000x200_S128x512x1_S128x512x200_2_0_n_n_0_2_1200.offCoord (ix3 b p d) 0 = _
  rw [GatherDims.batchCoord_eq_zero gather_S21000x200_S128x512x1_S128x512x200_2_0_n_n_0_2_1200 (ix3 b p d) 0 List.not_mem_nil,
    GatherDims.offCoord_eq_zero gather_S21000x200_S128x512x1_S128x512x200_2_0_n_n_0_2_1200 (ix3 b p d) 0
      (fun h => ((GatherDims.mem_sKept gather_S21000x200_S128x512x1_S128x512x200_2_0_n_n_0_2_1200 0).mp h).1 (List.mem_singleton.mpr rfl))]
  simp only [Nat.add_zero]
  unfold GatherDims.start
  rw [dif_pos (show (0 : Fin S21000x200.rank) ∈ gather_S21000x200_S128x512x1_S128x512x200_2_0_n_n_0_2_1200.startIndexMap from List.mem_singleton.mpr rfl)]
  have hsi : gather_S21000x200_S128x512x1_S128x512x200_2_0_n_n_0_2_1200.siIdx (ix3 b p d)
      ⟨List.idxOf (0 : Fin S21000x200.rank) gather_S21000x200_S128x512x1_S128x512x200_2_0_n_n_0_2_1200.startIndexMap,
        List.idxOf_lt_length_iff.2 (List.mem_singleton.mpr rfl)⟩ = ix3 b p (0 : Fin 1) := by
    funext c; refine Fin.ext ?_
    match c with
    | ⟨0, _⟩ => rfl
    | ⟨1, _⟩ => rfl
    | ⟨2, _⟩ => rfl
  rw [hsi]
  rfl

/-- On the table's second axis (kept whole: slice size 200, not in the start index map) the operand index is the
    result's coordinate on its offset axis. -/
theorem row_axis1 {w : Nat} (idx : IVec S128x512x1 w) (b : Fin 128) (p : Fin 512) (d : Fin 200) :
    (gather_S21000x200_S128x512x1_S128x512x200_2_0_n_n_0_2_1200.operandIdx (ix3 b p d) idx 1).val = d.val := by
  show gather_S21000x200_S128x512x1_S128x512x200_2_0_n_n_0_2_1200.start (ix3 b p d) idx 1
      + gather_S21000x200_S128x512x1_S128x512x200_2_0_n_n_0_2_1200.batchCoord (ix3 b p d) 1
      + gather_S21000x200_S128x512x1_S128x512x200_2_0_n_n_0_2_1200.offCoord (ix3 b p d) 1 = _
  rw [GatherDims.batchCoord_eq_zero gather_S21000x200_S128x512x1_S128x512x200_2_0_n_n_0_2_1200 (ix3 b p d) 1 List.not_mem_nil]
  unfold GatherDims.start
  rw [dif_neg (show ¬ (1 : Fin S21000x200.rank) ∈ gather_S21000x200_S128x512x1_S128x512x200_2_0_n_n_0_2_1200.startIndexMap from
    fun h => absurd (List.mem_singleton.mp h) (by decide))]
  unfold GatherDims.offCoord
  rw [dif_pos (show (1 : Fin S21000x200.rank) ∈ gather_S21000x200_S128x512x1_S128x512x200_2_0_n_n_0_2_1200.sKept from
    (GatherDims.mem_sKept gather_S21000x200_S128x512x1_S128x512x200_2_0_n_n_0_2_1200 1).mpr
      ⟨fun h => absurd (List.mem_singleton.mp h) (by decide), List.not_mem_nil⟩)]
  simp only [Nat.add_zero, Nat.zero_add]
  rfl

/-- THE ROW GATHER AT (b, p, d): the table at the row the start word of (b, p) names, read signed and clamped into
    [0, 20999], and at column d. -/
theorem gather_row_apply {α : Type} {w : Nat} (x : S21000x200.Idx → α) (idx : IVec S128x512x1 w)
    (b : Fin 128) (p : Fin 512) (d : Fin 200) :
    Host.gather gather_S21000x200_S128x512x1_S128x512x200_2_0_n_n_0_2_1200 x idx (ix3 b p d)
      = x (ix2 (⟨min (idx (ix3 b p (0 : Fin 1))).toInt.toNat 20999, by omega⟩ : Fin 21000) d) := by
  show x (gather_S21000x200_S128x512x1_S128x512x200_2_0_n_n_0_2_1200.operandIdx (ix3 b p d) idx) = _
  refine congrArg x (funext fun a => Fin.ext ?_)
  match a with
  | ⟨0, _⟩ => exact row_axis0 idx b p d
  | ⟨1, _⟩ => exact row_axis1 idx b p d

/-! ## The index word -/

/-- A word below 21000 is not negative as a signed number, so "add 21000 where negative" keeps it. -/
theorem word_select {w : BitVec 32} (h : w.toNat < 21000) :
    Scalar.select (IntOp.cmpi .slt w 0#32) (IntOp.addi w 21000#32) w = w := by
  have hne : ¬ IntOp.cmpi .slt w 0#32 = 1#1 := fun hc =>
    Nat.not_lt_zero _ ((StableHlo.Predicate.slt_iff_toNat (a := w) (b := 0#32) (by omega) (by decide)).mp hc)
  exact if_neg hne

/-- The start indices at (b, p, 0) are the index word of (b, p) when it is below 21000. -/
theorem start_word (x : (⟨S128x512, .i32⟩ : BufTy).Contents (Elt Ideal)) (h : ∀ i, (x i).toNat < 21000) (b : Fin 128) (p : Fin 512) :
    val_main_v5 (F := Ideal) x (ix3 b p (0 : Fin 1)) = x (ix2 b p) := by
  have e : idx_main_v5 (ix3 b p (0 : Fin 1)) = ix2 b p :=
    funext fun a => Fin.ext (by match a with | ⟨0, _⟩ => rfl | ⟨1, _⟩ => rfl)
  rw [val_main_v5_apply, e, val_main_v4_apply, val_main_v1_apply, val_main_v3_apply, val_main_v0_apply, val_main_v2_apply,
    val_main_c_apply, val_main_c_0_apply]
  exact word_select (h _)

/-- The gathered row of (b, p) is the table's row at the index word. -/
theorem row_read (x0 : (⟨S21000x200, .f32⟩ : BufTy).Contents (Elt Ideal)) (x : (⟨S128x512, .i32⟩ : BufTy).Contents (Elt Ideal)) (h : ∀ i, (x i).toNat < 21000) (b : Fin 128) (p : Fin 512) (d : Fin 200) :
    val_main_v6 (F := Ideal) x0 x (ix3 b p d) = Cert.PathSpec.rowAt x0 (x (ix2 b p)).toNat d := by
  have hw : (val_main_v5 (F := Ideal) x (ix3 b p (0 : Fin 1))).toInt.toNat = (x (ix2 b p)).toNat := by
    rw [start_word x h b p]
    have h0 := h (ix2 b p)
    have h1 := StableHlo.Predicate.toInt_eq_toNat_of_lt (a := x (ix2 b p)) (by omega)
    omega
  rw [Cert.PathSpec.rowAt_of_lt x0 (h (ix2 b p)) d]
  show Host.gather gather_S21000x200_S128x512x1_S128x512x200_2_0_n_n_0_2_1200 x0 (val_main_v5 (F := Ideal) x) (ix3 b p d) = _
  rw [gather_row_apply]
  refine congrArg (fun r : Fin 21000 => x0 (ix2 r d)) (Fin.ext ?_)
  show min (val_main_v5 (F := Ideal) x (ix3 b p (0 : Fin 1))).toInt.toNat 20999 = (x (ix2 b p)).toNat
  rw [hw]
  have h0 := h (ix2 b p)
  omega

/-! ## The halves -/

/-- The slice [0:100] of a gathered row is its lower half. -/
theorem lo_read (x0 : (⟨S21000x200, .f32⟩ : BufTy).Contents (Elt Ideal)) (x : (⟨S128x512, .i32⟩ : BufTy).Contents (Elt Ideal)) (h : ∀ i, (x i).toNat < 21000) (b : Fin 128) (p : Fin 512) (k : Fin 100) :
    val_main_v36 (F := Ideal) x0 x (ix3 b p k) = Cert.PathSpec.lo (Cert.PathSpec.rowAt x0 (x (ix2 b p)).toNat) k := by
  have e : idx_main_v36 (ix3 b p k) = ix3 b p (⟨k.val, by have := k.isLt; omega⟩ : Fin 200) :=
    funext fun a => Fin.ext (by match a with | ⟨0, _⟩ => rfl | ⟨1, _⟩ => rfl | ⟨2, _⟩ => rfl)
  rw [val_main_v36_apply, e, row_read x0 x h]
  rfl

/-- The slice [100:200] of a gathered row is its upper half. -/
theorem hi_read (x0 : (⟨S21000x200, .f32⟩ : BufTy).Contents (Elt Ideal)) (x : (⟨S128x512, .i32⟩ : BufTy).Contents (Elt Ideal)) (h : ∀ i, (x i).toNat < 21000) (b : Fin 128) (p : Fin 512) (k : Fin 100) :
    val_main_v37 (F := Ideal) x0 x (ix3 b p k) = Cert.PathSpec.hi (Cert.PathSpec.rowAt x0 (x (ix2 b p)).toNat) k := by
  have e : idx_main_v37 (ix3 b p k) = ix3 b p (⟨k.val + 100, by have := k.isLt; omega⟩ : Fin 200) :=
    funext fun a => Fin.ext (by
      match a with
      | ⟨0, _⟩ => rfl
      | ⟨1, _⟩ => rfl
      | ⟨2, _⟩ => exact Nat.add_comm 100 k.val)
  rw [val_main_v37_apply, e, row_read x0 x h]
  rfl

/-- The same halves for the other gathers of the first hop: each gather is the same function of the table and its
    index array. -/
theorem lo_read38 (x0 : (⟨S21000x200, .f32⟩ : BufTy).Contents (Elt Ideal)) (x : (⟨S128x512, .i32⟩ : BufTy).Contents (Elt Ideal)) (h : ∀ i, (x i).toNat < 21000) (b : Fin 128) (p : Fin 512) (k : Fin 100) :
    val_main_v38 (F := Ideal) x0 x (ix3 b p k) = Cert.PathSpec.lo (Cert.PathSpec.rowAt x0 (x (ix2 b p)).toNat) k := lo_read x0 x h b p k
theorem hi_read39 (x0 : (⟨S21000x200, .f32⟩ : BufTy).Contents (Elt Ideal)) (x : (⟨S128x512, .i32⟩ : BufTy).Contents (Elt Ideal)) (h : ∀ i, (x i).toNat < 21000) (b : Fin 128) (p : Fin 512) (k : Fin 100) :
    val_main_v39 (F := Ideal) x0 x (ix3 b p k) = Cert.PathSpec.hi (Cert.PathSpec.rowAt x0 (x (ix2 b p)).toNat) k := hi_read x0 x h b p k
theorem lo_read40 (x0 : (⟨S21000x200, .f32⟩ : BufTy).Contents (Elt Ideal)) (x : (⟨S128x512, .i32⟩ : BufTy).Contents (Elt Ideal)) (h : ∀ i, (x i).toNat < 21000) (b : Fin 128) (p : Fin 512) (k : Fin 100) :
    val_main_v40 (F := Ideal) x0 x (ix3 b p k) = Cert.PathSpec.lo (Cert.PathSpec.rowAt x0 (x (ix2 b p)).toNat) k := lo_read x0 x h b p k
theorem hi_read41 (x0 : (⟨S21000x200, .f32⟩ : BufTy).Contents (Elt Ideal)) (x : (⟨S128x512, .i32⟩ : BufTy).Contents (Elt Ideal)) (h : ∀ i, (x i).toNat < 21000) (b : Fin 128) (p : Fin 512) (k : Fin 100) :
    val_main_v41 (F := Ideal) x0 x (ix3 b p k) = Cert.PathSpec.hi (Cert.PathSpec.rowAt x0 (x (ix2 b p)).toNat) k := hi_read x0 x h b p k

/-- The lower half of the question's embedding, broadcast over the paths. -/
theorem lo_q (x1 : (⟨S128x200, .f32⟩ : BufTy).Contents (Elt Ideal)) (b : Fin 128) (p : Fin 512) (k : Fin 100) :
    val_main_v45 (F := Ideal) x1 (ix3 b p k) = Cert.PathSpec.lo (fun d => x1 (ix2 b d)) k := by
  rw [val_main_v45_apply, val_main_v42_apply, val_main_v35_apply]
  show x1 _ = x1 (ix2 b (⟨k.val, by have := k.isLt; omega⟩ : Fin 200))
  exact congrArg x1 (funext fun a => Fin.ext (by match a with | ⟨0, _⟩ => rfl | ⟨1, _⟩ => rfl))

/-- The upper half of the question's embedding, broadcast over the paths. -/
theorem hi_q (x1 : (⟨S128x200, .f32⟩ : BufTy).Contents (Elt Ideal)) (b : Fin 128) (p : Fin 512) (k : Fin 100) :
    val_main_v52 (F := Ideal) x1 (ix3 b p k) = Cert.PathSpec.hi (fun d => x1 (ix2 b d)) k := by
  rw [val_main_v52_apply, val_main_v43_apply, val_main_v35_apply]
  show x1 _ = x1 (ix2 b (⟨k.val + 100, by have := k.isLt; omega⟩ : Fin 200))
  exact congrArg x1 (funext fun a => Fin.ext (by
    match a with
    | ⟨0, _⟩ => rfl
    | ⟨1, _⟩ => exact Nat.add_comm 100 k.val))

/-- The program broadcasts each half of the embedding once per product; every copy is the same function. -/
theorem lo_q48 (x1 : (⟨S128x200, .f32⟩ : BufTy).Contents (Elt Ideal)) (b : Fin 128) (p : Fin 512) (k : Fin 100) :
    val_main_v48 (F := Ideal) x1 (ix3 b p k) = Cert.PathSpec.lo (fun d => x1 (ix2 b d)) k := lo_q x1 b p k
theorem lo_q60 (x1 : (⟨S128x200, .f32⟩ : BufTy).Contents (Elt Ideal)) (b : Fin 128) (p : Fin 512) (k : Fin 100) :
    val_main_v60 (F := Ideal) x1 (ix3 b p k) = Cert.PathSpec.lo (fun d => x1 (ix2 b d)) k := lo_q x1 b p k
theorem lo_q63 (x1 : (⟨S128x200, .f32⟩ : BufTy).Contents (Elt Ideal)) (b : Fin 128) (p : Fin 512) (k : Fin 100) :
    val_main_v63 (F := Ideal) x1 (ix3 b p k) = Cert.PathSpec.lo (fun d => x1 (ix2 b d)) k := lo_q x1 b p k
theorem hi_q56 (x1 : (⟨S128x200, .f32⟩ : BufTy).Contents (Elt Ideal)) (b : Fin 128) (p : Fin 512) (k : Fin 100) :
    val_main_v56 (F := Ideal) x1 (ix3 b p k) = Cert.PathSpec.hi (fun d => x1 (ix2 b d)) k := hi_q x1 b p k
theorem hi_q67 (x1 : (⟨S128x200, .f32⟩ : BufTy).Contents (Elt Ideal)) (b : Fin 128) (p : Fin 512) (k : Fin 100) :
    val_main_v67 (F := Ideal) x1 (ix3 b p k) = Cert.PathSpec.hi (fun d => x1 (ix2 b d)) k := hi_q x1 b p k
theorem hi_q71 (x1 : (⟨S128x200, .f32⟩ : BufTy).Contents (Elt Ideal)) (b : Fin 128) (p : Fin 512) (k : Fin 100) :
    val_main_v71 (F := Ideal) x1 (ix3 b p k) = Cert.PathSpec.hi (fun d => x1 (ix2 b d)) k := hi_q x1 b p k

/-! ## The products -/

/-- The part multiplied by the entity's lower half: l₀r₀q₀ − l₁r₁q₀ − l₁r₀q₁ − l₀r₁q₁. -/
theorem im_read (x0 : (⟨S21000x200, .f32⟩ : BufTy).Contents (Elt Ideal)) (x1 : (⟨S128x200, .f32⟩ : BufTy).Contents (Elt Ideal)) (x2 x3 : (⟨S128x512, .i32⟩ : BufTy).Contents (Elt Ideal))
    (h2 : ∀ i, (x2 i).toNat < 21000) (h3 : ∀ i, (x3 i).toNat < 21000) (b : Fin 128) (p : Fin 512) (k : Fin 100) :
    val_main_v58 (F := Ideal) x0 x1 x2 x3 (ix3 b p k)
      = Cert.PathSpec.lo (Cert.PathSpec.rowAt x0 (x2 (ix2 b p)).toNat) k * Cert.PathSpec.lo (Cert.PathSpec.rowAt x0 (x3 (ix2 b p)).toNat) k * Cert.PathSpec.lo (fun d => x1 (ix2 b d)) k
        - Cert.PathSpec.hi (Cert.PathSpec.rowAt x0 (x2 (ix2 b p)).toNat) k * Cert.PathSpec.hi (Cert.PathSpec.rowAt x0 (x3 (ix2 b p)).toNat) k * Cert.PathSpec.lo (fun d => x1 (ix2 b d)) k
        - Cert.PathSpec.hi (Cert.PathSpec.rowAt x0 (x2 (ix2 b p)).toNat) k * Cert.PathSpec.lo (Cert.PathSpec.rowAt x0 (x3 (ix2 b p)).toNat) k * Cert.PathSpec.hi (fun d => x1 (ix2 b d)) k
        - Cert.PathSpec.lo (Cert.PathSpec.rowAt x0 (x2 (ix2 b p)).toNat) k * Cert.PathSpec.hi (Cert.PathSpec.rowAt x0 (x3 (ix2 b p)).toNat) k * Cert.PathSpec.hi (fun d => x1 (ix2 b d)) k := by
  rw [val_main_v58_apply, val_main_v54_apply, val_main_v50_apply, val_main_v46_apply, val_main_v44_apply, val_main_v49_apply,
    val_main_v47_apply, val_main_v53_apply, val_main_v51_apply, val_main_v57_apply, val_main_v55_apply]
  rw [lo_read x0 x2 h2 b p k, hi_read x0 x2 h2 b p k, lo_read38 x0 x3 h3 b p k, hi_read39 x0 x3 h3 b p k,
    lo_q x1 b p k, lo_q48 x1 b p k, hi_q x1 b p k, hi_q56 x1 b p k]
  rfl

/-- The part multiplied by the entity's upper half: l₁r₀q₀ + l₀r₁q₀ + l₀r₀q₁ − l₁r₁q₁. -/
theorem re_read (x0 : (⟨S21000x200, .f32⟩ : BufTy).Contents (Elt Ideal)) (x1 : (⟨S128x200, .f32⟩ : BufTy).Contents (Elt Ideal)) (x2 x3 : (⟨S128x512, .i32⟩ : BufTy).Contents (Elt Ideal))
    (h2 : ∀ i, (x2 i).toNat < 21000) (h3 : ∀ i, (x3 i).toNat < 21000) (b : Fin 128) (p : Fin 512) (k : Fin 100) :
    val_main_v73 (F := Ideal) x0 x1 x2 x3 (ix3 b p k)
      = Cert.PathSpec.hi (Cert.PathSpec.rowAt x0 (x2 (ix2 b p)).toNat) k * Cert.PathSpec.lo (Cert.PathSpec.rowAt x0 (x3 (ix2 b p)).toNat) k * Cert.PathSpec.lo (fun d => x1 (ix2 b d)) k
        + Cert.PathSpec.lo (Cert.PathSpec.rowAt x0 (x2 (ix2 b p)).toNat) k * Cert.PathSpec.hi (Cert.PathSpec.rowAt x0 (x3 (ix2 b p)).toNat) k * Cert.PathSpec.lo (fun d => x1 (ix2 b d)) k
        + Cert.PathSpec.lo (Cert.PathSpec.rowAt x0 (x2 (ix2 b p)).toNat) k * Cert.PathSpec.lo (Cert.PathSpec.rowAt x0 (x3 (ix2 b p)).toNat) k * Cert.PathSpec.hi (fun d => x1 (ix2 b d)) k
        - Cert.PathSpec.hi (Cert.PathSpec.rowAt x0 (x2 (ix2 b p)).toNat) k * Cert.PathSpec.hi (Cert.PathSpec.rowAt x0 (x3 (ix2 b p)).toNat) k * Cert.PathSpec.hi (fun d => x1 (ix2 b d)) k := by
  rw [val_main_v73_apply, val_main_v69_apply, val_main_v65_apply, val_main_v61_apply, val_main_v59_apply, val_main_v64_apply,
    val_main_v62_apply, val_main_v68_apply, val_main_v66_apply, val_main_v72_apply, val_main_v70_apply]
  rw [lo_read x0 x2 h2 b p k, hi_read x0 x2 h2 b p k, lo_read38 x0 x3 h3 b p k, hi_read39 x0 x3 h3 b p k,
    lo_q60 x1 b p k, lo_q63 x1 b p k, hi_q67 x1 b p k, hi_q71 x1 b p k]
  rfl

/-- One coordinate of the score is `scoreTerm` of the halves. -/
theorem term_read (x0 : (⟨S21000x200, .f32⟩ : BufTy).Contents (Elt Ideal)) (x1 : (⟨S128x200, .f32⟩ : BufTy).Contents (Elt Ideal)) (x2 x3 x4 : (⟨S128x512, .i32⟩ : BufTy).Contents (Elt Ideal))
    (h2 : ∀ i, (x2 i).toNat < 21000) (h3 : ∀ i, (x3 i).toNat < 21000) (h4 : ∀ i, (x4 i).toNat < 21000)
    (b : Fin 128) (p : Fin 512) (k : Fin 100) :
    val_main_v76 (F := Ideal) x0 x1 x2 x3 x4 (ix3 b p k)
      = Cert.PathSpec.scoreTerm (Cert.PathSpec.lo (Cert.PathSpec.rowAt x0 (x2 (ix2 b p)).toNat) k) (Cert.PathSpec.hi (Cert.PathSpec.rowAt x0 (x2 (ix2 b p)).toNat) k)
          (Cert.PathSpec.lo (Cert.PathSpec.rowAt x0 (x3 (ix2 b p)).toNat) k) (Cert.PathSpec.hi (Cert.PathSpec.rowAt x0 (x3 (ix2 b p)).toNat) k)
          (Cert.PathSpec.lo (Cert.PathSpec.rowAt x0 (x4 (ix2 b p)).toNat) k) (Cert.PathSpec.hi (Cert.PathSpec.rowAt x0 (x4 (ix2 b p)).toNat) k)
          (Cert.PathSpec.lo (fun d => x1 (ix2 b d)) k) (Cert.PathSpec.hi (fun d => x1 (ix2 b d)) k) := by
  rw [val_main_v76_apply, val_main_v74_apply, val_main_v75_apply, im_read x0 x1 x2 x3 h2 h3 b p k, re_read x0 x1 x2 x3 h2 h3 b p k,
    lo_read40 x0 x4 h4 b p k, hi_read41 x0 x4 h4 b p k]
  rfl

/-! ## The scores -/

/-- The first hop's score of path p of question b is `pathScore` of the subject, first relation and first entity words,
    when those words name rows of the table. -/
theorem score_one_eq (x0 : (⟨S21000x200, .f32⟩ : BufTy).Contents (Elt Ideal)) (x1 : (⟨S128x200, .f32⟩ : BufTy).Contents (Elt Ideal)) (x2 x3 x4 : (⟨S128x512, .i32⟩ : BufTy).Contents (Elt Ideal))
    (h2 : ∀ i, (x2 i).toNat < 21000) (h3 : ∀ i, (x3 i).toNat < 21000) (h4 : ∀ i, (x4 i).toNat < 21000) (b : Fin 128) (p : Fin 512) :
    val_main_v77 (F := Ideal) x0 x1 x2 x3 x4 (ix2 b p) = Cert.PathSpec.pathScore x0 x1 x2 x3 x4 b p := by
  rw [val_main_v77_apply]
  show Ideal.ofBits .f32 0x00000000#32 + _ = _
  rw [Ideal.ofBits_zero_f32, zero_add]
  unfold Cert.PathSpec.pathScore Cert.PathSpec.score
  refine Finset.sum_congr rfl fun k _ => ?_
  have e : idx_main_v77 (ix2 b p) k = ix3 b p k :=
    funext fun a => Fin.ext (by match a with | ⟨0, _⟩ => rfl | ⟨1, _⟩ => rfl | ⟨2, _⟩ => rfl)
  rw [e]
  exact term_read x0 x1 x2 x3 x4 h2 h3 h4 b p k

/-- The second hop's operations are the first hop's, applied to the first entity, second relation and second entity
    words. -/
theorem hop_two_eq {F : FTy → Type} [FloatOps F] (x0 : (⟨S21000x200, .f32⟩ : BufTy).Contents (Elt F)) (x1 : (⟨S128x200, .f32⟩ : BufTy).Contents (Elt F)) (x4 x5 x6 : (⟨S128x512, .i32⟩ : BufTy).Contents (Elt F)) :
    val_main_v142 (F := F) x0 x1 x4 x5 x6 = val_main_v77 (F := F) x0 x1 x4 x5 x6 := rfl

/-- The second hop's score: the first entity, second relation and second entity words. -/
theorem score_two_eq (x0 : (⟨S21000x200, .f32⟩ : BufTy).Contents (Elt Ideal)) (x1 : (⟨S128x200, .f32⟩ : BufTy).Contents (Elt Ideal)) (x4 x5 x6 : (⟨S128x512, .i32⟩ : BufTy).Contents (Elt Ideal))
    (h4 : ∀ i, (x4 i).toNat < 21000) (h5 : ∀ i, (x5 i).toNat < 21000) (h6 : ∀ i, (x6 i).toNat < 21000) (b : Fin 128) (p : Fin 512) :
    val_main_v142 (F := Ideal) x0 x1 x4 x5 x6 (ix2 b p) = Cert.PathSpec.pathScore x0 x1 x4 x5 x6 b p :=
  (congrFun (hop_two_eq x0 x1 x4 x5 x6) (ix2 b p)).trans (score_one_eq x0 x1 x4 x5 x6 h4 h5 h6 b p)

end Cert.ReferenceIdeal.RefScore

end
-- ==== Proof.RefMean.lean ====
/-
  The reference's mean per tail entity.

  The reference numbers the (question, entity) pairs b · 20575 + e and the (question, path) pairs b · 512 + p.  Path
  (b', p) carries the slot word b' · 20575 + w in 32-bit arithmetic, w its tail word; one scatter adds each path's score
  into the slot its word names and a second one adds a one per path, both from zero.

  * The scatter has one index component and no window: update j lands at slot i exactly when the word of j, read
    signed, is i (`resultIdx_iff`, from the general `resultIdx?_eq_some_iff`).
  * For b' < 128 and w < 20575 the word b' · 20575 + w does not wrap and is non-negative read signed, since it is below
    2633600 < 2³¹ (`slot_toInt`); and b' · 20575 + w = b · 20575 + e with w, e < 20575 forces b' = b and w = e
    (`hit_iff`).
  * So the sum over the 65536 updates, re-indexed over (b', p) (`sum_paths`), keeps only question b's paths whose tail
    word is e: slot (b, e) of the first scatter is `sumAt` of question b's scores and tails, slot (b, e) of the second is
    `cntAt` (`scatter_slot`, `sum_slot`, `cnt_slot`; the float words 0x00000000 and 0x3F800000 are 0 and 1).
  * The comparison with zero, the maximum with one, the quotient and the select are `meanAt`'s, term by term.

  Both hops have this form; the general lemmas are stated once over an arbitrary score array and tail array.
-/
import proofs.«404836_j17403207483556_2_alg».proof.Proof.RefRead
import proofs.«404836_j17403207483556_2_alg».proof.Proof.Spec
import Idealize.ShloMosaic.Lib.ValueIdx
import Idealize.ShloMosaic.Lib.Pipeline.Value
import Idealize.ShloMosaic.PureOps.Ideal.Laws
import Idealize.ShloMosaic.Lib.StableHlo.Predicate

noncomputable section

namespace Cert.ReferenceIdeal.RefMean

open Idealize.ShloMosaic Idealize.ShloMosaic.ValueIdx Idealize.SL.Sem Cert.ReferenceIdeal Cert.ReferenceIdeal.Read

/-! ## The scatter's result index -/

/-- An update lands at `i` exactly when, on every axis, its start plus its window coordinate is `i`'s coordinate. -/
private theorem resultIdx?_eq_some_iff {s si u : Shape} (d : ScatterDims s si u) {w : ℕ} (j : u.Idx) (idx : IVec si w)
    (i : s.Idx) :
    d.resultIdx? j idx = some i ↔ ∀ a, d.start j idx a + (d.window j a : ℤ) = ((i a).val : ℤ) := by
  unfold ScatterDims.resultIdx?
  split
  next hr =>
    constructor
    · intro h a
      have h1 : (d.start j idx a + (d.window j a : ℤ)).toNat = (i a).val :=
        congrArg (fun f : s.Idx => (f a).val) (Option.some.inj h)
      have h2 := (hr a).1
      omega
    · intro h
      refine congrArg some (funext fun a => Fin.ext ?_)
      show (d.start j idx a + (d.window j a : ℤ)).toNat = (i a).val
      rw [h a]; exact Int.toNat_natCast _
  next hr =>
    constructor
    · intro h; cases h
    · intro h
      exact absurd (fun a => by have h1 := (i a).isLt; rw [h a]; omega) hr

/-- The start of update `j` on the one operand axis is the word at `(j, 0)`, read signed. -/
private theorem start_eq (idx : IVec S65536x1 32) (j : Fin 65536) (a : Fin S2633600.rank) :
    scatter_S2633600_S65536x1_S65536_n_0_0_1.start (ix1 j) idx a = (idx (ix2 j (0 : Fin 1))).toInt := by
  obtain rfl : a = 0 := Subsingleton.elim _ _
  unfold ScatterDims.start
  rw [dif_pos (show (0 : Fin S2633600.rank) ∈ scatter_S2633600_S65536x1_S65536_n_0_0_1.scatterDimsToOperandDims from
    List.mem_singleton.mpr rfl)]
  refine congrArg (fun k => (idx k).toInt) ?_
  funext c; refine Fin.ext ?_
  match c with
  | ⟨0, _⟩ => rfl
  | ⟨1, _⟩ => rfl

/-- There is no window axis: the window coordinate is zero. -/
private theorem window_eq (j : S65536.Idx) (a : Fin S2633600.rank) :
    scatter_S2633600_S65536x1_S65536_n_0_0_1.window j a = 0 := by
  obtain rfl : a = 0 := Subsingleton.elim _ _
  unfold ScatterDims.window
  exact dif_neg (by decide)

/-- Update `j` lands at slot `i` exactly when its word, read signed, is `i`. -/
private theorem resultIdx_iff (idx : IVec S65536x1 32) (j : Fin 65536) (i : Fin 2633600) :
    scatter_S2633600_S65536x1_S65536_n_0_0_1.resultIdx? (ix1 j) idx = some (ix1 i)
      ↔ (idx (ix2 j (0 : Fin 1))).toInt = (i.val : ℤ) := by
  rw [resultIdx?_eq_some_iff]
  constructor
  · intro h
    have h0 := h 0
    rw [start_eq, window_eq] at h0
    have h1 : (idx (ix2 j (0 : Fin 1))).toInt + ((0 : ℕ) : ℤ) = (i.val : ℤ) := h0
    omega
  · intro h a
    obtain rfl : a = 0 := Subsingleton.elim _ _
    rw [start_eq, window_eq]
    show (idx (ix2 j (0 : Fin 1))).toInt + ((0 : ℕ) : ℤ) = (i.val : ℤ)
    omega

/-! ## The two flat numberings and the slot word -/

/-- Path `p` of question `b` in the flat numbering of the 65536 paths. -/
private def pathIx (b : Fin 128) (p : Fin 512) : Fin 65536 :=
  ⟨b.val * 512 + p.val, by have := b.isLt; have := p.isLt; omega⟩

/-- Entity `e` of question `b` in the flat numbering of the 2633600 slots. -/
private def slotIx (b : Fin 128) (e : Fin 20575) : Fin 2633600 :=
  ⟨b.val * 20575 + e.val, by have := b.isLt; have := e.isLt; omega⟩

/-- The slot word of question `b'` and a tail word `w` below 20575, read signed, is `b' · 20575 + w`: the product and
    the sum stay below 2633600, so nothing wraps and the sign bit is clear. -/
private theorem slot_toInt (b' : Fin 128) (w : BitVec 32) (hw : w.toNat < 20575) :
    (IntOp.addi (IntOp.muli (BitVec.ofNat 32 b'.val) 20575#32) w).toInt = ((b'.val * 20575 + w.toNat : ℕ) : ℤ) := by
  have hb := b'.isLt
  have e1 : (BitVec.ofNat 32 b'.val).toNat = b'.val := by
    rw [BitVec.toNat_ofNat]; exact Nat.mod_eq_of_lt (by omega)
  have e2 : (20575#32 : BitVec 32).toNat = 20575 := by decide
  have e3 : (BitVec.ofNat 32 b'.val * 20575#32).toNat = b'.val * 20575 := by
    rw [BitVec.toNat_mul, e1, e2]; exact Nat.mod_eq_of_lt (by omega)
  have hn : (IntOp.addi (IntOp.muli (BitVec.ofNat 32 b'.val) 20575#32) w).toNat = b'.val * 20575 + w.toNat := by
    show (BitVec.ofNat 32 b'.val * 20575#32 + w).toNat = _
    rw [BitVec.toNat_add, e3]; exact Nat.mod_eq_of_lt (by omega)
  rw [StableHlo.Predicate.toInt_eq_toNat_of_lt (by rw [hn]; omega), hn]

/-- The 65536 paths are the pairs (question, path of the question). -/
private def pathEquiv : Fin 128 × Fin 512 ≃ S65536.Idx where
  toFun x := ix1 (pathIx x.1 x.2)
  invFun j := (⟨(j 0).val / 512, by have h0 : (j 0).val < 65536 := (j 0).isLt; omega⟩,
    ⟨(j 0).val % 512, by omega⟩)
  left_inv x := by
    obtain ⟨b, p⟩ := x
    have hb := b.isLt; have hp := p.isLt
    refine Prod.ext (Fin.ext ?_) (Fin.ext ?_)
    · show (b.val * 512 + p.val) / 512 = b.val; omega
    · show (b.val * 512 + p.val) % 512 = p.val; omega
  right_inv j := by
    funext a
    obtain rfl : a = 0 := Subsingleton.elim _ _
    refine Fin.ext ?_
    show (j 0).val / 512 * 512 + (j 0).val % 512 = (j 0).val
    omega

/-- A sum over the 65536 paths is the double sum over the questions and their paths. -/
private theorem sum_paths (f : S65536.Idx → EReal) :
    ∑ j, f j = ∑ b : Fin 128, ∑ p : Fin 512, f (ix1 (pathIx b p)) := by
  rw [← Equiv.sum_comp pathEquiv f, Fintype.sum_prod_type]
  rfl

/-! ## One slot of a scatter-add over the paths -/

section Slot

variable (slots : IVec S65536x1 32) (tl : S128x512.Idx → BitVec 32)
  (htl : ∀ i, (tl i).toNat < 20575)
  (hs : ∀ (b' : Fin 128) (p : Fin 512), slots (ix2 (pathIx b' p) (0 : Fin 1))
    = IntOp.addi (IntOp.muli (BitVec.ofNat 32 b'.val) 20575#32) (tl (ix2 b' p)))

include htl hs in
/-- Path `(b', p)` lands at slot `(b, e)` exactly when it is a path of question `b` whose tail word is `e`: both
    remainders modulo 20575 are below 20575. -/
private theorem hit_iff (b b' : Fin 128) (p : Fin 512) (e : Fin 20575) :
    scatter_S2633600_S65536x1_S65536_n_0_0_1.resultIdx? (ix1 (pathIx b' p)) slots = some (ix1 (slotIx b e))
      ↔ b' = b ∧ (tl (ix2 b' p)).toNat = e.val := by
  rw [resultIdx_iff, hs, slot_toInt b' _ (htl _)]
  have h1 := htl (ix2 b' p); have h2 := b.isLt; have h3 := b'.isLt; have h4 := e.isLt
  show ((b'.val * 20575 + (tl (ix2 b' p)).toNat : ℕ) : ℤ) = ((b.val * 20575 + e.val : ℕ) : ℤ) ↔ _
  constructor
  · intro h
    have h' : b'.val * 20575 + (tl (ix2 b' p)).toNat = b.val * 20575 + e.val := by exact_mod_cast h
    exact ⟨Fin.ext (by omega), by omega⟩
  · rintro ⟨rfl, h⟩; rw [h]

include htl hs in
/-- Slot `(b, e)` of the scatter-add: the operand there plus the updates of question `b`'s paths whose tail word is `e`. -/
private theorem scatter_slot (x : S2633600.Idx → EReal) (upd : S65536.Idx → EReal) (sc : S128x512.Idx → EReal)
    (hu : ∀ (b' : Fin 128) (p : Fin 512), upd (ix1 (pathIx b' p)) = sc (ix2 b' p)) (b : Fin 128) (e : Fin 20575) :
    Ideal.hostScatterAdd scatter_S2633600_S65536x1_S65536_n_0_0_1 x slots upd (ix1 (slotIx b e))
      = x (ix1 (slotIx b e)) + ∑ p : Fin 512, Cert.PathSpec.oneAt (tl (ix2 b p)) e.val * sc (ix2 b p) := by
  unfold Ideal.hostScatterAdd
  refine congrArg (x (ix1 (slotIx b e)) + ·) ?_
  rw [Finset.sum_filter, sum_paths, Finset.sum_eq_single b]
  · refine Finset.sum_congr rfl fun p _ => ?_
    unfold Cert.PathSpec.oneAt
    by_cases hw : (tl (ix2 b p)).toNat = e.val
    · rw [if_pos ((hit_iff slots tl htl hs b b p e).mpr ⟨rfl, hw⟩), if_pos hw, one_mul, hu]
    · rw [if_neg (fun h => hw ((hit_iff slots tl htl hs b b p e).mp h).2), if_neg hw, zero_mul]
  · intro b' _ hb'
    exact Finset.sum_eq_zero fun p _ => if_neg (fun h => hb' ((hit_iff slots tl htl hs b b' p e).mp h).1)
  · intro h; exact absurd (Finset.mem_univ b) h

/-- The float word 0x3F800000 is one. -/
private theorem one_f32 : Ideal.ofBits .f32 0x3F800000#32 = 1 := by
  simp [Ideal.ofBits, Ideal.ieee, -EReal.coe_mul]; norm_num

include htl hs in
/-- From zeros, slot `(b, e)` of the scatter-add of the scores is `sumAt` of question `b`'s scores and tail words. -/
private theorem sum_slot (x : S2633600.Idx → EReal) (hx : ∀ i, x i = Ideal.ofBits .f32 0x00000000#32)
    (upd : S65536.Idx → EReal) (sc : S128x512.Idx → EReal)
    (hu : ∀ (b' : Fin 128) (p : Fin 512), upd (ix1 (pathIx b' p)) = sc (ix2 b' p)) (b : Fin 128) (e : Fin 20575) :
    Ideal.hostScatterAdd scatter_S2633600_S65536x1_S65536_n_0_0_1 x slots upd (ix1 (slotIx b e))
      = Cert.PathSpec.sumAt (fun p => sc (ix2 b p)) (fun p => tl (ix2 b p)) e.val := by
  rw [scatter_slot slots tl htl hs x upd sc hu b e, hx, Ideal.ofBits_zero_f32, zero_add]
  rfl

include htl hs in
/-- From zeros, slot `(b, e)` of the scatter-add of a one per path is `cntAt` of question `b`'s tail words. -/
private theorem cnt_slot (x : S2633600.Idx → EReal) (hx : ∀ i, x i = Ideal.ofBits .f32 0x00000000#32)
    (upd : S65536.Idx → EReal) (hu : ∀ j, upd j = Ideal.ofBits .f32 0x3F800000#32) (b : Fin 128) (e : Fin 20575) :
    Ideal.hostScatterAdd scatter_S2633600_S65536x1_S65536_n_0_0_1 x slots upd (ix1 (slotIx b e))
      = Cert.PathSpec.cntAt (fun p => tl (ix2 b p)) e.val := by
  rw [scatter_slot slots tl htl hs x upd (fun _ => 1) (fun b' p => by rw [hu, one_f32]) b e, hx,
    Ideal.ofBits_zero_f32, zero_add]
  unfold Cert.PathSpec.cntAt
  exact Finset.sum_congr rfl fun p _ => mul_one _

end Slot

/-! ## The first hop -/

/-- The slot word of path `(b', p)`: the question's number times 20575 plus the path's tail word. -/
private theorem word_one (x7 : (⟨S128x512, .i32⟩ : BufTy).Contents (Elt Ideal)) (b' : Fin 128) (p : Fin 512) :
    val_main_v84 (F := Ideal) x7 (ix1 (pathIx b' p))
      = IntOp.addi (IntOp.muli (BitVec.ofNat 32 b'.val) 20575#32) (x7 (ix2 b' p)) := by
  have hb := b'.isLt; have hp := p.isLt
  have hi : idx_main_v84 (ix1 (pathIx b' p)) = ix2 b' p := by
    funext a; refine Fin.ext ?_
    match a with
    | ⟨0, _⟩ =>
      show (b'.val * 512 + p.val) / 512 = b'.val
      omega
    | ⟨1, _⟩ =>
      show (b'.val * 512 + p.val) % 512 = p.val
      omega
  rw [val_main_v84_apply, hi, val_main_v83_apply, val_main_v82_apply, val_main_v81_apply, val_main_v79_apply,
    val_main_v78_apply, val_main_v80_apply, val_main_c_9_apply]

/-- The scatter indices of the scores' scatter at `(j, 0)` are the slot words. -/
private theorem slotsS_one (x7 : (⟨S128x512, .i32⟩ : BufTy).Contents (Elt Ideal)) (b' : Fin 128) (p : Fin 512) :
    val_main_v87 (F := Ideal) x7 (ix2 (pathIx b' p) (0 : Fin 1))
      = IntOp.addi (IntOp.muli (BitVec.ofNat 32 b'.val) 20575#32) (x7 (ix2 b' p)) := by
  have hi : idx_main_v87 (ix2 (pathIx b' p) (0 : Fin 1)) = ix1 (pathIx b' p) := by
    funext a; match a with | ⟨0, _⟩ => rfl
  rw [val_main_v87_apply, hi, word_one]

/-- The scatter indices of the counts' scatter at `(j, 0)` are the slot words. -/
private theorem slotsC_one (x7 : (⟨S128x512, .i32⟩ : BufTy).Contents (Elt Ideal)) (b' : Fin 128) (p : Fin 512) :
    val_main_v92 (F := Ideal) x7 (ix2 (pathIx b' p) (0 : Fin 1))
      = IntOp.addi (IntOp.muli (BitVec.ofNat 32 b'.val) 20575#32) (x7 (ix2 b' p)) := by
  have hi : idx_main_v92 (ix2 (pathIx b' p) (0 : Fin 1)) = ix1 (pathIx b' p) := by
    funext a; match a with | ⟨0, _⟩ => rfl
  rw [val_main_v92_apply, hi, word_one]

/-- The flat scores at path `(b', p)`. -/
private theorem upd_one (x0 : (⟨S21000x200, .f32⟩ : BufTy).Contents (Elt Ideal)) (x1 : (⟨S128x200, .f32⟩ : BufTy).Contents (Elt Ideal)) (x2 x3 x4 : (⟨S128x512, .i32⟩ : BufTy).Contents (Elt Ideal)) (b' : Fin 128) (p : Fin 512) :
    val_main_v85 (F := Ideal) x0 x1 x2 x3 x4 (ix1 (pathIx b' p)) = val_main_v77 (F := Ideal) x0 x1 x2 x3 x4 (ix2 b' p) := by
  have hb := b'.isLt; have hp := p.isLt
  have hi : idx_main_v85 (ix1 (pathIx b' p)) = ix2 b' p := by
    funext a; refine Fin.ext ?_
    match a with
    | ⟨0, _⟩ =>
      show (b'.val * 512 + p.val) / 512 = b'.val
      omega
    | ⟨1, _⟩ =>
      show (b'.val * 512 + p.val) % 512 = p.val
      omega
  rw [val_main_v85_apply, hi]

/-- Slot `(b, e)` of the first hop's sums is `sumAt` of question `b`'s first-hop scores and first tail words. -/
private theorem sums_one (x0 : (⟨S21000x200, .f32⟩ : BufTy).Contents (Elt Ideal)) (x1 : (⟨S128x200, .f32⟩ : BufTy).Contents (Elt Ideal)) (x2 x3 x4 x7 : (⟨S128x512, .i32⟩ : BufTy).Contents (Elt Ideal))
    (hx7 : ∀ i, (x7 i).toNat < 20575) (b : Fin 128) (e : Fin 20575) :
    val_main_v89 (F := Ideal) x0 x1 x2 x3 x4 x7 (ix2 b e)
      = Cert.PathSpec.sumAt (fun p => val_main_v77 (F := Ideal) x0 x1 x2 x3 x4 (ix2 b p)) (fun p => x7 (ix2 b p)) e.val := by
  have hi : idx_main_v89 (ix2 b e) = ix1 (slotIx b e) := by
    funext a; match a with | ⟨0, _⟩ => rfl
  rw [val_main_v89_apply, hi]
  unfold val_main_v88 Host.scatterAdd
  rw [Ideal.hostScatterAdd_def]
  exact sum_slot (val_main_v87 (F := Ideal) x7) x7 hx7 (slotsS_one x7) (val_main_v86 (F := Ideal))
    (fun i => by rw [val_main_v86_apply]; rfl) (val_main_v85 (F := Ideal) x0 x1 x2 x3 x4) (val_main_v77 (F := Ideal) x0 x1 x2 x3 x4)
    (upd_one x0 x1 x2 x3 x4) b e

/-- Slot `(b, e)` of the first hop's counts is `cntAt` of question `b`'s first tail words. -/
private theorem cnts_one (x7 : (⟨S128x512, .i32⟩ : BufTy).Contents (Elt Ideal)) (hx7 : ∀ i, (x7 i).toNat < 20575) (b : Fin 128) (e : Fin 20575) :
    val_main_v94 (F := Ideal) x7 (ix2 b e) = Cert.PathSpec.cntAt (fun p => x7 (ix2 b p)) e.val := by
  have hi : idx_main_v94 (ix2 b e) = ix1 (slotIx b e) := by
    funext a; match a with | ⟨0, _⟩ => rfl
  rw [val_main_v94_apply, hi]
  unfold val_main_v93 Host.scatterAdd
  rw [Ideal.hostScatterAdd_def]
  exact cnt_slot (val_main_v92 (F := Ideal) x7) x7 hx7 (slotsC_one x7) (val_main_v91 (F := Ideal))
    (fun i => by rw [val_main_v91_apply]; rfl) (val_main_v90 (F := Ideal)) (fun j => by rw [val_main_v90_apply]; rfl) b e

/-- The first hop's mean at question b, entity e, from the first hop's scores and the first tail words. -/
theorem mean_one_eq (x0 : (⟨S21000x200, .f32⟩ : BufTy).Contents (Elt Ideal)) (x1 : (⟨S128x200, .f32⟩ : BufTy).Contents (Elt Ideal)) (x2 x3 x4 x7 : (⟨S128x512, .i32⟩ : BufTy).Contents (Elt Ideal))
    (h7 : ∀ i, (x7 i).toNat < 20575) (b : Fin 128) (e : Fin 20575) :
    val_main_v100 (F := Ideal) x0 x1 x2 x3 x4 x7 (ix2 b e)
      = Cert.PathSpec.meanAt (fun p => val_main_v77 (F := Ideal) x0 x1 x2 x3 x4 (ix2 b p)) (fun p => x7 (ix2 b p)) e.val := by
  rw [val_main_v100_apply, val_main_v96_apply, val_main_v99_apply, val_main_v98_apply, cnts_one x7 h7 b e,
    sums_one x0 x1 x2 x3 x4 x7 h7 b e, val_main_v95_apply, val_main_cst_13_apply, val_main_v97_apply, val_main_cst_14_apply,
    val_main_call0_v1_apply, val_main_call0_v0_apply, val_main_cst_15_apply]
  rfl

/-! ## The second hop -/

/-- The slot word of path `(b', p)`: the question's number times 20575 plus the path's tail word. -/
private theorem word_two (x8 : (⟨S128x512, .i32⟩ : BufTy).Contents (Elt Ideal)) (b' : Fin 128) (p : Fin 512) :
    val_main_v149 (F := Ideal) x8 (ix1 (pathIx b' p))
      = IntOp.addi (IntOp.muli (BitVec.ofNat 32 b'.val) 20575#32) (x8 (ix2 b' p)) := by
  have hb := b'.isLt; have hp := p.isLt
  have hi : idx_main_v149 (ix1 (pathIx b' p)) = ix2 b' p := by
    funext a; refine Fin.ext ?_
    match a with
    | ⟨0, _⟩ =>
      show (b'.val * 512 + p.val) / 512 = b'.val
      omega
    | ⟨1, _⟩ =>
      show (b'.val * 512 + p.val) % 512 = p.val
      omega
  rw [val_main_v149_apply, hi, val_main_v148_apply, val_main_v147_apply, val_main_v146_apply, val_main_v144_apply,
    val_main_v143_apply, val_main_v145_apply, val_main_c_17_apply]

/-- The scatter indices of the scores' scatter at `(j, 0)` are the slot words. -/
private theorem slotsS_two (x8 : (⟨S128x512, .i32⟩ : BufTy).Contents (Elt Ideal)) (b' : Fin 128) (p : Fin 512) :
    val_main_v152 (F := Ideal) x8 (ix2 (pathIx b' p) (0 : Fin 1))
      = IntOp.addi (IntOp.muli (BitVec.ofNat 32 b'.val) 20575#32) (x8 (ix2 b' p)) := by
  have hi : idx_main_v152 (ix2 (pathIx b' p) (0 : Fin 1)) = ix1 (pathIx b' p) := by
    funext a; match a with | ⟨0, _⟩ => rfl
  rw [val_main_v152_apply, hi, word_two]

/-- The scatter indices of the counts' scatter at `(j, 0)` are the slot words. -/
private theorem slotsC_two (x8 : (⟨S128x512, .i32⟩ : BufTy).Contents (Elt Ideal)) (b' : Fin 128) (p : Fin 512) :
    val_main_v157 (F := Ideal) x8 (ix2 (pathIx b' p) (0 : Fin 1))
      = IntOp.addi (IntOp.muli (BitVec.ofNat 32 b'.val) 20575#32) (x8 (ix2 b' p)) := by
  have hi : idx_main_v157 (ix2 (pathIx b' p) (0 : Fin 1)) = ix1 (pathIx b' p) := by
    funext a; match a with | ⟨0, _⟩ => rfl
  rw [val_main_v157_apply, hi, word_two]

/-- The flat scores at path `(b', p)`. -/
private theorem upd_two (x0 : (⟨S21000x200, .f32⟩ : BufTy).Contents (Elt Ideal)) (x1 : (⟨S128x200, .f32⟩ : BufTy).Contents (Elt Ideal)) (x4 x5 x6 : (⟨S128x512, .i32⟩ : BufTy).Contents (Elt Ideal)) (b' : Fin 128) (p : Fin 512) :
    val_main_v150 (F := Ideal) x0 x1 x4 x5 x6 (ix1 (pathIx b' p)) = val_main_v142 (F := Ideal) x0 x1 x4 x5 x6 (ix2 b' p) := by
  have hb := b'.isLt; have hp := p.isLt
  have hi : idx_main_v150 (ix1 (pathIx b' p)) = ix2 b' p := by
    funext a; refine Fin.ext ?_
    match a with
    | ⟨0, _⟩ =>
      show (b'.val * 512 + p.val) / 512 = b'.val
      omega
    | ⟨1, _⟩ =>
      show (b'.val * 512 + p.val) % 512 = p.val
      omega
  rw [val_main_v150_apply, hi]

/-- Slot `(b, e)` of the second hop's sums is `sumAt` of question `b`'s second-hop scores and second tail words. -/
private theorem sums_two (x0 : (⟨S21000x200, .f32⟩ : BufTy).Contents (Elt Ideal)) (x1 : (⟨S128x200, .f32⟩ : BufTy).Contents (Elt Ideal)) (x4 x5 x6 x8 : (⟨S128x512, .i32⟩ : BufTy).Contents (Elt Ideal))
    (hx8 : ∀ i, (x8 i).toNat < 20575) (b : Fin 128) (e : Fin 20575) :
    val_main_v154 (F := Ideal) x0 x1 x4 x5 x6 x8 (ix2 b e)
      = Cert.PathSpec.sumAt (fun p => val_main_v142 (F := Ideal) x0 x1 x4 x5 x6 (ix2 b p)) (fun p => x8 (ix2 b p)) e.val := by
  have hi : idx_main_v154 (ix2 b e) = ix1 (slotIx b e) := by
    funext a; match a with | ⟨0, _⟩ => rfl
  rw [val_main_v154_apply, hi]
  unfold val_main_v153 Host.scatterAdd
  rw [Ideal.hostScatterAdd_def]
  exact sum_slot (val_main_v152 (F := Ideal) x8) x8 hx8 (slotsS_two x8) (val_main_v151 (F := Ideal))
    (fun i => by rw [val_main_v151_apply]; rfl) (val_main_v150 (F := Ideal) x0 x1 x4 x5 x6) (val_main_v142 (F := Ideal) x0 x1 x4 x5 x6)
    (upd_two x0 x1 x4 x5 x6) b e

/-- Slot `(b, e)` of the second hop's counts is `cntAt` of question `b`'s second tail words. -/
private theorem cnts_two (x8 : (⟨S128x512, .i32⟩ : BufTy).Contents (Elt Ideal)) (hx8 : ∀ i, (x8 i).toNat < 20575) (b : Fin 128) (e : Fin 20575) :
    val_main_v159 (F := Ideal) x8 (ix2 b e) = Cert.PathSpec.cntAt (fun p => x8 (ix2 b p)) e.val := by
  have hi : idx_main_v159 (ix2 b e) = ix1 (slotIx b e) := by
    funext a; match a with | ⟨0, _⟩ => rfl
  rw [val_main_v159_apply, hi]
  unfold val_main_v158 Host.scatterAdd
  rw [Ideal.hostScatterAdd_def]
  exact cnt_slot (val_main_v157 (F := Ideal) x8) x8 hx8 (slotsC_two x8) (val_main_v156 (F := Ideal))
    (fun i => by rw [val_main_v156_apply]; rfl) (val_main_v155 (F := Ideal)) (fun j => by rw [val_main_v155_apply]; rfl) b e

/-- The second hop's mean, from the second hop's scores and the second tail words. -/
theorem mean_two_eq (x0 : (⟨S21000x200, .f32⟩ : BufTy).Contents (Elt Ideal)) (x1 : (⟨S128x200, .f32⟩ : BufTy).Contents (Elt Ideal)) (x4 x5 x6 x8 : (⟨S128x512, .i32⟩ : BufTy).Contents (Elt Ideal))
    (h8 : ∀ i, (x8 i).toNat < 20575) (b : Fin 128) (e : Fin 20575) :
    val_main_v165 (F := Ideal) x0 x1 x4 x5 x6 x8 (ix2 b e)
      = Cert.PathSpec.meanAt (fun p => val_main_v142 (F := Ideal) x0 x1 x4 x5 x6 (ix2 b p)) (fun p => x8 (ix2 b p)) e.val := by
  rw [val_main_v165_apply, val_main_v161_apply, val_main_v164_apply, val_main_v163_apply, cnts_two x8 h8 b e,
    sums_two x0 x1 x4 x5 x6 x8 h8 b e, val_main_v160_apply, val_main_cst_21_apply, val_main_v162_apply, val_main_cst_22_apply,
    val_main_call1_v1_apply, val_main_call1_v0_apply, val_main_cst_23_apply]
  rfl

end Cert.ReferenceIdeal.RefMean

end
-- ==== Proof.RefResult.lean ====
/-
  The reference's result, whole.

  After its two scatter-add means the reference combines them entity by entity, γ · (γ · 1 + first) + second, and puts the
  floor value where that is exactly zero.  With the means read as `meanAt` of the path scores and tail words, and the
  scores as `pathScore` (index words in range), the result array is `result` of the nine arguments.
-/
import proofs.«404836_j17403207483556_2_alg».proof.Proof.RefRead
import proofs.«404836_j17403207483556_2_alg».proof.Proof.Spec
import proofs.«404836_j17403207483556_2_alg».proof.Proof.RefScore
import proofs.«404836_j17403207483556_2_alg».proof.Proof.RefMean
import Idealize.ShloMosaic.Lib.ValueIdx

noncomputable section

namespace Cert.ReferenceIdeal.RefResult

open Idealize.ShloMosaic Idealize.ShloMosaic.ValueIdx Idealize.SL.Sem Cert.ReferenceIdeal Cert.ReferenceIdeal.Read

/-- The reference's result array is `result` of its arguments when every table index word is below 21000 and every tail
    word below 20575. -/
theorem result_eq (x0 : (⟨S21000x200, .f32⟩ : BufTy).Contents (Elt Ideal)) (x1 : (⟨S128x200, .f32⟩ : BufTy).Contents (Elt Ideal)) (x2 x3 x4 x5 x6 x7 x8 : (⟨S128x512, .i32⟩ : BufTy).Contents (Elt Ideal))
    (h2 : ∀ i, (x2 i).toNat < 21000) (h3 : ∀ i, (x3 i).toNat < 21000) (h4 : ∀ i, (x4 i).toNat < 21000)
    (h5 : ∀ i, (x5 i).toNat < 21000) (h6 : ∀ i, (x6 i).toNat < 21000)
    (h7 : ∀ i, (x7 i).toNat < 20575) (h8 : ∀ i, (x8 i).toNat < 20575) :
    val_main_v175 (F := Ideal) x0 x1 x2 x3 x4 x5 x6 x7 x8 = Cert.PathSpec.result x0 x1 x2 x3 x4 x5 x6 x7 x8 := by
  funext i
  obtain ⟨b, e, rfl⟩ : ∃ (b : Fin 128) (e : Fin 20575), i = ix2 b e := ⟨i 0, i 1, eq_ix2 i⟩
  have hm1 : val_main_v100 (F := Ideal) x0 x1 x2 x3 x4 x7 (ix2 b e)
      = Cert.PathSpec.meanAt (fun p => Cert.PathSpec.pathScore x0 x1 x2 x3 x4 b p) (fun p => x7 (ix2 b p)) e.val := by
    rw [Cert.ReferenceIdeal.RefMean.mean_one_eq x0 x1 x2 x3 x4 x7 h7 b e,
      funext fun p => Cert.ReferenceIdeal.RefScore.score_one_eq x0 x1 x2 x3 x4 h2 h3 h4 b p]
  have hm2 : val_main_v165 (F := Ideal) x0 x1 x4 x5 x6 x8 (ix2 b e)
      = Cert.PathSpec.meanAt (fun p => Cert.PathSpec.pathScore x0 x1 x4 x5 x6 b p) (fun p => x8 (ix2 b p)) e.val := by
    rw [Cert.ReferenceIdeal.RefMean.mean_two_eq x0 x1 x4 x5 x6 x8 h8 b e,
      funext fun p => Cert.ReferenceIdeal.RefScore.score_two_eq x0 x1 x4 x5 x6 h4 h5 h6 b p]
  rw [val_main_v175_apply, val_main_v174_apply, val_main_v172_apply, val_main_v171_apply, val_main_v169_apply, val_main_v168_apply,
    val_main_v170_apply, val_main_v167_apply, val_main_v166_apply, val_main_v173_apply, val_main_call2_v1_apply, hm1, hm2]
  rfl

end Cert.ReferenceIdeal.RefResult

end
-- ==== Proof.PreDecode.lean ====
/-
  What the precondition says of the index words.

  Besides finiteness of the two float inputs (not used by this certificate: no step of the equivalence needs it),
  the precondition is the conjunction, over the seven integer inputs, of "every word is at least 0 and below N"
  (signed comparisons), N = 21000 for the five table indices and 20575 for the two tail indices.  A signed word
  that is non-negative and below N < 2^31 has natural-number value below N.

  The predicate's value is an "and" of nine one-bit words, so each is 1.  Each of the seven that concern an integer
  input is the "and" over all 128 × 512 positions of (word ≥ 0) ∧ (word < N), so at every position both comparisons
  hold; read signed, 0 ≤ x < N with N < 2^31 puts x in the non-negative half, where the signed and the natural-number
  readings agree.
-/
import proofs.«404836_j17403207483556_2_alg».proof.Pre_finite_inputs
import proofs.«404836_j17403207483556_2_alg».proof.Proof.Gen.Pre_finite_inputs
import Idealize.ShloMosaic.Lib.ValueIdx
import Idealize.ShloMosaic.Lib.ReduceAll
import Idealize.ShloMosaic.Lib.StableHlo.Predicate

noncomputable section

namespace Cert.Proof.PreDecode

open Idealize.ShloMosaic Idealize.ShloMosaic.ValueIdx Cert.Pre_finite_inputs

/-- A rank-0 array has one index. -/
local instance subsingletonScalarIdx : Subsingleton S_.Idx := ⟨fun _ _ => funext fun d => d.elim0⟩

/-- A 32-bit word that, read signed, is at least 0 and below `N`, with `N < 2^31`, is below `N` read as a natural
    number: a non-negative signed word is its natural-number value. -/
private theorem toNat_lt_of_signed {x : BitVec 32} {N : ℕ} (hN : N < 2 ^ 31)
    (h0 : IntOp.cmpi .sge x 0#32 = 1#1) (h1 : IntOp.cmpi .slt x (BitVec.ofNat 32 N) = 1#1) : x.toNat < N := by
  have hge : (0#32 : BitVec 32).toInt ≤ x.toInt := IntOp.cmpi_sge.1 h0
  have hlt : x.toInt < (BitVec.ofNat 32 N).toInt := IntOp.cmpi_slt.1 h1
  rw [StableHlo.Predicate.toInt_ofNat_small N hN] at hlt
  rw [BitVec.toInt_zero] at hge
  have hx := BitVec.toInt_eq_toNat_cond x
  have hxlt := x.isLt
  by_cases hc : 2 * x.toNat < 2 ^ 32
  · rw [if_pos hc] at hx; omega
  · rw [if_neg hc] at hx; omega

/-- If the "and" over all positions of (word ≥ 0) ∧ (word < N) is 1, every word of the array is below `N`. -/
private theorem below_of_all (X : IVec S128x512 32) (N : ℕ) (hN : N < 2 ^ 31)
    (hb : S_.BroadcastsInDim S128x512 (![] : Fin 0 → Fin S128x512.rank))
    (hr : S128x512.ReducesTo [0, 1] S_) (h0 : 0 < S_.numel)
    (e : Host.reduce IntOp.andi
          (andi (cmpi .sge X (broadcastInDim S128x512 ![] hb (constantI S_ 32 0#32)))
            (cmpi .slt X (broadcastInDim S128x512 ![] hb (constantI S_ 32 (BitVec.ofNat 32 N)))))
          (constantI S_ 1 1#1) hr h0 ix0 = 1#1) (i : S128x512.Idx) : (X i).toNat < N := by
  have h1 := Host.reduce_andi_all _ _ hr h0 ix0 e i
  obtain ⟨hge, hlt⟩ := IntOp.andi_eq_one.1 h1
  exact toNat_lt_of_signed hN hge hlt

/-- Under the precondition every table index word is below 21000 and every tail word below 20575. -/
theorem ranges (a0 : FVec Ideal S21000x200 .f32) (a1 : FVec Ideal S128x200 .f32) (a2 a3 a4 a5 a6 a7 a8 : IVec S128x512 32)
    (h : Cert.Pre_finite_inputs.fn (F := Ideal) a0 a1 a2 a3 a4 a5 a6 a7 a8 = fun _ => 1#1) :
    (∀ i, (a2 i).toNat < 21000) ∧ (∀ i, (a3 i).toNat < 21000) ∧ (∀ i, (a4 i).toNat < 21000) ∧ (∀ i, (a5 i).toNat < 21000)
      ∧ (∀ i, (a6 i).toNat < 21000) ∧ (∀ i, (a7 i).toNat < 20575) ∧ (∀ i, (a8 i).toNat < 20575) := by
  have e := congrFun h ix0
  dsimp only [fn, fn_part1, fn_part2, fn_part3] at e
  -- the value is a left-nested "and" of nine words: peel the seven integer conjuncts off, last first
  obtain ⟨e, h8⟩ := IntOp.andi_eq_one.1 e
  obtain ⟨e, h7⟩ := IntOp.andi_eq_one.1 e
  obtain ⟨e, h6⟩ := IntOp.andi_eq_one.1 e
  obtain ⟨e, h5⟩ := IntOp.andi_eq_one.1 e
  obtain ⟨e, h4⟩ := IntOp.andi_eq_one.1 e
  obtain ⟨e, h3⟩ := IntOp.andi_eq_one.1 e
  obtain ⟨-, h2⟩ := IntOp.andi_eq_one.1 e
  exact ⟨below_of_all a2 21000 (by decide) _ _ _ h2, below_of_all a3 21000 (by decide) _ _ _ h3,
    below_of_all a4 21000 (by decide) _ _ _ h4, below_of_all a5 21000 (by decide) _ _ _ h5,
    below_of_all a6 21000 (by decide) _ _ _ h6, below_of_all a7 20575 (by decide) _ _ _ h7,
    below_of_all a8 20575 (by decide) _ _ _ h8⟩

end Cert.Proof.PreDecode

end
-- ==== Proof.lean ====
/-
  A gather-score-scatter kernel against its reference: the five claims.

  Both programs compute, for each of 128 questions and 20575 entities, a combination of two means of path scores.  A path's
  score is a complex three-way product of three rows of an embedding table named by the path's index words; the kernel reads
  a row as a sum of one-hot products over the table's 21000 rows, the reference by a row gather, and the two agree when the
  index word names a row of the table.  The mean over the paths ending at an entity is taken by the kernel as one-hot row
  sums over the 512 paths of a question, by the reference as a scatter-add over flattened (question, entity) slots, and the two
  agree when every tail word is an entity of its own question.  Under the precondition — finite float inputs, table index
  words in [0, 21000), tail words in [0, 20575) — both result arrays are `Cert.PathSpec.result` of the nine arguments.
  The frames of the two kernel programs are the generated ones; the reference's frame is its run with the result dropped;
  the idealization rewrote nothing, so its claim is trivial.
-/
import proofs.«404836_j17403207483556_2_alg».proof.Defs
import proofs.«404836_j17403207483556_2_alg».proof.Proof.Gen.Kernel
import proofs.«404836_j17403207483556_2_alg».proof.Proof.Gen.Kernel.Frame
import proofs.«404836_j17403207483556_2_alg».proof.Proof.Gen.KernelIdeal
import proofs.«404836_j17403207483556_2_alg».proof.Proof.Gen.KernelIdeal.Frame
import proofs.«404836_j17403207483556_2_alg».proof.Proof.Gen.ReferenceIdeal
import proofs.«404836_j17403207483556_2_alg».proof.Proof.Gen.Pre_finite_inputs
import proofs.«404836_j17403207483556_2_alg».proof.Proof.Spec
import proofs.«404836_j17403207483556_2_alg».proof.Proof.KernelRun
import proofs.«404836_j17403207483556_2_alg».proof.Proof.HostSide
import proofs.«404836_j17403207483556_2_alg».proof.Proof.RefRun
import proofs.«404836_j17403207483556_2_alg».proof.Proof.RefRead
import proofs.«404836_j17403207483556_2_alg».proof.Proof.RefResult
import proofs.«404836_j17403207483556_2_alg».proof.Proof.PreDecode
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- Both programs end with `result` of the arguments: the kernel's program by its run through the two regions and the
    host reshapes, the reference by its run read stage by stage, the index words in range by the precondition. -/
theorem algebraic : Cert.algebraic_KernelIdeal_ReferenceIdeal := by
  intro m ρ m' ρ' hpre hagree
  refine ⟨fun c => Cert.PathSpec.result (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run Cert.KernelIdeal.defs _ _).mono
      (fun r h c => ⟨(h c).1.trans (Cert.KernelIdeal.HostSide.result_eq m ρ c), (h c).2⟩)
      (Cert.KernelIdeal.Gen.run_named m ρ)
  · refine (θ_run Cert.ReferenceIdeal.defs _ _).mono (fun r h c => ⟨?_, (h c).2⟩)
      (Cert.ReferenceIdeal.Value.run (F := Ideal) m' ρ')
    obtain ⟨r2, r3, r4, r5, r6, r7, r8⟩ := Cert.Proof.PreDecode.ranges _ _ _ _ _ _ _ _ _ (hpre c)
    rw [(h c).1, Cert.ReferenceIdeal.Read.val_main_v175_eq, (hagree c).1, (hagree c).2.1, (hagree c).2.2.1, (hagree c).2.2.2.1,
      (hagree c).2.2.2.2.1, (hagree c).2.2.2.2.2.1, (hagree c).2.2.2.2.2.2.1, (hagree c).2.2.2.2.2.2.2.1, (hagree c).2.2.2.2.2.2.2.2]
    exact Cert.ReferenceIdeal.RefResult.result_eq _ _ _ _ _ _ _ _ _ r2 r3 r4 r5 r6 r7 r8

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
